-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)) →
    ∃ (v0 : (c : Dev Cert.KernelIdeal.nD) → Buf (Elt Ideal) ((c.tc : Thread Cert.KernelIdeal.nD Cert.KernelIdeal.τ).loc Cert.KernelIdeal.main_v72)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v72) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v86) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S800000 : Shape := ⟨1, ![800000]⟩
abbrev S256x64 : Shape := ⟨2, ![256, 64]⟩
abbrev S64 : Shape := ⟨1, ![64]⟩
abbrev S64x128 : Shape := ⟨2, ![64, 128]⟩
abbrev S128 : Shape := ⟨1, ![128]⟩
abbrev S128x64 : Shape := ⟨2, ![128, 64]⟩
abbrev S64x1 : Shape := ⟨2, ![64, 1]⟩
abbrev S1 : Shape := ⟨1, ![1]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S256x64 : S_.BroadcastsInDim S256x64 (![] : Fin 0 → Fin S256x64.rank)
  reducesTo_S256x64_S_d0_1 : S256x64.ReducesTo [0, 1] S_
  bcast_S_S64 : S_.BroadcastsInDim S64 (![] : Fin 0 → Fin S64.rank)
  reducesTo_S64_S_d0 : S64.ReducesTo [0] S_
  bcast_S_S64x128 : S_.BroadcastsInDim S64x128 (![] : Fin 0 → Fin S64x128.rank)
  reducesTo_S64x128_S_d0_1 : S64x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64x1 : S_.BroadcastsInDim S64x1 (![] : Fin 0 → Fin S64x1.rank)
  reducesTo_S64x1_S_d0_1 : S64x1.ReducesTo [0, 1] S_
  bcast_S_S1 : S_.BroadcastsInDim S1 (![] : Fin 0 → Fin S1.rank)
  reducesTo_S1_S_d0 : S1.ReducesTo [0] S_
  bcast_S_S800000 : S_.BroadcastsInDim S800000 (![] : Fin 0 → Fin S800000.rank)
  reducesTo_S800000_S_d0 : S800000.ReducesTo [0] S_

variable [Facts]

def fn_part3 {F : FTy → Type} [FloatOps F] (main_arg2 : IVec S800000 32) (main_arg13 : FVec F S64x1 .f32) (main_arg14 : FVec F S1 .f32) (main_v48 : IVec S_ 1) (main_v49 : FVec F S64 .f32) (main_v50 : FVec F S64 .f32) : IVec S_ 1 :=
  let main_v51 : IVec S64 1 := cmpf .olt main_v49 main_v50
  let main_c_19 : IVec S_ 1 := constantI S_ 1 1#1
  let main_v52 : IVec S_ 1 := (fun x v => Host.reduce IntOp.andi x v reducesTo_S64_S_d0 h_S_) main_v51 main_c_19
  let main_v53 : IVec S_ 1 := andi main_v48 main_v52
  let main_v54 : FVec F S64x1 .f32 := Host.absf main_arg13
  let main_cst_20 : FVec F S_ .f32 := constant S_ .f32 0x7F800000#32
  let main_v55 : FVec F S64x1 .f32 := broadcastInDim S64x1 ![] bcast_S_S64x1 main_cst_20
  let main_v56 : IVec S64x1 1 := cmpf .olt main_v54 main_v55
  let main_c_21 : IVec S_ 1 := constantI S_ 1 1#1
  let main_v57 : IVec S_ 1 := (fun x v => Host.reduce IntOp.andi x v reducesTo_S64x1_S_d0_1 h_S_) main_v56 main_c_21
  let main_v58 : IVec S_ 1 := andi main_v53 main_v57
  let main_v59 : FVec F S1 .f32 := Host.absf main_arg14
  let main_cst_22 : FVec F S_ .f32 := constant S_ .f32 0x7F800000#32
  let main_v60 : FVec F S1 .f32 := broadcastInDim S1 ![] bcast_S_S1 main_cst_22
  let main_v61 : IVec S1 1 := cmpf .olt main_v59 main_v60
  let main_c_23 : IVec S_ 1 := constantI S_ 1 1#1
  let main_v62 : IVec S_ 1 := (fun x v => Host.reduce IntOp.andi x v reducesTo_S1_S_d0 h_S_) main_v61 main_c_23
  let main_v63 : IVec S_ 1 := andi main_v58 main_v62
  let main_c_24 : IVec S_ 32 := constantI S_ 32 0#32
  let main_v64 : IVec S800000 32 := broadcastInDim S800000 ![] bcast_S_S800000 main_c_24
  let main_v65 : IVec S800000 1 := cmpi .sge main_arg2 main_v64
  let main_c_25 : IVec S_ 1 := constantI S_ 1 1#1
  let main_v66 : IVec S_ 1 := (fun x v => Host.reduce IntOp.andi x v reducesTo_S800000_S_d0 h_S_) main_v65 main_c_25
  let main_v67 : IVec S_ 1 := andi main_v63 main_v66
  main_v67

def fn_part2 {F : FTy → Type} [FloatOps F] (main_arg2 : IVec S800000 32) (main_arg9 : FVec F S64x128 .f32) (main_arg10 : FVec F S128 .f32) (main_arg11 : FVec F S128x64 .f32) (main_arg12 : FVec F S64 .f32) (main_arg13 : FVec F S64x1 .f32) (main_arg14 : FVec F S1 .f32) (main_v33 : IVec S_ 1) : IVec S_ 1 :=
  let main_v34 : FVec F S64x128 .f32 := Host.absf main_arg9
  let main_cst_12 : FVec F S_ .f32 := constant S_ .f32 0x7F800000#32
  let main_v35 : FVec F S64x128 .f32 := broadcastInDim S64x128 ![] bcast_S_S64x128 main_cst_12
  let main_v36 : IVec S64x128 1 := cmpf .olt main_v34 main_v35
  let main_c_13 : IVec S_ 1 := constantI S_ 1 1#1
  let main_v37 : IVec S_ 1 := (fun x v => Host.reduce IntOp.andi x v reducesTo_S64x128_S_d0_1 h_S_) main_v36 main_c_13
  let main_v38 : IVec S_ 1 := andi main_v33 main_v37
  let main_v39 : FVec F S128 .f32 := Host.absf main_arg10
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S128x64 .f32 := Host.absf main_arg11
  let main_cst_16 : FVec F S_ .f32 := constant S_ .f32 0x7F800000#32
  let main_v45 : FVec F S128x64 .f32 := broadcastInDim S128x64 ![] bcast_S_S128x64 main_cst_16
  let main_v46 : IVec S128x64 1 := cmpf .olt main_v44 main_v45
  let main_c_17 : IVec S_ 1 := constantI S_ 1 1#1
  let main_v47 : IVec S_ 1 := (fun x v => Host.reduce IntOp.andi x v reducesTo_S128x64_S_d0_1 h_S_) main_v46 main_c_17
  let main_v48 : IVec S_ 1 := andi main_v43 main_v47
  let main_v49 : FVec F S64 .f32 := Host.absf main_arg12
  let main_cst_18 : FVec F S_ .f32 := constant S_ .f32 0x7F800000#32
  let main_v50 : FVec F S64 .f32 := broadcastInDim S64 ![] bcast_S_S64 main_cst_18
  fn_part3 (F := F) main_arg2 main_arg13 main_arg14 main_v48 main_v49 main_v50

def fn_part1 {F : FTy → Type} [FloatOps F] (main_arg2 : IVec S800000 32) (main_arg6 : FVec F S128 .f32) (main_arg7 : FVec F S256x64 .f32) (main_arg8 : FVec F S64 .f32) (main_arg9 : FVec F S64x128 .f32) (main_arg10 : FVec F S128 .f32) (main_arg11 : FVec F S128x64 .f32) (main_arg12 : FVec F S64 .f32) (main_arg13 : FVec F S64x1 .f32) (main_arg14 : FVec F S1 .f32) (main_v13 : IVec S_ 1) (main_v16 : IVec S64x128 1) : IVec S_ 1 :=
  let main_c_5 : IVec S_ 1 := constantI S_ 1 1#1
  let main_v17 : IVec S_ 1 := (fun x v => Host.reduce IntOp.andi x v reducesTo_S64x128_S_d0_1 h_S_) main_v16 main_c_5
  let main_v18 : IVec S_ 1 := andi main_v13 main_v17
  let main_v19 : FVec F S128 .f32 := Host.absf main_arg6
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S256x64 .f32 := Host.absf main_arg7
  let main_cst_8 : FVec F S_ .f32 := constant S_ .f32 0x7F800000#32
  let main_v25 : FVec F S256x64 .f32 := broadcastInDim S256x64 ![] bcast_S_S256x64 main_cst_8
  let main_v26 : IVec S256x64 1 := cmpf .olt main_v24 main_v25
  let main_c_9 : IVec S_ 1 := constantI S_ 1 1#1
  let main_v27 : IVec S_ 1 := (fun x v => Host.reduce IntOp.andi x v reducesTo_S256x64_S_d0_1 h_S_) main_v26 main_c_9
  let main_v28 : IVec S_ 1 := andi main_v23 main_v27
  let main_v29 : FVec F S64 .f32 := Host.absf main_arg8
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg2 main_arg9 main_arg10 main_arg11 main_arg12 main_arg13 main_arg14 main_v33

def fn {F : FTy → Type} [FloatOps F] (main_arg0 : FVec F S50000x128 .f32) (main_arg1 : IVec S800000 32) (main_arg2 : IVec S800000 32) (main_arg3 : FVec F S256x64 .f32) (main_arg4 : FVec F S64 .f32) (main_arg5 : FVec F S64x128 .f32) (main_arg6 : FVec F S128 .f32) (main_arg7 : FVec F S256x64 .f32) (main_arg8 : FVec F S64 .f32) (main_arg9 : FVec F S64x128 .f32) (main_arg10 : FVec F S128 .f32) (main_arg11 : FVec F S128x64 .f32) (main_arg12 : FVec F S64 .f32) (main_arg13 : FVec F S64x1 .f32) (main_arg14 : FVec F S1 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S256x64 .f32 := Host.absf main_arg3
  let main_cst_0 : FVec F S_ .f32 := constant S_ .f32 0x7F800000#32
  let main_v5 : FVec F S256x64 .f32 := broadcastInDim S256x64 ![] bcast_S_S256x64 main_cst_0
  let main_v6 : IVec S256x64 1 := cmpf .olt main_v4 main_v5
  let main_c_1 : IVec S_ 1 := constantI S_ 1 1#1
  let main_v7 : IVec S_ 1 := (fun x v => Host.reduce IntOp.andi x v reducesTo_S256x64_S_d0_1 h_S_) main_v6 main_c_1
  let main_v8 : IVec S_ 1 := andi main_v3 main_v7
  let main_v9 : FVec F S64 .f32 := Host.absf main_arg4
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x128 .f32 := Host.absf main_arg5
  let main_cst_4 : FVec F S_ .f32 := constant S_ .f32 0x7F800000#32
  let main_v15 : FVec F S64x128 .f32 := broadcastInDim S64x128 ![] bcast_S_S64x128 main_cst_4
  let main_v16 : IVec S64x128 1 := cmpf .olt main_v14 main_v15
  fn_part1 (F := F) main_arg2 main_arg6 main_arg7 main_arg8 main_arg9 main_arg10 main_arg11 main_arg12 main_arg13 main_arg14 main_v13 main_v16
-- ==== Kernel.lean ====
abbrev S50000x128 : Shape := ⟨2, ![50000, 128]⟩
abbrev S800000 : Shape := ⟨1, ![800000]⟩
abbrev S256x64 : Shape := ⟨2, ![256, 64]⟩
abbrev S64 : Shape := ⟨1, ![64]⟩
abbrev S64x128 : Shape := ⟨2, ![64, 128]⟩
abbrev S128 : Shape := ⟨1, ![128]⟩
abbrev S128x64 : Shape := ⟨2, ![128, 64]⟩
abbrev S64x1 : Shape := ⟨2, ![64, 1]⟩
abbrev S1 : Shape := ⟨1, ![1]⟩
abbrev S_ : Shape := ⟨0, ![]⟩
abbrev S50000 : Shape := ⟨1, ![50000]⟩
abbrev S800000x1 : Shape := ⟨2, ![800000, 1]⟩
abbrev S50000x1 : Shape := ⟨2, ![50000, 1]⟩
abbrev S800000x128 : Shape := ⟨2, ![800000, 128]⟩
abbrev S800000x256 : Shape := ⟨2, ![800000, 256]⟩
abbrev S8000x256 : Shape := ⟨2, ![8000, 256]⟩
abbrev S8000x128 : Shape := ⟨2, ![8000, 128]⟩
abbrev S8000x64 : Shape := ⟨2, ![8000, 64]⟩
abbrev S1x64 : Shape := ⟨2, ![1, 64]⟩
abbrev S1x128 : Shape := ⟨2, ![1, 128]⟩
abbrev S5000x128 : Shape := ⟨2, ![5000, 128]⟩
abbrev S5000x1 : Shape := ⟨2, ![5000, 1]⟩
abbrev S5000x64 : Shape := ⟨2, ![5000, 64]⟩
abbrev S1x1 : Shape := ⟨2, ![1, 1]⟩

abbrev nBuf : Space → Nat
  | .hbm => 117
  | .vmem => 24
  | .smem => 0
  | _ => 0

abbrev bufTy : (tb : Table) → Fin (tcTables nBuf tb) → BufTy
  | .hbm, ⟨0, _⟩ => ⟨S50000x128, .f32⟩
  | .hbm, ⟨1, _⟩ => ⟨S800000, .i32⟩
  | .hbm, ⟨2, _⟩ => ⟨S800000, .i32⟩
  | .hbm, ⟨3, _⟩ => ⟨S256x64, .f32⟩
  | .hbm, ⟨4, _⟩ => ⟨S64, .f32⟩
  | .hbm, ⟨5, _⟩ => ⟨S64x128, .f32⟩
  | .hbm, ⟨6, _⟩ => ⟨S128, .f32⟩
  | .hbm, ⟨7, _⟩ => ⟨S256x64, .f32⟩
  | .hbm, ⟨8, _⟩ => ⟨S64, .f32⟩
  | .hbm, ⟨9, _⟩ => ⟨S64x128, .f32⟩
  | .hbm, ⟨10, _⟩ => ⟨S128, .f32⟩
  | .hbm, ⟨11, _⟩ => ⟨S128x64, .f32⟩
  | .hbm, ⟨12, _⟩ => ⟨S64, .f32⟩
  | .hbm, ⟨13, _⟩ => ⟨S64x1, .f32⟩
  | .hbm, ⟨14, _⟩ => ⟨S1, .f32⟩
  | .hbm, ⟨15, _⟩ => ⟨S_, .i32⟩
  | .hbm, ⟨16, _⟩ => ⟨S50000, .i32⟩
  | .hbm, ⟨17, _⟩ => ⟨S_, .i32⟩
  | .hbm, ⟨18, _⟩ => ⟨S_, .i32⟩
  | .hbm, ⟨19, _⟩ => ⟨S800000, .i32⟩
  | .hbm, ⟨20, _⟩ => ⟨S800000, .i32⟩
  | .hbm, ⟨21, _⟩ => ⟨S_, .i32⟩
  | .hbm, ⟨22, _⟩ => ⟨S800000, .i32⟩
  | .hbm, ⟨23, _⟩ => ⟨S800000, .i1⟩
  | .hbm, ⟨24, _⟩ => ⟨S_, .i32⟩
  | .hbm, ⟨25, _⟩ => ⟨S800000, .i32⟩
  | .hbm, ⟨26, _⟩ => ⟨S800000, .i32⟩
  | .hbm, ⟨27, _⟩ => ⟨S800000, .i32⟩
  | .hbm, ⟨28, _⟩ => ⟨S800000x1, .i32⟩
  | .hbm, ⟨29, _⟩ => ⟨S_, .i32⟩
  | .hbm, ⟨30, _⟩ => ⟨S800000, .i32⟩
  | .hbm, ⟨31, _⟩ => ⟨S50000, .i32⟩
  | .hbm, ⟨32, _⟩ => ⟨S50000, .f32⟩
  | .hbm, ⟨33, _⟩ => ⟨S50000x1, .f32⟩
  | .hbm, ⟨34, _⟩ => ⟨S_, .i32⟩
  | .hbm, ⟨35, _⟩ => ⟨S800000, .i32⟩
  | .hbm, ⟨36, _⟩ => ⟨S800000, .i1⟩
  | .hbm, ⟨37, _⟩ => ⟨S_, .i32⟩
  | .hbm, ⟨38, _⟩ => ⟨S800000, .i32⟩
  | .hbm, ⟨39, _⟩ => ⟨S800000, .i32⟩
  | .hbm, ⟨40, _⟩ => ⟨S800000, .i32⟩
  | .hbm, ⟨41, _⟩ => ⟨S800000x1, .i32⟩
  | .hbm, ⟨42, _⟩ => ⟨S800000x128, .f32⟩
  | .hbm, ⟨43, _⟩ => ⟨S_, .i32⟩
  | .hbm, ⟨44, _⟩ => ⟨S800000, .i32⟩
  | .hbm, ⟨45, _⟩ => ⟨S800000, .i1⟩
  | .hbm, ⟨46, _⟩ => ⟨S_, .i32⟩
  | .hbm, ⟨47, _⟩ => ⟨S800000, .i32⟩
  | .hbm, ⟨48, _⟩ => ⟨S800000, .i32⟩
  | .hbm, ⟨49, _⟩ => ⟨S800000, .i32⟩
  | .hbm, ⟨50, _⟩ => ⟨S800000x1, .i32⟩
  | .hbm, ⟨51, _⟩ => ⟨S800000x128, .f32⟩
  | .hbm, ⟨52, _⟩ => ⟨S800000x256, .f32⟩
  | .hbm, ⟨53, _⟩ => ⟨S800000x256, .bf16⟩
  | .hbm, ⟨54, _⟩ => ⟨S256x64, .bf16⟩
  | .hbm, ⟨55, _⟩ => ⟨S64x128, .bf16⟩
  | .hbm, ⟨56, _⟩ => ⟨S800000x128, .f32⟩
  | .hbm, ⟨57, _⟩ => ⟨S_, .f32⟩
  | .hbm, ⟨58, _⟩ => ⟨S50000x128, .f32⟩
  | .hbm, ⟨59, _⟩ => ⟨S800000x1, .i32⟩
  | .hbm, ⟨60, _⟩ => ⟨S50000x128, .f32⟩
  | .hbm, ⟨61, _⟩ => ⟨S_, .f32⟩
  | .hbm, ⟨62, _⟩ => ⟨S50000x1, .f32⟩
  | .hbm, ⟨63, _⟩ => ⟨S50000x1, .i1⟩
  | .hbm, ⟨64, _⟩ => ⟨S_, .f32⟩
  | .hbm, ⟨65, _⟩ => ⟨S50000x1, .f32⟩
  | .hbm, ⟨66, _⟩ => ⟨S50000x1, .f32⟩
  | .hbm, ⟨67, _⟩ => ⟨S50000x128, .f32⟩
  | .hbm, ⟨68, _⟩ => ⟨S50000x128, .f32⟩
  | .hbm, ⟨69, _⟩ => ⟨S_, .f32⟩
  | .hbm, ⟨70, _⟩ => ⟨S_, .f32⟩
  | .hbm, ⟨71, _⟩ => ⟨S50000x128, .i1⟩
  | .hbm, ⟨72, _⟩ => ⟨S50000x128, .f32⟩
  | .hbm, ⟨73, _⟩ => ⟨S50000x128, .f32⟩
  | .hbm, ⟨74, _⟩ => ⟨S_, .i32⟩
  | .hbm, ⟨75, _⟩ => ⟨S800000, .i32⟩
  | .hbm, ⟨76, _⟩ => ⟨S800000, .i1⟩
  | .hbm, ⟨77, _⟩ => ⟨S_, .i32⟩
  | .hbm, ⟨78, _⟩ => ⟨S800000, .i32⟩
  | .hbm, ⟨79, _⟩ => ⟨S800000, .i32⟩
  | .hbm, ⟨80, _⟩ => ⟨S800000, .i32⟩
  | .hbm, ⟨81, _⟩ => ⟨S800000x1, .i32⟩
  | .hbm, ⟨82, _⟩ => ⟨S800000x128, .f32⟩
  | .hbm, ⟨83, _⟩ => ⟨S_, .i32⟩
  | .hbm, ⟨84, _⟩ => ⟨S800000, .i32⟩
  | .hbm, ⟨85, _⟩ => ⟨S800000, .i1⟩
  | .hbm, ⟨86, _⟩ => ⟨S_, .i32⟩
  | .hbm, ⟨87, _⟩ => ⟨S800000, .i32⟩
  | .hbm, ⟨88, _⟩ => ⟨S800000, .i32⟩
  | .hbm, ⟨89, _⟩ => ⟨S800000, .i32⟩
  | .hbm, ⟨90, _⟩ => ⟨S800000x1, .i32⟩
  | .hbm, ⟨91, _⟩ => ⟨S800000x128, .f32⟩
  | .hbm, ⟨92, _⟩ => ⟨S800000x256, .f32⟩
  | .hbm, ⟨93, _⟩ => ⟨S800000x256, .bf16⟩
  | .hbm, ⟨94, _⟩ => ⟨S256x64, .bf16⟩
  | .hbm, ⟨95, _⟩ => ⟨S64x128, .bf16⟩
  | .hbm, ⟨96, _⟩ => ⟨S800000x128, .f32⟩
  | .hbm, ⟨97, _⟩ => ⟨S_, .f32⟩
  | .hbm, ⟨98, _⟩ => ⟨S50000x128, .f32⟩
  | .hbm, ⟨99, _⟩ => ⟨S800000x1, .i32⟩
  | .hbm, ⟨100, _⟩ => ⟨S50000x128, .f32⟩
  | .hbm, ⟨101, _⟩ => ⟨S_, .f32⟩
  | .hbm, ⟨102, _⟩ => ⟨S50000x1, .f32⟩
  | .hbm, ⟨103, _⟩ => ⟨S50000x1, .i1⟩
  | .hbm, ⟨104, _⟩ => ⟨S_, .f32⟩
  | .hbm, ⟨105, _⟩ => ⟨S50000x1, .f32⟩
  | .hbm, ⟨106, _⟩ => ⟨S50000x1, .f32⟩
  | .hbm, ⟨107, _⟩ => ⟨S50000x128, .f32⟩
  | .hbm, ⟨108, _⟩ => ⟨S50000x128, .f32⟩
  | .hbm, ⟨109, _⟩ => ⟨S_, .f32⟩
  | .hbm, ⟨110, _⟩ => ⟨S_, .f32⟩
  | .hbm, ⟨111, _⟩ => ⟨S50000x128, .i1⟩
  | .hbm, ⟨112, _⟩ => ⟨S50000x128, .f32⟩
  | .hbm, ⟨113, _⟩ => ⟨S50000x128, .f32⟩
  | .hbm, ⟨114, _⟩ => ⟨S128x64, .bf16⟩
  | .hbm, ⟨115, _⟩ => ⟨S64x1, .bf16⟩
  | .hbm, ⟨116, _⟩ => ⟨S50000x1, .f32⟩
  | .local _ .vmem, ⟨0, _⟩ => ⟨S8000x256, .bf16⟩
  | .local _ .vmem, ⟨1, _⟩ => ⟨S8000x256, .bf16⟩
  | .local _ .vmem, ⟨2, _⟩ => ⟨S256x64, .bf16⟩
  | .local _ .vmem, ⟨3, _⟩ => ⟨S64, .f32⟩
  | .local _ .vmem, ⟨4, _⟩ => ⟨S64x128, .bf16⟩
  | .local _ .vmem, ⟨5, _⟩ => ⟨S128, .f32⟩
  | .local _ .vmem, ⟨6, _⟩ => ⟨S8000x128, .f32⟩
  | .local _ .vmem, ⟨7, _⟩ => ⟨S8000x128, .f32⟩
  | .local _ .vmem, ⟨8, _⟩ => ⟨S8000x256, .bf16⟩
  | .local _ .vmem, ⟨9, _⟩ => ⟨S8000x256, .bf16⟩
  | .local _ .vmem, ⟨10, _⟩ => ⟨S256x64, .bf16⟩
  | .local _ .vmem, ⟨11, _⟩ => ⟨S64, .f32⟩
  | .local _ .vmem, ⟨12, _⟩ => ⟨S64x128, .bf16⟩
  | .local _ .vmem, ⟨13, _⟩ => ⟨S128, .f32⟩
  | .local _ .vmem, ⟨14, _⟩ => ⟨S8000x128, .f32⟩
  | .local _ .vmem, ⟨15, _⟩ => ⟨S8000x128, .f32⟩
  | .local _ .vmem, ⟨16, _⟩ => ⟨S5000x128, .f32⟩
  | .local _ .vmem, ⟨17, _⟩ => ⟨S5000x128, .f32⟩
  | .local _ .vmem, ⟨18, _⟩ => ⟨S128x64, .bf16⟩
  | .local _ .vmem, ⟨19, _⟩ => ⟨S64, .f32⟩
  | .local _ .vmem, ⟨20, _⟩ => ⟨S64x1, .bf16⟩
  | .local _ .vmem, ⟨21, _⟩ => ⟨S1, .f32⟩
  | .local _ .vmem, ⟨22, _⟩ => ⟨S5000x1, .f32⟩
  | .local _ .vmem, ⟨23, _⟩ => ⟨S5000x1, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_c : Ref sig .tc := ⟨.hbm, 15, rfl⟩
abbrev main_v0 : Ref sig .tc := ⟨.hbm, 16, rfl⟩
abbrev main_c_0 : Ref sig .tc := ⟨.hbm, 17, rfl⟩
abbrev main_call0_v0 : Ref sig .tc := ⟨.hbm, 18, rfl⟩
abbrev main_call0_v1 : Ref sig .tc := ⟨.hbm, 19, rfl⟩
abbrev main_v1 : Ref sig .tc := ⟨.hbm, 20, rfl⟩
abbrev main_c_1 : Ref sig .tc := ⟨.hbm, 21, rfl⟩
abbrev main_v2 : Ref sig .tc := ⟨.hbm, 22, rfl⟩
abbrev main_v3 : Ref sig .tc := ⟨.hbm, 23, rfl⟩
abbrev main_c_2 : Ref sig .tc := ⟨.hbm, 24, rfl⟩
abbrev main_v4 : Ref sig .tc := ⟨.hbm, 25, rfl⟩
abbrev main_v5 : Ref sig .tc := ⟨.hbm, 26, rfl⟩
abbrev main_v6 : Ref sig .tc := ⟨.hbm, 27, rfl⟩
abbrev main_v7 : Ref sig .tc := ⟨.hbm, 28, rfl⟩
abbrev main_c_3 : Ref sig .tc := ⟨.hbm, 29, rfl⟩
abbrev main_v8 : Ref sig .tc := ⟨.hbm, 30, rfl⟩
abbrev main_v9 : Ref sig .tc := ⟨.hbm, 31, rfl⟩
abbrev main_v10 : Ref sig .tc := ⟨.hbm, 32, rfl⟩
abbrev main_v11 : Ref sig .tc := ⟨.hbm, 33, rfl⟩
abbrev main_c_4 : Ref sig .tc := ⟨.hbm, 34, rfl⟩
abbrev main_v12 : Ref sig .tc := ⟨.hbm, 35, rfl⟩
abbrev main_v13 : Ref sig .tc := ⟨.hbm, 36, rfl⟩
abbrev main_c_5 : Ref sig .tc := ⟨.hbm, 37, rfl⟩
abbrev main_v14 : Ref sig .tc := ⟨.hbm, 38, rfl⟩
abbrev main_v15 : Ref sig .tc := ⟨.hbm, 39, rfl⟩
abbrev main_v16 : Ref sig .tc := ⟨.hbm, 40, rfl⟩
abbrev main_v17 : Ref sig .tc := ⟨.hbm, 41, rfl⟩
abbrev main_v18 : Ref sig .tc := ⟨.hbm, 42, rfl⟩
abbrev main_c_6 : Ref sig .tc := ⟨.hbm, 43, rfl⟩
abbrev main_v19 : Ref sig .tc := ⟨.hbm, 44, rfl⟩
abbrev main_v20 : Ref sig .tc := ⟨.hbm, 45, rfl⟩
abbrev main_c_7 : Ref sig .tc := ⟨.hbm, 46, rfl⟩
abbrev main_v21 : Ref sig .tc := ⟨.hbm, 47, rfl⟩
abbrev main_v22 : Ref sig .tc := ⟨.hbm, 48, rfl⟩
abbrev main_v23 : Ref sig .tc := ⟨.hbm, 49, rfl⟩
abbrev main_v24 : Ref sig .tc := ⟨.hbm, 50, rfl⟩
abbrev main_v25 : Ref sig .tc := ⟨.hbm, 51, rfl⟩
abbrev main_v26 : Ref sig .tc := ⟨.hbm, 52, rfl⟩
abbrev main_v27 : Ref sig .tc := ⟨.hbm, 53, rfl⟩
abbrev main_v28 : Ref sig .tc := ⟨.hbm, 54, rfl⟩
abbrev main_v29 : Ref sig .tc := ⟨.hbm, 55, rfl⟩
abbrev main_v30 : Ref sig .tc := ⟨.hbm, 56, rfl⟩
abbrev main_cst : Ref sig .tc := ⟨.hbm, 57, rfl⟩
abbrev main_v31 : Ref sig .tc := ⟨.hbm, 58, rfl⟩
abbrev main_v32 : Ref sig .tc := ⟨.hbm, 59, rfl⟩
abbrev main_v33 : Ref sig .tc := ⟨.hbm, 60, rfl⟩
abbrev main_cst_8 : Ref sig .tc := ⟨.hbm, 61, rfl⟩
abbrev main_v34 : Ref sig .tc := ⟨.hbm, 62, rfl⟩
abbrev main_v35 : Ref sig .tc := ⟨.hbm, 63, rfl⟩
abbrev main_cst_9 : Ref sig .tc := ⟨.hbm, 64, rfl⟩
abbrev main_v36 : Ref sig .tc := ⟨.hbm, 65, rfl⟩
abbrev main_v37 : Ref sig .tc := ⟨.hbm, 66, rfl⟩
abbrev main_v38 : Ref sig .tc := ⟨.hbm, 67, rfl⟩
abbrev main_v39 : Ref sig .tc := ⟨.hbm, 68, rfl⟩
abbrev main_cst_10 : Ref sig .tc := ⟨.hbm, 69, rfl⟩
abbrev main_call1_v0 : Ref sig .tc := ⟨.hbm, 70, rfl⟩
abbrev main_call1_v1 : Ref sig .tc := ⟨.hbm, 71, rfl⟩
abbrev main_call1_v2 : Ref sig .tc := ⟨.hbm, 72, rfl⟩
abbrev main_v40 : Ref sig .tc := ⟨.hbm, 73, rfl⟩
abbrev main_c_11 : Ref sig .tc := ⟨.hbm, 74, rfl⟩
abbrev main_v41 : Ref sig .tc := ⟨.hbm, 75, rfl⟩
abbrev main_v42 : Ref sig .tc := ⟨.hbm, 76, rfl⟩
abbrev main_c_12 : Ref sig .tc := ⟨.hbm, 77, rfl⟩
abbrev main_v43 : Ref sig .tc := ⟨.hbm, 78, rfl⟩
abbrev main_v44 : Ref sig .tc := ⟨.hbm, 79, rfl⟩
abbrev main_v45 : Ref sig .tc := ⟨.hbm, 80, rfl⟩
abbrev main_v46 : Ref sig .tc := ⟨.hbm, 81, rfl⟩
abbrev main_v47 : Ref sig .tc := ⟨.hbm, 82, rfl⟩
abbrev main_c_13 : Ref sig .tc := ⟨.hbm, 83, rfl⟩
abbrev main_v48 : Ref sig .tc := ⟨.hbm, 84, rfl⟩
abbrev main_v49 : Ref sig .tc := ⟨.hbm, 85, rfl⟩
abbrev main_c_14 : Ref sig .tc := ⟨.hbm, 86, rfl⟩
abbrev main_v50 : Ref sig .tc := ⟨.hbm, 87, rfl⟩
abbrev main_v51 : Ref sig .tc := ⟨.hbm, 88, rfl⟩
abbrev main_v52 : Ref sig .tc := ⟨.hbm, 89, rfl⟩
abbrev main_v53 : Ref sig .tc := ⟨.hbm, 90, rfl⟩
abbrev main_v54 : Ref sig .tc := ⟨.hbm, 91, rfl⟩
abbrev main_v55 : Ref sig .tc := ⟨.hbm, 92, rfl⟩
abbrev main_v56 : Ref sig .tc := ⟨.hbm, 93, rfl⟩
abbrev main_v57 : Ref sig .tc := ⟨.hbm, 94, rfl⟩
abbrev main_v58 : Ref sig .tc := ⟨.hbm, 95, rfl⟩
abbrev main_v59 : Ref sig .tc := ⟨.hbm, 96, rfl⟩
abbrev main_cst_15 : Ref sig .tc := ⟨.hbm, 97, rfl⟩
abbrev main_v60 : Ref sig .tc := ⟨.hbm, 98, rfl⟩
abbrev main_v61 : Ref sig .tc := ⟨.hbm, 99, rfl⟩
abbrev main_v62 : Ref sig .tc := ⟨.hbm, 100, rfl⟩
abbrev main_cst_16 : Ref sig .tc := ⟨.hbm, 101, rfl⟩
abbrev main_v63 : Ref sig .tc := ⟨.hbm, 102, rfl⟩
abbrev main_v64 : Ref sig .tc := ⟨.hbm, 103, rfl⟩
abbrev main_cst_17 : Ref sig .tc := ⟨.hbm, 104, rfl⟩
abbrev main_v65 : Ref sig .tc := ⟨.hbm, 105, rfl⟩
abbrev main_v66 : Ref sig .tc := ⟨.hbm, 106, rfl⟩
abbrev main_v67 : Ref sig .tc := ⟨.hbm, 107, rfl⟩
abbrev main_v68 : Ref sig .tc := ⟨.hbm, 108, rfl⟩
abbrev main_cst_18 : Ref sig .tc := ⟨.hbm, 109, rfl⟩
abbrev main_call2_v0 : Ref sig .tc := ⟨.hbm, 110, rfl⟩
abbrev main_call2_v1 : Ref sig .tc := ⟨.hbm, 111, rfl⟩
abbrev main_call2_v2 : Ref sig .tc := ⟨.hbm, 112, rfl⟩
abbrev main_v69 : Ref sig .tc := ⟨.hbm, 113, rfl⟩
abbrev main_v70 : Ref sig .tc := ⟨.hbm, 114, rfl⟩
abbrev main_v71 : Ref sig .tc := ⟨.hbm, 115, rfl⟩
abbrev main_v72 : Ref sig .tc := ⟨.hbm, 116, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg4_0 : Ref sig .tc := ⟨.vmem, 13, rfl⟩
abbrev cc1_stg5_0 : Ref sig .tc := ⟨.vmem, 14, rfl⟩
abbrev cc1_stg5_1 : Ref sig .tc := ⟨.vmem, 15, rfl⟩
abbrev cc2_stg0_0 : Ref sig .tc := ⟨.vmem, 16, rfl⟩
abbrev cc2_stg0_1 : Ref sig .tc := ⟨.vmem, 17, rfl⟩
abbrev cc2_stg1_0 : Ref sig .tc := ⟨.vmem, 18, rfl⟩
abbrev cc2_stg2_0 : Ref sig .tc := ⟨.vmem, 19, rfl⟩
abbrev cc2_stg3_0 : Ref sig .tc := ⟨.vmem, 20, rfl⟩
abbrev cc2_stg4_0 : Ref sig .tc := ⟨.vmem, 21, rfl⟩
abbrev cc2_stg5_0 : Ref sig .tc := ⟨.vmem, 22, rfl⟩
abbrev cc2_stg5_1 : Ref sig .tc := ⟨.vmem, 23, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc1_sem0_0 : DmaSem sig := 8
abbrev cc1_sem0_1 : DmaSem sig := 9
abbrev cc1_sem1_0 : DmaSem sig := 10
abbrev cc1_sem2_0 : DmaSem sig := 11
abbrev cc1_sem3_0 : DmaSem sig := 12
abbrev cc1_sem4_0 : DmaSem sig := 13
abbrev cc1_sem5_0 : DmaSem sig := 14
abbrev cc1_sem5_1 : DmaSem sig := 15
abbrev cc2_sem0_0 : DmaSem sig := 16
abbrev cc2_sem0_1 : DmaSem sig := 17
abbrev cc2_sem1_0 : DmaSem sig := 18
abbrev cc2_sem2_0 : DmaSem sig := 19
abbrev cc2_sem3_0 : DmaSem sig := 20
abbrev cc2_sem4_0 : DmaSem sig := 21
abbrev cc2_sem5_0 : DmaSem sig := 22
abbrev cc2_sem5_1 : DmaSem sig := 23

abbrev nD : Nat := 1
abbrev τ : Topo := Topo.v7x

variable {F : FTy → Type} [FloatOps F]

abbrev grid0 : Pipeline.Grid := ⟨1, ![100], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8000x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x64 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S8000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![100], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S8000x256 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S256x64 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S64x128 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S8000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x64 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S64x1 .bf16 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S5000x1 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

class Facts₀ : Prop where
  bcast_S_S50000 : S_.BroadcastsInDim S50000 (![] : Fin 0 → Fin S50000.rank)
  bcast_S_S800000 : S_.BroadcastsInDim S800000 (![] : Fin 0 → Fin S800000.rank)
  bcast_S800000_S800000x1_0 : S800000.BroadcastsInDim S800000x1 (![0] : Fin 1 → Fin S800000x1.rank)
  bcast_S50000_S50000x1_0 : S50000.BroadcastsInDim S50000x1 (![0] : Fin 1 → Fin S50000x1.rank)
  concatenates_S800000x128_S800000x128_S800000x256_d1 : Shape.Concatenates [S800000x128, S800000x128] S800000x256 1
  bitsLt_bf16_f32 : FTy.bits .bf16 < FTy.bits .f32
  inb_S8000x256_S8000x256_0_0 : ∀ a, (![0, 0] : Fin 2 → Nat) a + S8000x256.size a ≤ S8000x256.size a
  h_S8000x256 : 0 < S8000x256.numel
  shapeCasts_S8000x256_S8000x256 : S8000x256.ShapeCasts S8000x256
  inb_S256x64_S256x64_0_0 : ∀ a, (![0, 0] : Fin 2 → Nat) a + S256x64.size a ≤ S256x64.size a
  h_S256x64 : 0 < S256x64.numel
  shapeCasts_S256x64_S256x64 : S256x64.ShapeCasts S256x64
  inb_S64_S64_0 : ∀ a, (![0] : Fin 1 → Nat) a + S64.size a ≤ S64.size a
  h_S64 : 0 < S64.numel
  shapeCasts_S64_S1x64 : S64.ShapeCasts S1x64
  broadcasts_S1x64_S8000x64 : S1x64.Broadcasts S8000x64
  inb_S64x128_S64x128_0_0 : ∀ a, (![0, 0] : Fin 2 → Nat) a + S64x128.size a ≤ S64x128.size a
  h_S64x128 : 0 < S64x128.numel
  shapeCasts_S64x128_S64x128 : S64x128.ShapeCasts S64x128
  inb_S128_S128_0 : ∀ a, (![0] : Fin 1 → Nat) a + S128.size a ≤ S128.size a
  h_S128 : 0 < S128.numel
  shapeCasts_S128_S1x128 : S128.ShapeCasts S1x128
  broadcasts_S1x128_S8000x128 : S1x128.Broadcasts S8000x128
  inb_S8000x128_S8000x128_0_0 : ∀ a, (![0, 0] : Fin 2 → Nat) a + S8000x128.size a ≤ S8000x128.size a
  h_S8000x128 : 0 < S8000x128.numel
  bcast_S_S50000x128 : S_.BroadcastsInDim S50000x128 (![] : Fin 0 → Fin S50000x128.rank)
  bcast_S_S50000x1 : S_.BroadcastsInDim S50000x1 (![] : Fin 0 → Fin S50000x1.rank)
  bcast_S50000x1_S50000x128_0_1 : S50000x1.BroadcastsInDim S50000x128 (![0, 1] : Fin 2 → Fin S50000x128.rank)
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  inb_S128x64_S128x64_0_0 : ∀ a, (![0, 0] : Fin 2 → Nat) a + S128x64.size a ≤ S128x64.size a
  h_S128x64 : 0 < S128x64.numel
  shapeCasts_S128x64_S128x64 : S128x64.ShapeCasts S128x64
  broadcasts_S1x64_S5000x64 : S1x64.Broadcasts S5000x64
  inb_S64x1_S64x1_0_0 : ∀ a, (![0, 0] : Fin 2 → Nat) a + S64x1.size a ≤ S64x1.size a
  h_S64x1 : 0 < S64x1.numel
  shapeCasts_S64x1_S64x1 : S64x1.ShapeCasts S64x1
  inb_S1_S1_0 : ∀ a, (![0] : Fin 1 → Nat) a + S1.size a ≤ S1.size a
  h_S1 : 0 < S1.numel
  shapeCasts_S1_S1x1 : S1.ShapeCasts S1x1
  broadcasts_S1x1_S5000x1 : S1x1.Broadcasts S5000x1
  inb_S5000x1_S5000x1_0_0 : ∀ a, (![0, 0] : Fin 2 → Nat) a + S5000x1.size a ≤ S5000x1.size a
  h_S5000x1 : 0 < S5000x1.numel
  scatter_S50000_S800000x1_S800000_n_0_0_1_wf : ScatterDims.WF S50000 S800000x1 S800000 [] [0] [0] 1
  gather_S50000x128_S800000x1_S800000x128_1_0_n_n_0_1_1128_wf : GatherDims.WF S50000x128 S800000x1 S800000x128 [1] [0] [] [0] [] 1 ![1, 128]
  dot_S8000x256_S256x64_S8000x64_1_0_0_1_n_n_wf : DotDims.WF S8000x256 S256x64 S8000x64 [1] [0] [0] [1] [] []
  dot_S8000x64_S64x128_S8000x128_1_0_0_1_n_n_wf : DotDims.WF S8000x64 S64x128 S8000x128 [1] [0] [0] [1] [] []
  scatter_S50000x128_S800000x1_S800000x128_1_0_0_1_wf : ScatterDims.WF S50000x128 S800000x1 S800000x128 [1] [0] [0] 1
  dot_S5000x128_S128x64_S5000x64_1_0_0_1_n_n_wf : DotDims.WF S5000x128 S128x64 S5000x64 [1] [0] [0] [1] [] []
  dot_S5000x64_S64x1_S5000x1_1_0_0_1_n_n_wf : DotDims.WF S5000x64 S64x1 S5000x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8000x256.size a ≤ S800000x256.size a
  hwx0_0 : ∀ i : grid0.Coords, EltTy.bits .bf16 = 32 ∨ (Rect.block (s := S800000x256) S8000x256.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x64.size a ≤ S256x64.size a
  hwx0_1 : ∀ i : grid0.Coords, EltTy.bits .bf16 = 32 ∨ (Rect.block (s := S256x64) S256x64.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64.size a ≤ S64.size a
  hwx0_2 : ∀ i : grid0.Coords, EltTy.bits .f32 = 32 ∨ (Rect.block (s := S64) S64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x128.size a ≤ S64x128.size a
  hwx0_3 : ∀ i : grid0.Coords, EltTy.bits .bf16 = 32 ∨ (Rect.block (s := S64x128) S64x128.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128.size a ≤ S128.size a
  hwx0_4 : ∀ i : grid0.Coords, EltTy.bits .f32 = 32 ∨ (Rect.block (s := S128) S128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S8000x128.size a ≤ S800000x128.size a
  hwx0_5 : ∀ i : grid0.Coords, EltTy.bits .f32 = 32 ∨ (Rect.block (s := S800000x128) S8000x128.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S8000x256.size a ≤ S800000x256.size a
  hwx1_0 : ∀ i : grid1.Coords, EltTy.bits .bf16 = 32 ∨ (Rect.block (s := S800000x256) S8000x256.size (cc1_transform_0 i) (hinb1_0 i)).WholeWords (EltTy.packing .bf16)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S256x64.size a ≤ S256x64.size a
  hwx1_1 : ∀ i : grid1.Coords, EltTy.bits .bf16 = 32 ∨ (Rect.block (s := S256x64) S256x64.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64.size a ≤ S64.size a
  hwx1_2 : ∀ i : grid1.Coords, EltTy.bits .f32 = 32 ∨ (Rect.block (s := S64) S64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S64x128.size a ≤ S64x128.size a
  hwx1_3 : ∀ i : grid1.Coords, EltTy.bits .bf16 = 32 ∨ (Rect.block (s := S64x128) S64x128.size (cc1_transform_3 i) (hinb1_3 i)).WholeWords (EltTy.packing .bf16)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128.size a ≤ S128.size a
  hwx1_4 : ∀ i : grid1.Coords, EltTy.bits .f32 = 32 ∨ (Rect.block (s := S128) S128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S8000x128.size a ≤ S800000x128.size a
  hwx1_5 : ∀ i : grid1.Coords, EltTy.bits .f32 = 32 ∨ (Rect.block (s := S800000x128) S8000x128.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S50000x128.size a
  hwx2_0 : ∀ i : grid2.Coords, EltTy.bits .f32 = 32 ∨ (Rect.block (s := S50000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x64.size a ≤ S128x64.size a
  hwx2_1 : ∀ i : grid2.Coords, EltTy.bits .bf16 = 32 ∨ (Rect.block (s := S128x64) S128x64.size (cc2_transform_1 i) (hinb2_1 i)).WholeWords (EltTy.packing .bf16)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S64.size a ≤ S64.size a
  hwx2_2 : ∀ i : grid2.Coords, EltTy.bits .f32 = 32 ∨ (Rect.block (s := S64) S64.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S64x1.size a ≤ S64x1.size a
  hwx2_3 : ∀ i : grid2.Coords, EltTy.bits .bf16 = 32 ∨ (Rect.block (s := S64x1) S64x1.size (cc2_transform_3 i) (hinb2_3 i)).WholeWords (EltTy.packing .bf16)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1.size a ≤ S1.size a
  hwx2_4 : ∀ i : grid2.Coords, EltTy.bits .f32 = 32 ∨ (Rect.block (s := S1) S1.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S5000x1.size a ≤ S50000x1.size a
  hwx2_5 : ∀ i : grid2.Coords, EltTy.bits .f32 = 32 ∨ (Rect.block (s := S50000x1) S5000x1.size (cc2_transform_5 i) (hinb2_5 i)).WholeWords (EltTy.packing .f32)

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def dot_S8000x256_S256x64_S8000x64_1_0_0_1_n_n : DotDims S8000x256 S256x64 S8000x64 where
  lhsContracting := [1]
  rhsContracting := [0]
  lhsNonContracting := [0]
  rhsNonContracting := [1]
  lhsBatch := []
  rhsBatch := []
  wf := dot_S8000x256_S256x64_S8000x64_1_0_0_1_n_n_wf
def dot_S8000x64_S64x128_S8000x128_1_0_0_1_n_n : DotDims S8000x64 S64x128 S8000x128 where
  lhsContracting := [1]
  rhsContracting := [0]
  lhsNonContracting := [0]
  rhsNonContracting := [1]
  lhsBatch := []
  rhsBatch := []
  wf := dot_S8000x64_S64x128_S8000x128_1_0_0_1_n_n_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf
def dot_S5000x64_S64x1_S5000x1_1_0_0_1_n_n : DotDims S5000x64 S64x1 S5000x1 where
  lhsContracting := [1]
  rhsContracting := [0]
  lhsNonContracting := [0]
  rhsNonContracting := [1]
  lhsBatch := []
  rhsBatch := []
  wf := dot_S5000x64_S64x1_S5000x1_1_0_0_1_n_n_wf

abbrev win0_0 : Pipeline.Window sig grid0 :=
  Pipeline.Window.ofSpec (Memref.whole main_v27) S8000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v28) S256x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg4) S64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v29) S64x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg6) S128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v30) S8000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v56) S8000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v57) S256x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg8) S64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v58) S64x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg10) S128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v59) S8000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v69) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v70) S128x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_arg12) S64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v71) S64x1.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_arg14) S1.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v72) S5000x1.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

class Facts : Prop extends Facts₀ where

variable [Facts]
-- ==== ReferenceIdeal.lean ====
abbrev S50000x128 : Shape := ⟨2, ![50000, 128]⟩
abbrev S800000 : Shape := ⟨1, ![800000]⟩
abbrev S256x64 : Shape := ⟨2, ![256, 64]⟩
abbrev S64 : Shape := ⟨1, ![64]⟩
abbrev S64x128 : Shape := ⟨2, ![64, 128]⟩
abbrev S128 : Shape := ⟨1, ![128]⟩
abbrev S128x64 : Shape := ⟨2, ![128, 64]⟩
abbrev S64x1 : Shape := ⟨2, ![64, 1]⟩
abbrev S1 : Shape := ⟨1, ![1]⟩
abbrev S_ : Shape := ⟨0, ![]⟩
abbrev S800000x1 : Shape := ⟨2, ![800000, 1]⟩
abbrev S800000x128 : Shape := ⟨2, ![800000, 128]⟩
abbrev S800000x256 : Shape := ⟨2, ![800000, 256]⟩
abbrev S800000x64 : Shape := ⟨2, ![800000, 64]⟩
abbrev S1x64 : Shape := ⟨2, ![1, 64]⟩
abbrev S1x128 : Shape := ⟨2, ![1, 128]⟩
abbrev S50000x1 : Shape := ⟨2, ![50000, 1]⟩
abbrev S50000x64 : Shape := ⟨2, ![50000, 64]⟩
abbrev S1x1 : Shape := ⟨2, ![1, 1]⟩

abbrev nBuf : Space → Nat
  | .hbm => 138
  | .vmem => 0
  | .smem => 0
  | _ => 0

abbrev hbmTy0_0 (i : Nat) : BufTy := match i % 128 with
  | 0 => ⟨S50000x128, .f32⟩
  | 1 => ⟨S800000, .i32⟩
  | 2 => ⟨S800000, .i32⟩
  | 3 => ⟨S256x64, .f32⟩
  | 4 => ⟨S64, .f32⟩
  | 5 => ⟨S64x128, .f32⟩
  | 6 => ⟨S128, .f32⟩
  | 7 => ⟨S256x64, .f32⟩
  | 8 => ⟨S64, .f32⟩
  | 9 => ⟨S64x128, .f32⟩
  | 10 => ⟨S128, .f32⟩
  | 11 => ⟨S128x64, .f32⟩
  | 12 => ⟨S64, .f32⟩
  | 13 => ⟨S64x1, .f32⟩
  | 14 => ⟨S1, .f32⟩
  | 15 => ⟨S_, .i32⟩
  | 16 => ⟨S800000, .i32⟩
  | 17 => ⟨S800000, .i1⟩
  | 18 => ⟨S_, .i32⟩
  | 19 => ⟨S800000, .i32⟩
  | 20 => ⟨S800000, .i32⟩
  | 21 => ⟨S800000, .i32⟩
  | 22 => ⟨S800000x1, .i32⟩
  | 23 => ⟨S800000x128, .f32⟩
  | 24 => ⟨S_, .i32⟩
  | 25 => ⟨S800000, .i32⟩
  | 26 => ⟨S800000, .i1⟩
  | 27 => ⟨S_, .i32⟩
  | 28 => ⟨S800000, .i32⟩
  | 29 => ⟨S800000, .i32⟩
  | 30 => ⟨S800000, .i32⟩
  | 31 => ⟨S800000x1, .i32⟩
  | 32 => ⟨S800000x128, .f32⟩
  | 33 => ⟨S800000x256, .f32⟩
  | 34 => ⟨S800000x64, .f32⟩
  | 35 => ⟨S1x64, .f32⟩
  | 36 => ⟨S800000x64, .f32⟩
  | 37 => ⟨S800000x64, .f32⟩
  | 38 => ⟨S_, .f32⟩
  | 39 => ⟨S800000x64, .f32⟩
  | 40 => ⟨S800000x64, .f32⟩
  | 41 => ⟨S800000x128, .f32⟩
  | 42 => ⟨S1x128, .f32⟩
  | 43 => ⟨S800000x128, .f32⟩
  | 44 => ⟨S800000x128, .f32⟩
  | 45 => ⟨S_, .f32⟩
  | 46 => ⟨S800000x128, .f32⟩
  | 47 => ⟨S800000x128, .f32⟩
  | 48 => ⟨S_, .f32⟩
  | 49 => ⟨S50000x128, .f32⟩
  | 50 => ⟨S800000x1, .i32⟩
  | 51 => ⟨S50000x128, .f32⟩
  | 52 => ⟨S_, .f32⟩
  | 53 => ⟨S800000x1, .f32⟩
  | 54 => ⟨S_, .f32⟩
  | 55 => ⟨S50000x1, .f32⟩
  | 56 => ⟨S800000x1, .i32⟩
  | 57 => ⟨S50000x1, .f32⟩
  | 58 => ⟨S_, .f32⟩
  | 59 => ⟨S50000x1, .f32⟩
  | 60 => ⟨S50000x1, .i1⟩
  | 61 => ⟨S_, .f32⟩
  | 62 => ⟨S50000x1, .f32⟩
  | 63 => ⟨S50000x1, .f32⟩
  | 64 => ⟨S50000x128, .f32⟩
  | 65 => ⟨S50000x128, .f32⟩
  | 66 => ⟨S_, .f32⟩
  | 67 => ⟨S_, .f32⟩
  | 68 => ⟨S50000x128, .i1⟩
  | 69 => ⟨S50000x128, .f32⟩
  | 70 => ⟨S50000x128, .f32⟩
  | 71 => ⟨S_, .i32⟩
  | 72 => ⟨S800000, .i32⟩
  | 73 => ⟨S800000, .i1⟩
  | 74 => ⟨S_, .i32⟩
  | 75 => ⟨S800000, .i32⟩
  | 76 => ⟨S800000, .i32⟩
  | 77 => ⟨S800000, .i32⟩
  | 78 => ⟨S800000x1, .i32⟩
  | 79 => ⟨S800000x128, .f32⟩
  | 80 => ⟨S_, .i32⟩
  | 81 => ⟨S800000, .i32⟩
  | 82 => ⟨S800000, .i1⟩
  | 83 => ⟨S_, .i32⟩
  | 84 => ⟨S800000, .i32⟩
  | 85 => ⟨S800000, .i32⟩
  | 86 => ⟨S800000, .i32⟩
  | 87 => ⟨S800000x1, .i32⟩
  | 88 => ⟨S800000x128, .f32⟩
  | 89 => ⟨S800000x256, .f32⟩
  | 90 => ⟨S800000x64, .f32⟩
  | 91 => ⟨S1x64, .f32⟩
  | 92 => ⟨S800000x64, .f32⟩
  | 93 => ⟨S800000x64, .f32⟩
  | 94 => ⟨S_, .f32⟩
  | 95 => ⟨S800000x64, .f32⟩
  | 96 => ⟨S800000x64, .f32⟩
  | 97 => ⟨S800000x128, .f32⟩
  | 98 => ⟨S1x128, .f32⟩
  | 99 => ⟨S800000x128, .f32⟩
  | 100 => ⟨S800000x128, .f32⟩
  | 101 => ⟨S_, .f32⟩
  | 102 => ⟨S800000x128, .f32⟩
  | 103 => ⟨S800000x128, .f32⟩
  | 104 => ⟨S_, .f32⟩
  | 105 => ⟨S50000x128, .f32⟩
  | 106 => ⟨S800000x1, .i32⟩
  | 107 => ⟨S50000x128, .f32⟩
  | 108 => ⟨S_, .f32⟩
  | 109 => ⟨S800000x1, .f32⟩
  | 110 => ⟨S_, .f32⟩
  | 111 => ⟨S50000x1, .f32⟩
  | 112 => ⟨S800000x1, .i32⟩
  | 113 => ⟨S50000x1, .f32⟩
  | 114 => ⟨S_, .f32⟩
  | 115 => ⟨S50000x1, .f32⟩
  | 116 => ⟨S50000x1, .i1⟩
  | 117 => ⟨S_, .f32⟩
  | 118 => ⟨S50000x1, .f32⟩
  | 119 => ⟨S50000x1, .f32⟩
  | 120 => ⟨S50000x128, .f32⟩
  | 121 => ⟨S50000x128, .f32⟩
  | 122 => ⟨S_, .f32⟩
  | 123 => ⟨S_, .f32⟩
  | 124 => ⟨S50000x128, .i1⟩
  | 125 => ⟨S50000x128, .f32⟩
  | 126 => ⟨S50000x128, .f32⟩
  | 127 => ⟨S50000x64, .f32⟩
  | _ => ⟨S50000x128, .f32⟩

abbrev hbmTy0_1 (i : Nat) : BufTy := match i % 128 with
  | 0 => ⟨S1x64, .f32⟩
  | 1 => ⟨S50000x64, .f32⟩
  | 2 => ⟨S50000x64, .f32⟩
  | 3 => ⟨S_, .f32⟩
  | 4 => ⟨S50000x64, .f32⟩
  | 5 => ⟨S50000x64, .f32⟩
  | 6 => ⟨S50000x1, .f32⟩
  | 7 => ⟨S1x1, .f32⟩
  | 8 => ⟨S50000x1, .f32⟩
  | 9 => ⟨S50000x1, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_c : Ref sig .tc := ⟨.hbm, 15, rfl⟩
abbrev main_v0 : Ref sig .tc := ⟨.hbm, 16, rfl⟩
abbrev main_v1 : Ref sig .tc := ⟨.hbm, 17, rfl⟩
abbrev main_c_0 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_c_1 : Ref sig .tc := ⟨.hbm, 24, rfl⟩
abbrev main_v7 : Ref sig .tc := ⟨.hbm, 25, rfl⟩
abbrev main_v8 : Ref sig .tc := ⟨.hbm, 26, rfl⟩
abbrev main_c_2 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_call0_cst : Ref sig .tc := ⟨.hbm, 38, rfl⟩
abbrev main_call0_v0 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_call1_cst : Ref sig .tc := ⟨.hbm, 45, rfl⟩
abbrev main_call1_v0 : Ref sig .tc := ⟨.hbm, 46, rfl⟩
abbrev main_v24 : Ref sig .tc := ⟨.hbm, 47, rfl⟩
abbrev main_cst : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_cst_3 : Ref sig .tc := ⟨.hbm, 52, rfl⟩
abbrev main_v28 : Ref sig .tc := ⟨.hbm, 53, rfl⟩
abbrev main_cst_4 : Ref sig .tc := ⟨.hbm, 54, rfl⟩
abbrev main_v29 : Ref sig .tc := ⟨.hbm, 55, rfl⟩
abbrev main_v30 : Ref sig .tc := ⟨.hbm, 56, rfl⟩
abbrev main_v31 : Ref sig .tc := ⟨.hbm, 57, rfl⟩
abbrev main_cst_5 : Ref sig .tc := ⟨.hbm, 58, rfl⟩
abbrev main_v32 : Ref sig .tc := ⟨.hbm, 59, rfl⟩
abbrev main_v33 : Ref sig .tc := ⟨.hbm, 60, rfl⟩
abbrev main_cst_6 : Ref sig .tc := ⟨.hbm, 61, rfl⟩
abbrev main_v34 : Ref sig .tc := ⟨.hbm, 62, rfl⟩
abbrev main_v35 : Ref sig .tc := ⟨.hbm, 63, rfl⟩
abbrev main_v36 : Ref sig .tc := ⟨.hbm, 64, rfl⟩
abbrev main_v37 : Ref sig .tc := ⟨.hbm, 65, rfl⟩
abbrev main_cst_7 : Ref sig .tc := ⟨.hbm, 66, rfl⟩
abbrev main_call2_v0 : Ref sig .tc := ⟨.hbm, 67, rfl⟩
abbrev main_call2_v1 : Ref sig .tc := ⟨.hbm, 68, rfl⟩
abbrev main_call2_v2 : Ref sig .tc := ⟨.hbm, 69, rfl⟩
abbrev main_v38 : Ref sig .tc := ⟨.hbm, 70, rfl⟩
abbrev main_c_8 : Ref sig .tc := ⟨.hbm, 71, rfl⟩
abbrev main_v39 : Ref sig .tc := ⟨.hbm, 72, rfl⟩
abbrev main_v40 : Ref sig .tc := ⟨.hbm, 73, rfl⟩
abbrev main_c_9 : Ref sig .tc := ⟨.hbm, 74, rfl⟩
abbrev main_v41 : Ref sig .tc := ⟨.hbm, 75, rfl⟩
abbrev main_v42 : Ref sig .tc := ⟨.hbm, 76, rfl⟩
abbrev main_v43 : Ref sig .tc := ⟨.hbm, 77, rfl⟩
abbrev main_v44 : Ref sig .tc := ⟨.hbm, 78, rfl⟩
abbrev main_v45 : Ref sig .tc := ⟨.hbm, 79, rfl⟩
abbrev main_c_10 : Ref sig .tc := ⟨.hbm, 80, rfl⟩
abbrev main_v46 : Ref sig .tc := ⟨.hbm, 81, rfl⟩
abbrev main_v47 : Ref sig .tc := ⟨.hbm, 82, rfl⟩
abbrev main_c_11 : Ref sig .tc := ⟨.hbm, 83, rfl⟩
abbrev main_v48 : Ref sig .tc := ⟨.hbm, 84, rfl⟩
abbrev main_v49 : Ref sig .tc := ⟨.hbm, 85, rfl⟩
abbrev main_v50 : Ref sig .tc := ⟨.hbm, 86, rfl⟩
abbrev main_v51 : Ref sig .tc := ⟨.hbm, 87, rfl⟩
abbrev main_v52 : Ref sig .tc := ⟨.hbm, 88, rfl⟩
abbrev main_v53 : Ref sig .tc := ⟨.hbm, 89, rfl⟩
abbrev main_v54 : Ref sig .tc := ⟨.hbm, 90, rfl⟩
abbrev main_v55 : Ref sig .tc := ⟨.hbm, 91, rfl⟩
abbrev main_v56 : Ref sig .tc := ⟨.hbm, 92, rfl⟩
abbrev main_v57 : Ref sig .tc := ⟨.hbm, 93, rfl⟩
abbrev main_call3_cst : Ref sig .tc := ⟨.hbm, 94, rfl⟩
abbrev main_call3_v0 : Ref sig .tc := ⟨.hbm, 95, rfl⟩
abbrev main_v58 : Ref sig .tc := ⟨.hbm, 96, rfl⟩
abbrev main_v59 : Ref sig .tc := ⟨.hbm, 97, rfl⟩
abbrev main_v60 : Ref sig .tc := ⟨.hbm, 98, rfl⟩
abbrev main_v61 : Ref sig .tc := ⟨.hbm, 99, rfl⟩
abbrev main_v62 : Ref sig .tc := ⟨.hbm, 100, rfl⟩
abbrev main_call4_cst : Ref sig .tc := ⟨.hbm, 101, rfl⟩
abbrev main_call4_v0 : Ref sig .tc := ⟨.hbm, 102, rfl⟩
abbrev main_v63 : Ref sig .tc := ⟨.hbm, 103, rfl⟩
abbrev main_cst_12 : Ref sig .tc := ⟨.hbm, 104, rfl⟩
abbrev main_v64 : Ref sig .tc := ⟨.hbm, 105, rfl⟩
abbrev main_v65 : Ref sig .tc := ⟨.hbm, 106, rfl⟩
abbrev main_v66 : Ref sig .tc := ⟨.hbm, 107, rfl⟩
abbrev main_cst_13 : Ref sig .tc := ⟨.hbm, 108, rfl⟩
abbrev main_v67 : Ref sig .tc := ⟨.hbm, 109, rfl⟩
abbrev main_cst_14 : Ref sig .tc := ⟨.hbm, 110, rfl⟩
abbrev main_v68 : Ref sig .tc := ⟨.hbm, 111, rfl⟩
abbrev main_v69 : Ref sig .tc := ⟨.hbm, 112, rfl⟩
abbrev main_v70 : Ref sig .tc := ⟨.hbm, 113, rfl⟩
abbrev main_cst_15 : Ref sig .tc := ⟨.hbm, 114, rfl⟩
abbrev main_v71 : Ref sig .tc := ⟨.hbm, 115, rfl⟩
abbrev main_v72 : Ref sig .tc := ⟨.hbm, 116, rfl⟩
abbrev main_cst_16 : Ref sig .tc := ⟨.hbm, 117, rfl⟩
abbrev main_v73 : Ref sig .tc := ⟨.hbm, 118, rfl⟩
abbrev main_v74 : Ref sig .tc := ⟨.hbm, 119, rfl⟩
abbrev main_v75 : Ref sig .tc := ⟨.hbm, 120, rfl⟩
abbrev main_v76 : Ref sig .tc := ⟨.hbm, 121, rfl⟩
abbrev main_cst_17 : Ref sig .tc := ⟨.hbm, 122, rfl⟩
abbrev main_call5_v0 : Ref sig .tc := ⟨.hbm, 123, rfl⟩
abbrev main_call5_v1 : Ref sig .tc := ⟨.hbm, 124, rfl⟩
abbrev main_call5_v2 : Ref sig .tc := ⟨.hbm, 125, rfl⟩
abbrev main_v77 : Ref sig .tc := ⟨.hbm, 126, rfl⟩
abbrev main_v78 : Ref sig .tc := ⟨.hbm, 127, rfl⟩
abbrev main_v79 : Ref sig .tc := ⟨.hbm, 128, rfl⟩
abbrev main_v80 : Ref sig .tc := ⟨.hbm, 129, rfl⟩
abbrev main_v81 : Ref sig .tc := ⟨.hbm, 130, rfl⟩
abbrev main_call6_cst : Ref sig .tc := ⟨.hbm, 131, rfl⟩
abbrev main_call6_v0 : Ref sig .tc := ⟨.hbm, 132, rfl⟩
abbrev main_v82 : Ref sig .tc := ⟨.hbm, 133, rfl⟩
abbrev main_v83 : Ref sig .tc := ⟨.hbm, 134, rfl⟩
abbrev main_v84 : Ref sig .tc := ⟨.hbm, 135, rfl⟩
abbrev main_v85 : Ref sig .tc := ⟨.hbm, 136, rfl⟩
abbrev main_v86 : Ref sig .tc := ⟨.hbm, 137, rfl⟩

abbrev nD : Nat := 1
abbrev τ : Topo := Topo.v7x

variable {F : FTy → Type} [FloatOps F]

class Facts₀ : Prop where
  bcast_S_S800000 : S_.BroadcastsInDim S800000 (![] : Fin 0 → Fin S800000.rank)
  bcast_S800000_S800000x1_0 : S800000.BroadcastsInDim S800000x1 (![0] : Fin 1 → Fin S800000x1.rank)
  concatenates_S800000x128_S800000x128_S800000x256_d1 : Shape.Concatenates [S800000x128, S800000x128] S800000x256 1
  bcast_S64_S1x64_1 : S64.BroadcastsInDim S1x64 (![1] : Fin 1 → Fin S1x64.rank)
  bcast_S1x64_S800000x64_0_1 : S1x64.BroadcastsInDim S800000x64 (![0, 1] : Fin 2 → Fin S800000x64.rank)
  bcast_S_S800000x64 : S_.BroadcastsInDim S800000x64 (![] : Fin 0 → Fin S800000x64.rank)
  bcast_S128_S1x128_1 : S128.BroadcastsInDim S1x128 (![1] : Fin 1 → Fin S1x128.rank)
  bcast_S1x128_S800000x128_0_1 : S1x128.BroadcastsInDim S800000x128 (![0, 1] : Fin 2 → Fin S800000x128.rank)
  bcast_S_S800000x128 : S_.BroadcastsInDim S800000x128 (![] : Fin 0 → Fin S800000x128.rank)
  bcast_S_S50000x128 : S_.BroadcastsInDim S50000x128 (![] : Fin 0 → Fin S50000x128.rank)
  bcast_S_S800000x1 : S_.BroadcastsInDim S800000x1 (![] : Fin 0 → Fin S800000x1.rank)
  bcast_S_S50000x1 : S_.BroadcastsInDim S50000x1 (![] : Fin 0 → Fin S50000x1.rank)
  bcast_S50000x1_S50000x128_0_1 : S50000x1.BroadcastsInDim S50000x128 (![0, 1] : Fin 2 → Fin S50000x128.rank)
  bcast_S1x64_S50000x64_0_1 : S1x64.BroadcastsInDim S50000x64 (![0, 1] : Fin 2 → Fin S50000x64.rank)
  bcast_S_S50000x64 : S_.BroadcastsInDim S50000x64 (![] : Fin 0 → Fin S50000x64.rank)
  bcast_S1_S1x1_1 : S1.BroadcastsInDim S1x1 (![1] : Fin 1 → Fin S1x1.rank)
  bcast_S1x1_S50000x1_0_1 : S1x1.BroadcastsInDim S50000x1 (![0, 1] : Fin 2 → Fin S50000x1.rank)
  gather_S50000x128_S800000x1_S800000x128_1_0_n_n_0_1_1128_wf : GatherDims.WF S50000x128 S800000x1 S800000x128 [1] [0] [] [0] [] 1 ![1, 128]
  dot_S800000x256_S256x64_S800000x64_1_0_0_1_n_n_wf : DotDims.WF S800000x256 S256x64 S800000x64 [1] [0] [0] [1] [] []
  dot_S800000x64_S64x128_S800000x128_1_0_0_1_n_n_wf : DotDims.WF S800000x64 S64x128 S800000x128 [1] [0] [0] [1] [] []
  scatter_S50000x128_S800000x1_S800000x128_1_0_0_1_wf : ScatterDims.WF S50000x128 S800000x1 S800000x128 [1] [0] [0] 1
  scatter_S50000x1_S800000x1_S800000x1_1_0_0_1_wf : ScatterDims.WF S50000x1 S800000x1 S800000x1 [1] [0] [0] 1
  dot_S50000x128_S128x64_S50000x64_1_0_0_1_n_n_wf : DotDims.WF S50000x128 S128x64 S50000x64 [1] [0] [0] [1] [] []
  dot_S50000x64_S64x1_S50000x1_1_0_0_1_n_n_wf : DotDims.WF S50000x64 S64x1 S50000x1 [1] [0] [0] [1] [] []

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def dot_S800000x256_S256x64_S800000x64_1_0_0_1_n_n : DotDims S800000x256 S256x64 S800000x64 where
  lhsContracting := [1]
  rhsContracting := [0]
  lhsNonContracting := [0]
  rhsNonContracting := [1]
  lhsBatch := []
  rhsBatch := []
  wf := dot_S800000x256_S256x64_S800000x64_1_0_0_1_n_n_wf
def dot_S800000x64_S64x128_S800000x128_1_0_0_1_n_n : DotDims S800000x64 S64x128 S800000x128 where
  lhsContracting := [1]
  rhsContracting := [0]
  lhsNonContracting := [0]
  rhsNonContracting := [1]
  lhsBatch := []
  rhsBatch := []
  wf := dot_S800000x64_S64x128_S800000x128_1_0_0_1_n_n_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def scatter_S50000x1_S800000x1_S800000x1_1_0_0_1 : ScatterDims S50000x1 S800000x1 S800000x1 where
  updateWindowDims := [1]
  insertedWindowDims := [0]
  scatterDimsToOperandDims := [0]
  indexVectorDim := 1
  wf := scatter_S50000x1_S800000x1_S800000x1_1_0_0_1_wf
def dot_S50000x128_S128x64_S50000x64_1_0_0_1_n_n : DotDims S50000x128 S128x64 S50000x64 where
  lhsContracting := [1]
  rhsContracting := [0]
  lhsNonContracting := [0]
  rhsNonContracting := [1]
  lhsBatch := []
  rhsBatch := []
  wf := dot_S50000x128_S128x64_S50000x64_1_0_0_1_n_n_wf
def dot_S50000x64_S64x1_S50000x1_1_0_0_1_n_n : DotDims S50000x64 S64x1 S50000x1 where
  lhsContracting := [1]
  rhsContracting := [0]
  lhsNonContracting := [0]
  rhsNonContracting := [1]
  lhsBatch := []
  rhsBatch := []
  wf := dot_S50000x64_S64x1_S50000x1_1_0_0_1_n_n_wf

class Facts : Prop extends Facts₀ where

variable [Facts]
-- ==== Proof.Spec.lean ====
/-
  The mathematics both programs compute, stated once.

  A graph of 50000 nodes and 800000 directed edges (sender, receiver). One round of message passing: every edge reads
  the feature rows of its receiver and of its sender (a negative row number counts from the end), joins them into one
  row of 256 numbers, and sends it through two dense layers, each followed by the ramp `max · 0`; the messages of the
  edges that share a receiver are added up and divided by their number (a node that receives nothing keeps zero). Two
  such rounds are followed, node by node, by a dense layer with a ramp and a last dense layer of one output.

  Everything here is a function of whole arrays built from the host's own operations, so that the reference's
  result is this function by unfolding; `mlpAt` and `denseAt` say what one row of the two dense stacks is, entry by
  entry, over the extended reals.
-/
import proofs.«424724_j43928925503631_1_alg».proof.Proof.Gen.ReferenceIdeal
import Idealize.ShloMosaic.Lib.ValueIdx
import Idealize.ShloMosaic.PureOps.Ideal

noncomputable section

namespace Cert.Spec

open Idealize.ShloMosaic Idealize.ShloMosaic.ValueIdx Cert.ReferenceIdeal Cert.ReferenceIdeal.Gen

variable {F : FTy → Type} [FloatOps F]

/-- The row numbers as a column, a negative one moved up by the number of rows. -/
def wrap (r : IVec S800000 32) : IVec S800000x1 32 :=
  broadcastInDim S800000x1 ![0] bcast_S800000_S800000x1_0
    (select (cmpi .slt r (broadcastInDim S800000 ![] bcast_S_S800000 (constantI S_ 32 0#32)))
      (addi r (broadcastInDim S800000 ![] bcast_S_S800000 (constantI S_ 32 50000#32))) r)

/-- Every edge's input row: its receiver's features, then its sender's. -/
def msgIn (x : FVec F S50000x128 .f32) (s r : IVec S800000 32) : FVec F S800000x256 .f32 :=
  concatenate S800000x256 1 [⟨S800000x128, (Host.gather gather_S50000x128_S800000x1_S800000x128_1_0_n_n_0_1_1128 x (wrap r))⟩, ⟨S800000x128, (Host.gather gather_S50000x128_S800000x1_S800000x128_1_0_n_n_0_1_1128 x (wrap s))⟩] concatenates_S800000x128_S800000x128_S800000x256_d1

/-- The two dense layers on every edge's row, a ramp after each. -/
def edgeMLP (z : FVec F S800000x256 .f32) (W1 : FVec F S256x64 .f32) (b1 : FVec F S64 .f32) (W2 : FVec F S64x128 .f32)
    (b2 : FVec F S128 .f32) : FVec F S800000x128 .f32 :=
  maximumf (addf (Host.dotGeneral dot_S800000x64_S64x128_S800000x128_1_0_0_1_n_n none (maximumf (addf (Host.dotGeneral dot_S800000x256_S256x64_S800000x64_1_0_0_1_n_n none z W1) (broadcastInDim S800000x64 ![0, 1] bcast_S1x64_S800000x64_0_1 (broadcastInDim S1x64 ![1] bcast_S64_S1x64_1 b1))) (broadcastInDim S800000x64 ![] bcast_S_S800000x64 (constant S_ .f32 0x00000000#32))) W2) (broadcastInDim S800000x128 ![0, 1] bcast_S1x128_S800000x128_0_1 (broadcastInDim S1x128 ![1] bcast_S128_S1x128_1 b2))) (broadcastInDim S800000x128 ![] bcast_S_S800000x128 (constant S_ .f32 0x00000000#32))

/-- How many edges each node receives, counted by adding ones. -/
def cntRef (r : IVec S800000 32) : FVec F S50000x1 .f32 :=
  Host.scatterAdd scatter_S50000x1_S800000x1_S800000x1_1_0_0_1 (broadcastInDim S50000x1 ![] bcast_S_S50000x1 (constant S_ .f32 0x00000000#32)) (broadcastInDim S800000x1 ![0] bcast_S800000_S800000x1_0 r) (broadcastInDim S800000x1 ![] bcast_S_S800000x1 (constant S_ .f32 0x3F800000#32))

/-- The mean over each node's incoming messages, given the counts; zero where a node receives nothing. -/
def segMean (msg : FVec F S800000x128 .f32) (r : IVec S800000 32) (cnt : FVec F S50000x1 .f32) : FVec F S50000x128 .f32 :=
  select (broadcastInDim S50000x128 ![0, 1] bcast_S50000x1_S50000x128_0_1 (cmpf (F := F) .ogt cnt (broadcastInDim S50000x1 ![] bcast_S_S50000x1 (constant S_ .f32 0x00000000#32)))) (Host.divf (Host.scatterAdd scatter_S50000x128_S800000x1_S800000x128_1_0_0_1 (broadcastInDim S50000x128 ![] bcast_S_S50000x128 (constant S_ .f32 0x00000000#32)) (broadcastInDim S800000x1 ![0] bcast_S800000_S800000x1_0 r) msg) (broadcastInDim S50000x128 ![0, 1] bcast_S50000x1_S50000x128_0_1 (maximumf cnt (broadcastInDim S50000x1 ![] bcast_S_S50000x1 (constant S_ .f32 0x3F800000#32))))) (broadcastInDim S50000x128 ![] bcast_S_S50000x128 (id (constant S_ .f32 0x00000000#32)))

/-- One round of message passing. -/
def layer (x : FVec F S50000x128 .f32) (s r : IVec S800000 32) (W1 : FVec F S256x64 .f32) (b1 : FVec F S64 .f32)
    (W2 : FVec F S64x128 .f32) (b2 : FVec F S128 .f32) (cnt : FVec F S50000x1 .f32) : FVec F S50000x128 .f32 :=
  segMean (edgeMLP (msgIn x s r) W1 b1 W2 b2) r cnt

/-- The node-wise tail: a dense layer with a ramp, then a dense layer of one output. -/
def tail (h : FVec F S50000x128 .f32) (Wd1 : FVec F S128x64 .f32) (bd1 : FVec F S64 .f32) (Wd2 : FVec F S64x1 .f32)
    (bd2 : FVec F S1 .f32) : FVec F S50000x1 .f32 :=
  addf (Host.dotGeneral dot_S50000x64_S64x1_S50000x1_1_0_0_1_n_n none (maximumf (addf (Host.dotGeneral dot_S50000x128_S128x64_S50000x64_1_0_0_1_n_n none h Wd1) (broadcastInDim S50000x64 ![0, 1] bcast_S1x64_S50000x64_0_1 (broadcastInDim S1x64 ![1] bcast_S64_S1x64_1 bd1))) (broadcastInDim S50000x64 ![] bcast_S_S50000x64 (constant S_ .f32 0x00000000#32))) Wd2) (broadcastInDim S50000x1 ![0, 1] bcast_S1x1_S50000x1_0_1 (broadcastInDim S1x1 ![1] bcast_S1_S1x1_1 bd2))

/-- The whole model, given the counts: two rounds, then the tail. -/
def model (cnt : FVec F S50000x1 .f32) (x : FVec F S50000x128 .f32) (s r : IVec S800000 32)
    (W1a : FVec F S256x64 .f32) (b1a : FVec F S64 .f32) (W2a : FVec F S64x128 .f32) (b2a : FVec F S128 .f32)
    (W1b : FVec F S256x64 .f32) (b1b : FVec F S64 .f32) (W2b : FVec F S64x128 .f32) (b2b : FVec F S128 .f32)
    (Wd1 : FVec F S128x64 .f32) (bd1 : FVec F S64 .f32) (Wd2 : FVec F S64x1 .f32) (bd2 : FVec F S1 .f32) : FVec F S50000x1 .f32 :=
  tail (layer (layer x s r W1a b1a W2a b2a cnt) s r W1b b1b W2b b2b cnt) Wd1 bd1 Wd2 bd2

/-! ## One row of each dense stack, entry by entry, over the extended reals -/

/-- Entry `q` of an edge's message from its input row `z`: `max (∑ₖ max (∑ₗ z l · W1 l k + b1 k) 0 · W2 k q + b2 q) 0`. -/
def mlpAt (z : Fin 256 → EReal) (W1 : S256x64.Idx → EReal) (b1 : S64.Idx → EReal) (W2 : S64x128.Idx → EReal)
    (b2 : S128.Idx → EReal) (q : Fin 128) : EReal :=
  max ((∑ k : Fin 64, max ((∑ l : Fin 256, z l * W1 (ix2 l k)) + b1 (ix1 k)) 0 * W2 (ix2 k q)) + b2 (ix1 q)) 0

/-- A node's output from its feature row `h`: `∑ₖ max (∑ₗ h l · Wd1 l k + bd1 k) 0 · Wd2 k 0 + bd2 0`. -/
def denseAt (h : Fin 128 → EReal) (Wd1 : S128x64.Idx → EReal) (bd1 : S64.Idx → EReal) (Wd2 : S64x1.Idx → EReal)
    (bd2 : S1.Idx → EReal) : EReal :=
  (∑ k : Fin 64, max ((∑ l : Fin 128, h l * Wd1 (ix2 l k)) + bd1 (ix1 k)) 0 * Wd2 (ix2 k (0 : Fin 1))) + bd2 (ix1 (0 : Fin 1))

end Cert.Spec

end
-- ==== Proof.RefSpec.lean ====
/-
  The reference's result is the model of Spec.lean with the counts made by adding float ones: its composed term
  is that function of the argument arrays, by unfolding.
-/
import proofs.«424724_j43928925503631_1_alg».proof.Proof.RefRunP
import proofs.«424724_j43928925503631_1_alg».proof.Proof.Spec

set_option maxRecDepth 16384

noncomputable section

namespace Cert.RefSpec

open Idealize.ShloMosaic Idealize.ShloMosaic.TcCoe Idealize.SL.Sem
open Cert.ReferenceIdeal Cert.ReferenceIdeal.Gen Cert.ReferenceIdeal.ValueP Cert.Spec

variable {F : FTy → Type} [FloatOps F]

/-- The reference's result array is `model` at the counts `cntRef` of the receivers. -/
theorem res_eq_model (m : (ℓ : Loc nD τ sig) → Buf (Elt F) ℓ) (c : Dev nD) :
    (res_main_v86 m c : FVec F S50000x1 .f32)
      = model (cntRef (m ((c.tc : Thread nD τ).loc main_arg2)))
          (m ((c.tc : Thread nD τ).loc main_arg0))
          (m ((c.tc : Thread nD τ).loc main_arg1))
          (m ((c.tc : Thread nD τ).loc main_arg2))
          (m ((c.tc : Thread nD τ).loc main_arg3))
          (m ((c.tc : Thread nD τ).loc main_arg4))
          (m ((c.tc : Thread nD τ).loc main_arg5))
          (m ((c.tc : Thread nD τ).loc main_arg6))
          (m ((c.tc : Thread nD τ).loc main_arg7))
          (m ((c.tc : Thread nD τ).loc main_arg8))
          (m ((c.tc : Thread nD τ).loc main_arg9))
          (m ((c.tc : Thread nD τ).loc main_arg10))
          (m ((c.tc : Thread nD τ).loc main_arg11))
          (m ((c.tc : Thread nD τ).loc main_arg12))
          (m ((c.tc : Thread nD τ).loc main_arg13))
          (m ((c.tc : Thread nD τ).loc main_arg14)) := by
  unfold res_main_v86 model tail layer segMean edgeMLP msgIn wrap cntRef
  rfl

end Cert.RefSpec

end
-- ==== Proof.KSpec.lean ====
/-
  The count of incoming edges as the kernel's program makes it: a one is added, as an integer, at every edge's
  receiver (a negative number first raised to zero, then wrapped as a row number would be), and the integer
  counts are converted to floats and stood up as a column.
-/
import proofs.«424724_j43928925503631_1_alg».proof.Proof.Gen.KernelIdeal
import Idealize.ShloMosaic.Lib.ValueIdx
import Idealize.ShloMosaic.PureOps.Ideal

noncomputable section

namespace Cert.KSpec

open Idealize.ShloMosaic Idealize.ShloMosaic.ValueIdx Cert.KernelIdeal Cert.KernelIdeal.Gen

variable {F : FTy → Type} [FloatOps F]

/-- A receiver's number with the negative ones raised to zero. -/
def clip0 (r : IVec S800000 32) : IVec S800000 32 :=
  maxsi (broadcastInDim S800000 ![] bcast_S_S800000 (id (constantI S_ 32 0#32))) r

/-- The clipped numbers as a column of row numbers, wrapped like any row number. -/
def clipIdx (r : IVec S800000 32) : IVec S800000x1 32 :=
  broadcastInDim S800000x1 ![0] bcast_S800000_S800000x1_0
    (select (cmpi .slt (clip0 r) (broadcastInDim S800000 ![] bcast_S_S800000 (constantI S_ 32 0#32)))
      (addi (clip0 r) (broadcastInDim S800000 ![] bcast_S_S800000 (constantI S_ 32 50000#32))) (clip0 r))

/-- The integer counts: ones added into zeros at the clipped receivers. -/
def cntInt (r : IVec S800000 32) : IVec S50000 32 :=
  Host.scatter scatter_S50000_S800000x1_S800000_n_0_0_1 IntOp.addi (broadcastInDim S50000 ![] bcast_S_S50000 (constantI S_ 32 0#32))
    (clipIdx r) (broadcastInDim S800000 ![] bcast_S_S800000 (constantI S_ 32 1#32))

/-- The counts as a float column. -/
def cntK (r : IVec S800000 32) : FVec F S50000x1 .f32 :=
  broadcastInDim S50000x1 ![0] bcast_S50000_S50000x1_0 (sitofp (F := F) .f32 (cntInt r))

end Cert.KSpec

end
-- ==== Proof.KV0.lean ====
/-
  What the first region finds when it is entered: the buffers the host operations before it have filled, as
  functions of the argument arrays. The edges' input rows (receiver's features then sender's), the two weight
  matrices, the biases, and the column of counts; the arguments themselves are untouched.
-/
import proofs.«424724_j43928925503631_1_alg».proof.Proof.Gen.KernelIdeal.Frame
import proofs.«424724_j43928925503631_1_alg».proof.Proof.Spec
import proofs.«424724_j43928925503631_1_alg».proof.Proof.KSpec

set_option maxRecDepth 16384

noncomputable section

namespace Cert.KernelIdeal.KV

open Idealize.ShloMosaic Idealize.ShloMosaic.TcCoe Idealize.SL.Sem Idealize.ShloMosaic.StableHlo
open Cert.KernelIdeal Cert.KernelIdeal.Gen

variable {F : FTy → Type} [FloatOps F]
variable (m : (ℓ : Loc nD τ sig) → Buf (Elt F) ℓ) (ρ : Dev nD → PrngReg)

/-- Reads one buffer after the three stretches of host operations that precede the first region: the
    operations' results composed, down to the launch contents. -/
local macro "read_entry0" : tactic => `(tactic| (
  show StableHlo.after hostOps0_2 (StableHlo.after hostOps0_1 (StableHlo.after hostOps0 _)) _ = _
  simp only [hostOps0, hostOps0_1, hostOps0_2]
  after_results_simp
  try rfl))

set_option maxHeartbeats 2000000 in
/-- The counts' column is the integer count of receivers, converted. -/
theorem W3_v11 (c : Dev nD) :
    (W3 m ρ c (Proc.devRef .tc main_v11) : FVec F S50000x1 .f32) = Cert.KSpec.cntK (m ((c : Thread nD τ).loc main_arg2)) := by
  read_entry0

set_option maxHeartbeats 2000000 in
/-- The edges' input rows, narrowed to the matrix unit's format. -/
theorem W3_v27 (c : Dev nD) :
    (W3 m ρ c (Proc.devRef .tc main_v27) : FVec F S800000x256 .bf16)
      = truncf .bf16 (Cert.Spec.msgIn (m ((c : Thread nD τ).loc main_arg0)) (m ((c : Thread nD τ).loc main_arg1)) (m ((c : Thread nD τ).loc main_arg2))) bitsLt_bf16_f32 := by
  read_entry0

set_option maxHeartbeats 2000000 in
theorem W3_v28 (c : Dev nD) :
    (W3 m ρ c (Proc.devRef .tc main_v28) : FVec F S256x64 .bf16) = truncf .bf16 (m ((c : Thread nD τ).loc main_arg3)) bitsLt_bf16_f32 := by
  read_entry0

set_option maxHeartbeats 2000000 in
theorem W3_v29 (c : Dev nD) :
    (W3 m ρ c (Proc.devRef .tc main_v29) : FVec F S64x128 .bf16) = truncf .bf16 (m ((c : Thread nD τ).loc main_arg5)) bitsLt_bf16_f32 := by
  read_entry0

set_option maxHeartbeats 2000000 in
/-- No host operation before the first region writes an argument array. -/
theorem W3_arg (c : Dev nD) :
    W3 m ρ c (Proc.devRef .tc main_arg1) = m ((c : Thread nD τ).loc main_arg1)
    ∧ W3 m ρ c (Proc.devRef .tc main_arg2) = m ((c : Thread nD τ).loc main_arg2)
    ∧ W3 m ρ c (Proc.devRef .tc main_arg4) = m ((c : Thread nD τ).loc main_arg4)
    ∧ W3 m ρ c (Proc.devRef .tc main_arg6) = m ((c : Thread nD τ).loc main_arg6)
    ∧ W3 m ρ c (Proc.devRef .tc main_arg7) = m ((c : Thread nD τ).loc main_arg7)
    ∧ W3 m ρ c (Proc.devRef .tc main_arg8) = m ((c : Thread nD τ).loc main_arg8)
    ∧ W3 m ρ c (Proc.devRef .tc main_arg9) = m ((c : Thread nD τ).loc main_arg9)
    ∧ W3 m ρ c (Proc.devRef .tc main_arg10) = m ((c : Thread nD τ).loc main_arg10)
    ∧ W3 m ρ c (Proc.devRef .tc main_arg11) = m ((c : Thread nD τ).loc main_arg11)
    ∧ W3 m ρ c (Proc.devRef .tc main_arg12) = m ((c : Thread nD τ).loc main_arg12)
    ∧ W3 m ρ c (Proc.devRef .tc main_arg13) = m ((c : Thread nD τ).loc main_arg13)
    ∧ W3 m ρ c (Proc.devRef .tc main_arg14) = m ((c : Thread nD τ).loc main_arg14) := by
  refine ⟨?_, ?_, ?_, ?_, ?_, ?_, ?_, ?_, ?_, ?_, ?_, ?_⟩ <;> read_entry0

end Cert.KernelIdeal.KV

end
-- ==== Proof.HostRows.lean ====
/-
  The two dense stacks, read one entry at a time over the extended reals.

  A product of a matrix `l` of shape [M, K] with a matrix `r` of shape [K, N] has at `(p, q)` the plain sum
  `∑ₖ l p k · r k q` over the K contracted positions: the left operand is read at (row `p`, position `k`), the right
  at (position `k`, column `q`). A bias vector `b` of length N, first made a row [1, N] and then repeated down M rows,
  has at `(p, q)` the entry `b q`. The scalar zero repeated over a whole array is `0` at every index. Sums and maxima
  of arrays are taken entry by entry.

  With these, entry `(e, q)` of the edge stack is
  `max (∑ₖ max (∑ₗ z e l · W1 l k + b1 k) 0 · W2 k q + b2 q) 0` (`l` over 256 inputs, `k` over 64 hidden units),
  and entry `(n, 0)` of the node-wise tail is `∑ₖ max (∑ₗ h n l · Wd1 l k + bd1 k) 0 · Wd2 k 0 + bd2 0`
  (`l` over 128 inputs, `k` over 64 hidden units).
-/
import proofs.«424724_j43928925503631_1_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

namespace Cert.Spec

open Idealize.ShloMosaic Idealize.ShloMosaic.ValueIdx Cert.ReferenceIdeal Cert.ReferenceIdeal.Gen

/-! ### The edges' first product, [800000, 256] · [256, 64]: axis 1 of the left operand against axis 0 of the right -/

theorem lhsA_0 (i : S800000x64.Idx) (c : dot_S800000x256_S256x64_S800000x64_1_0_0_1_n_n.contr.Idx) :
    (dot_S800000x256_S256x64_S800000x64_1_0_0_1_n_n.lhsIdx i c 0).val = (i 0).val := by
  unfold DotDims.lhsIdx
  rw [dif_neg (show ¬(0 : Fin S800000x256.rank) ∈ dot_S800000x256_S256x64_S800000x64_1_0_0_1_n_n.lhsBatch by decide), dif_pos (show (0 : Fin S800000x256.rank) ∈ dot_S800000x256_S256x64_S800000x64_1_0_0_1_n_n.lhsNonContracting by decide)]
  rfl
theorem lhsA_1 (i : S800000x64.Idx) (c : dot_S800000x256_S256x64_S800000x64_1_0_0_1_n_n.contr.Idx) :
    (dot_S800000x256_S256x64_S800000x64_1_0_0_1_n_n.lhsIdx i c 1).val = (c ⟨0, by decide⟩).val :=
  dot_S800000x256_S256x64_S800000x64_1_0_0_1_n_n.lhsIdx_val_of_single rfl i c
theorem rhsA_0 (i : S800000x64.Idx) (c : dot_S800000x256_S256x64_S800000x64_1_0_0_1_n_n.contr.Idx) :
    (dot_S800000x256_S256x64_S800000x64_1_0_0_1_n_n.rhsIdx i c 0).val = (c ⟨0, by decide⟩).val :=
  dot_S800000x256_S256x64_S800000x64_1_0_0_1_n_n.rhsIdx_val_of_single rfl i c
theorem rhsA_1 (i : S800000x64.Idx) (c : dot_S800000x256_S256x64_S800000x64_1_0_0_1_n_n.contr.Idx) :
    (dot_S800000x256_S256x64_S800000x64_1_0_0_1_n_n.rhsIdx i c 1).val = (i 1).val := by
  unfold DotDims.rhsIdx
  rw [dif_neg (show ¬(1 : Fin S256x64.rank) ∈ dot_S800000x256_S256x64_S800000x64_1_0_0_1_n_n.rhsBatch by decide), dif_pos (show (1 : Fin S256x64.rank) ∈ dot_S800000x256_S256x64_S800000x64_1_0_0_1_n_n.rhsNonContracting by decide)]
  rfl

/-- Entry `(p, q)` of the product is `∑ₖ l p k · r k q`, `k` over the 256 contracted positions. -/
theorem dotA_apply (l : FVec Ideal S800000x256 .f32) (r : FVec Ideal S256x64 .f32) (p : Fin 800000) (q : Fin 64) :
    Host.dotGeneral dot_S800000x256_S256x64_S800000x64_1_0_0_1_n_n none l r (ix2 p q) = ∑ k : Fin 256, l (ix2 p k) * r (ix2 k q) := by
  simp only [Host.dotGeneral]
  rw [Ideal.dotGeneral_apply, ← Equiv.sum_comp (ValueIdx.contrEquiv1 dot_S800000x256_S256x64_S800000x64_1_0_0_1_n_n 256 rfl rfl).symm]
  refine Finset.sum_congr rfl fun k _ => ?_
  have hk := ValueIdx.contrEquiv1_symm_val dot_S800000x256_S256x64_S800000x64_1_0_0_1_n_n 256 rfl rfl k
  have el : dot_S800000x256_S256x64_S800000x64_1_0_0_1_n_n.lhsIdx (ix2 p q) ((ValueIdx.contrEquiv1 dot_S800000x256_S256x64_S800000x64_1_0_0_1_n_n 256 rfl rfl).symm k) = ix2 p k := funext fun a => Fin.ext (by
    match a with
    | ⟨0, _⟩ => exact lhsA_0 _ _
    | ⟨1, _⟩ => exact (lhsA_1 _ _).trans hk)
  have er : dot_S800000x256_S256x64_S800000x64_1_0_0_1_n_n.rhsIdx (ix2 p q) ((ValueIdx.contrEquiv1 dot_S800000x256_S256x64_S800000x64_1_0_0_1_n_n 256 rfl rfl).symm k) = ix2 k q := funext fun a => Fin.ext (by
    match a with
    | ⟨0, _⟩ => exact (rhsA_0 _ _).trans hk
    | ⟨1, _⟩ => exact rhsA_1 _ _)
  rw [el, er]

/-! ### The edges' second product, [800000, 64] · [64, 128] -/

theorem lhsB_0 (i : S800000x128.Idx) (c : dot_S800000x64_S64x128_S800000x128_1_0_0_1_n_n.contr.Idx) :
    (dot_S800000x64_S64x128_S800000x128_1_0_0_1_n_n.lhsIdx i c 0).val = (i 0).val := by
  unfold DotDims.lhsIdx
  rw [dif_neg (show ¬(0 : Fin S800000x64.rank) ∈ dot_S800000x64_S64x128_S800000x128_1_0_0_1_n_n.lhsBatch by decide), dif_pos (show (0 : Fin S800000x64.rank) ∈ dot_S800000x64_S64x128_S800000x128_1_0_0_1_n_n.lhsNonContracting by decide)]
  rfl
theorem lhsB_1 (i : S800000x128.Idx) (c : dot_S800000x64_S64x128_S800000x128_1_0_0_1_n_n.contr.Idx) :
    (dot_S800000x64_S64x128_S800000x128_1_0_0_1_n_n.lhsIdx i c 1).val = (c ⟨0, by decide⟩).val :=
  dot_S800000x64_S64x128_S800000x128_1_0_0_1_n_n.lhsIdx_val_of_single rfl i c
theorem rhsB_0 (i : S800000x128.Idx) (c : dot_S800000x64_S64x128_S800000x128_1_0_0_1_n_n.contr.Idx) :
    (dot_S800000x64_S64x128_S800000x128_1_0_0_1_n_n.rhsIdx i c 0).val = (c ⟨0, by decide⟩).val :=
  dot_S800000x64_S64x128_S800000x128_1_0_0_1_n_n.rhsIdx_val_of_single rfl i c
theorem rhsB_1 (i : S800000x128.Idx) (c : dot_S800000x64_S64x128_S800000x128_1_0_0_1_n_n.contr.Idx) :
    (dot_S800000x64_S64x128_S800000x128_1_0_0_1_n_n.rhsIdx i c 1).val = (i 1).val := by
  unfold DotDims.rhsIdx
  rw [dif_neg (show ¬(1 : Fin S64x128.rank) ∈ dot_S800000x64_S64x128_S800000x128_1_0_0_1_n_n.rhsBatch by decide), dif_pos (show (1 : Fin S64x128.rank) ∈ dot_S800000x64_S64x128_S800000x128_1_0_0_1_n_n.rhsNonContracting by decide)]
  rfl

/-- Entry `(p, q)` of the product is `∑ₖ l p k · r k q`, `k` over the 64 contracted positions. -/
theorem dotB_apply (l : FVec Ideal S800000x64 .f32) (r : FVec Ideal S64x128 .f32) (p : Fin 800000) (q : Fin 128) :
    Host.dotGeneral dot_S800000x64_S64x128_S800000x128_1_0_0_1_n_n none l r (ix2 p q) = ∑ k : Fin 64, l (ix2 p k) * r (ix2 k q) := by
  simp only [Host.dotGeneral]
  rw [Ideal.dotGeneral_apply, ← Equiv.sum_comp (ValueIdx.contrEquiv1 dot_S800000x64_S64x128_S800000x128_1_0_0_1_n_n 64 rfl rfl).symm]
  refine Finset.sum_congr rfl fun k _ => ?_
  have hk := ValueIdx.contrEquiv1_symm_val dot_S800000x64_S64x128_S800000x128_1_0_0_1_n_n 64 rfl rfl k
  have el : dot_S800000x64_S64x128_S800000x128_1_0_0_1_n_n.lhsIdx (ix2 p q) ((ValueIdx.contrEquiv1 dot_S800000x64_S64x128_S800000x128_1_0_0_1_n_n 64 rfl rfl).symm k) = ix2 p k := funext fun a => Fin.ext (by
    match a with
    | ⟨0, _⟩ => exact lhsB_0 _ _
    | ⟨1, _⟩ => exact (lhsB_1 _ _).trans hk)
  have er : dot_S800000x64_S64x128_S800000x128_1_0_0_1_n_n.rhsIdx (ix2 p q) ((ValueIdx.contrEquiv1 dot_S800000x64_S64x128_S800000x128_1_0_0_1_n_n 64 rfl rfl).symm k) = ix2 k q := funext fun a => Fin.ext (by
    match a with
    | ⟨0, _⟩ => exact (rhsB_0 _ _).trans hk
    | ⟨1, _⟩ => exact rhsB_1 _ _)
  rw [el, er]

/-! ### The nodes' first product, [50000, 128] · [128, 64] -/

theorem lhsC_0 (i : S50000x64.Idx) (c : dot_S50000x128_S128x64_S50000x64_1_0_0_1_n_n.contr.Idx) :
    (dot_S50000x128_S128x64_S50000x64_1_0_0_1_n_n.lhsIdx i c 0).val = (i 0).val := by
  unfold DotDims.lhsIdx
  rw [dif_neg (show ¬(0 : Fin S50000x128.rank) ∈ dot_S50000x128_S128x64_S50000x64_1_0_0_1_n_n.lhsBatch by decide), dif_pos (show (0 : Fin S50000x128.rank) ∈ dot_S50000x128_S128x64_S50000x64_1_0_0_1_n_n.lhsNonContracting by decide)]
  rfl
theorem lhsC_1 (i : S50000x64.Idx) (c : dot_S50000x128_S128x64_S50000x64_1_0_0_1_n_n.contr.Idx) :
    (dot_S50000x128_S128x64_S50000x64_1_0_0_1_n_n.lhsIdx i c 1).val = (c ⟨0, by decide⟩).val :=
  dot_S50000x128_S128x64_S50000x64_1_0_0_1_n_n.lhsIdx_val_of_single rfl i c
theorem rhsC_0 (i : S50000x64.Idx) (c : dot_S50000x128_S128x64_S50000x64_1_0_0_1_n_n.contr.Idx) :
    (dot_S50000x128_S128x64_S50000x64_1_0_0_1_n_n.rhsIdx i c 0).val = (c ⟨0, by decide⟩).val :=
  dot_S50000x128_S128x64_S50000x64_1_0_0_1_n_n.rhsIdx_val_of_single rfl i c
theorem rhsC_1 (i : S50000x64.Idx) (c : dot_S50000x128_S128x64_S50000x64_1_0_0_1_n_n.contr.Idx) :
    (dot_S50000x128_S128x64_S50000x64_1_0_0_1_n_n.rhsIdx i c 1).val = (i 1).val := by
  unfold DotDims.rhsIdx
  rw [dif_neg (show ¬(1 : Fin S128x64.rank) ∈ dot_S50000x128_S128x64_S50000x64_1_0_0_1_n_n.rhsBatch by decide), dif_pos (show (1 : Fin S128x64.rank) ∈ dot_S50000x128_S128x64_S50000x64_1_0_0_1_n_n.rhsNonContracting by decide)]
  rfl

/-- Entry `(p, q)` of the product is `∑ₖ l p k · r k q`, `k` over the 128 contracted positions. -/
theorem dotC_apply (l : FVec Ideal S50000x128 .f32) (r : FVec Ideal S128x64 .f32) (p : Fin 50000) (q : Fin 64) :
    Host.dotGeneral dot_S50000x128_S128x64_S50000x64_1_0_0_1_n_n none l r (ix2 p q) = ∑ k : Fin 128, l (ix2 p k) * r (ix2 k q) := by
  simp only [Host.dotGeneral]
  rw [Ideal.dotGeneral_apply, ← Equiv.sum_comp (ValueIdx.contrEquiv1 dot_S50000x128_S128x64_S50000x64_1_0_0_1_n_n 128 rfl rfl).symm]
  refine Finset.sum_congr rfl fun k _ => ?_
  have hk := ValueIdx.contrEquiv1_symm_val dot_S50000x128_S128x64_S50000x64_1_0_0_1_n_n 128 rfl rfl k
  have el : dot_S50000x128_S128x64_S50000x64_1_0_0_1_n_n.lhsIdx (ix2 p q) ((ValueIdx.contrEquiv1 dot_S50000x128_S128x64_S50000x64_1_0_0_1_n_n 128 rfl rfl).symm k) = ix2 p k := funext fun a => Fin.ext (by
    match a with
    | ⟨0, _⟩ => exact lhsC_0 _ _
    | ⟨1, _⟩ => exact (lhsC_1 _ _).trans hk)
  have er : dot_S50000x128_S128x64_S50000x64_1_0_0_1_n_n.rhsIdx (ix2 p q) ((ValueIdx.contrEquiv1 dot_S50000x128_S128x64_S50000x64_1_0_0_1_n_n 128 rfl rfl).symm k) = ix2 k q := funext fun a => Fin.ext (by
    match a with
    | ⟨0, _⟩ => exact (rhsC_0 _ _).trans hk
    | ⟨1, _⟩ => exact rhsC_1 _ _)
  rw [el, er]

/-! ### The nodes' second product, [50000, 64] · [64, 1] -/

theorem lhsD_0 (i : S50000x1.Idx) (c : dot_S50000x64_S64x1_S50000x1_1_0_0_1_n_n.contr.Idx) :
    (dot_S50000x64_S64x1_S50000x1_1_0_0_1_n_n.lhsIdx i c 0).val = (i 0).val := by
  unfold DotDims.lhsIdx
  rw [dif_neg (show ¬(0 : Fin S50000x64.rank) ∈ dot_S50000x64_S64x1_S50000x1_1_0_0_1_n_n.lhsBatch by decide), dif_pos (show (0 : Fin S50000x64.rank) ∈ dot_S50000x64_S64x1_S50000x1_1_0_0_1_n_n.lhsNonContracting by decide)]
  rfl
theorem lhsD_1 (i : S50000x1.Idx) (c : dot_S50000x64_S64x1_S50000x1_1_0_0_1_n_n.contr.Idx) :
    (dot_S50000x64_S64x1_S50000x1_1_0_0_1_n_n.lhsIdx i c 1).val = (c ⟨0, by decide⟩).val :=
  dot_S50000x64_S64x1_S50000x1_1_0_0_1_n_n.lhsIdx_val_of_single rfl i c
theorem rhsD_0 (i : S50000x1.Idx) (c : dot_S50000x64_S64x1_S50000x1_1_0_0_1_n_n.contr.Idx) :
    (dot_S50000x64_S64x1_S50000x1_1_0_0_1_n_n.rhsIdx i c 0).val = (c ⟨0, by decide⟩).val :=
  dot_S50000x64_S64x1_S50000x1_1_0_0_1_n_n.rhsIdx_val_of_single rfl i c
theorem rhsD_1 (i : S50000x1.Idx) (c : dot_S50000x64_S64x1_S50000x1_1_0_0_1_n_n.contr.Idx) :
    (dot_S50000x64_S64x1_S50000x1_1_0_0_1_n_n.rhsIdx i c 1).val = (i 1).val := by
  unfold DotDims.rhsIdx
  rw [dif_neg (show ¬(1 : Fin S64x1.rank) ∈ dot_S50000x64_S64x1_S50000x1_1_0_0_1_n_n.rhsBatch by decide), dif_pos (show (1 : Fin S64x1.rank) ∈ dot_S50000x64_S64x1_S50000x1_1_0_0_1_n_n.rhsNonContracting by decide)]
  rfl

/-- Entry `(p, q)` of the product is `∑ₖ l p k · r k q`, `k` over the 64 contracted positions. -/
theorem dotD_apply (l : FVec Ideal S50000x64 .f32) (r : FVec Ideal S64x1 .f32) (p : Fin 50000) (q : Fin 1) :
    Host.dotGeneral dot_S50000x64_S64x1_S50000x1_1_0_0_1_n_n none l r (ix2 p q) = ∑ k : Fin 64, l (ix2 p k) * r (ix2 k q) := by
  simp only [Host.dotGeneral]
  rw [Ideal.dotGeneral_apply, ← Equiv.sum_comp (ValueIdx.contrEquiv1 dot_S50000x64_S64x1_S50000x1_1_0_0_1_n_n 64 rfl rfl).symm]
  refine Finset.sum_congr rfl fun k _ => ?_
  have hk := ValueIdx.contrEquiv1_symm_val dot_S50000x64_S64x1_S50000x1_1_0_0_1_n_n 64 rfl rfl k
  have el : dot_S50000x64_S64x1_S50000x1_1_0_0_1_n_n.lhsIdx (ix2 p q) ((ValueIdx.contrEquiv1 dot_S50000x64_S64x1_S50000x1_1_0_0_1_n_n 64 rfl rfl).symm k) = ix2 p k := funext fun a => Fin.ext (by
    match a with
    | ⟨0, _⟩ => exact lhsD_0 _ _
    | ⟨1, _⟩ => exact (lhsD_1 _ _).trans hk)
  have er : dot_S50000x64_S64x1_S50000x1_1_0_0_1_n_n.rhsIdx (ix2 p q) ((ValueIdx.contrEquiv1 dot_S50000x64_S64x1_S50000x1_1_0_0_1_n_n 64 rfl rfl).symm k) = ix2 k q := funext fun a => Fin.ext (by
    match a with
    | ⟨0, _⟩ => exact (rhsD_0 _ _).trans hk
    | ⟨1, _⟩ => exact rhsD_1 _ _)
  rw [el, er]

/-! ### The biases repeated down the rows, and the repeated zero -/

/-- The bias of length 64 as a row, repeated down 800000 rows: entry `(p, q)` is `b q`. -/
theorem biasA_apply (b : FVec Ideal S64 .f32) (p : Fin 800000) (q : Fin 64) :
    broadcastInDim S800000x64 ![0, 1] bcast_S1x64_S800000x64_0_1 (broadcastInDim S1x64 ![1] bcast_S64_S1x64_1 b) (ix2 p q) = b (ix1 q) := by
  refine (broadcastInDim_apply _ bcast_S1x64_S800000x64_0_1 _ (ix2 p q) (ix2 (0 : Fin 1) q) (fun a => match a with
    | ⟨0, _⟩ => by show 0 = if (1 : Nat) = 1 then 0 else p.val; rw [if_pos rfl]
    | ⟨1, _⟩ => by show q.val = if (64 : Nat) = 1 then 0 else q.val; rw [if_neg (by decide)])).trans ?_
  exact broadcastInDim_apply _ bcast_S64_S1x64_1 b (ix2 (0 : Fin 1) q) (ix1 q) (fun a => match a with
    | ⟨0, _⟩ => by show q.val = if (64 : Nat) = 1 then 0 else q.val; rw [if_neg (by decide)])

/-- The bias of length 128 as a row, repeated down 800000 rows: entry `(p, q)` is `b q`. -/
theorem biasB_apply (b : FVec Ideal S128 .f32) (p : Fin 800000) (q : Fin 128) :
    broadcastInDim S800000x128 ![0, 1] bcast_S1x128_S800000x128_0_1 (broadcastInDim S1x128 ![1] bcast_S128_S1x128_1 b) (ix2 p q) = b (ix1 q) := by
  refine (broadcastInDim_apply _ bcast_S1x128_S800000x128_0_1 _ (ix2 p q) (ix2 (0 : Fin 1) q) (fun a => match a with
    | ⟨0, _⟩ => by show 0 = if (1 : Nat) = 1 then 0 else p.val; rw [if_pos rfl]
    | ⟨1, _⟩ => by show q.val = if (128 : Nat) = 1 then 0 else q.val; rw [if_neg (by decide)])).trans ?_
  exact broadcastInDim_apply _ bcast_S128_S1x128_1 b (ix2 (0 : Fin 1) q) (ix1 q) (fun a => match a with
    | ⟨0, _⟩ => by show q.val = if (128 : Nat) = 1 then 0 else q.val; rw [if_neg (by decide)])

/-- The bias of length 64 as a row, repeated down 50000 rows: entry `(p, q)` is `b q`. -/
theorem biasC_apply (b : FVec Ideal S64 .f32) (p : Fin 50000) (q : Fin 64) :
    broadcastInDim S50000x64 ![0, 1] bcast_S1x64_S50000x64_0_1 (broadcastInDim S1x64 ![1] bcast_S64_S1x64_1 b) (ix2 p q) = b (ix1 q) := by
  refine (broadcastInDim_apply _ bcast_S1x64_S50000x64_0_1 _ (ix2 p q) (ix2 (0 : Fin 1) q) (fun a => match a with
    | ⟨0, _⟩ => by show 0 = if (1 : Nat) = 1 then 0 else p.val; rw [if_pos rfl]
    | ⟨1, _⟩ => by show q.val = if (64 : Nat) = 1 then 0 else q.val; rw [if_neg (by decide)])).trans ?_
  exact broadcastInDim_apply _ bcast_S64_S1x64_1 b (ix2 (0 : Fin 1) q) (ix1 q) (fun a => match a with
    | ⟨0, _⟩ => by show q.val = if (64 : Nat) = 1 then 0 else q.val; rw [if_neg (by decide)])

/-- The bias of length 1 as a row, repeated down 50000 rows: entry `(p, q)` is `b q` (and `q` is 0). -/
theorem biasD_apply (b : FVec Ideal S1 .f32) (p : Fin 50000) (q : Fin 1) :
    broadcastInDim S50000x1 ![0, 1] bcast_S1x1_S50000x1_0_1 (broadcastInDim S1x1 ![1] bcast_S1_S1x1_1 b) (ix2 p q) = b (ix1 q) := by
  refine (broadcastInDim_apply _ bcast_S1x1_S50000x1_0_1 _ (ix2 p q) (ix2 (0 : Fin 1) q) (fun a => match a with
    | ⟨0, _⟩ => by show 0 = if (1 : Nat) = 1 then 0 else p.val; rw [if_pos rfl]
    | ⟨1, _⟩ => by show q.val = if (1 : Nat) = 1 then 0 else q.val; rw [if_pos rfl]; exact Nat.lt_one_iff.mp q.isLt)).trans ?_
  exact broadcastInDim_apply _ bcast_S1_S1x1_1 b (ix2 (0 : Fin 1) q) (ix1 q) (fun a => match a with
    | ⟨0, _⟩ => by show q.val = if (1 : Nat) = 1 then 0 else q.val; rw [if_pos rfl]; exact Nat.lt_one_iff.mp q.isLt)

/-- The scalar zero repeated over any array is `0` at every index. -/
theorem zeroSplat_apply {t : Shape} (h : S_.BroadcastsInDim t (![] : Fin 0 → Fin t.rank)) (j : t.Idx) :
    broadcastInDim t ![] h (constant (F := Ideal) S_ .f32 0x00000000#32) j = 0 := by
  refine (broadcastInDim_apply _ h _ j (fun a => a.elim0) (fun a => a.elim0)).trans ?_
  exact Ideal.ofBits_zero_f32

/-! ### The two stacks at an entry -/

/-- Entry `(e, q)` of the edge stack: the outer sum runs over the 64 hidden units `k`, each the ramp of the inner sum over
    the 256 inputs `l` of row `e` plus `b1 k`. -/
theorem edgeMLP_apply (z : FVec Ideal S800000x256 .f32) (W1 : FVec Ideal S256x64 .f32) (b1 : FVec Ideal S64 .f32)
    (W2 : FVec Ideal S64x128 .f32) (b2 : FVec Ideal S128 .f32) (e : Fin 800000) (q : Fin 128) :
    edgeMLP (F := Ideal) z W1 b1 W2 b2 (ix2 e q) = mlpAt (fun l => z (ix2 e l)) W1 b1 W2 b2 q := by
  unfold edgeMLP mlpAt
  rw [maximumf_apply, addf_apply, dotB_apply, biasB_apply, zeroSplat_apply]
  refine congrArg (fun t => max (t + b2 (ix1 q)) 0) (Finset.sum_congr rfl fun k _ => ?_)
  rw [maximumf_apply, addf_apply, dotA_apply, biasA_apply, zeroSplat_apply]

/-- Entry `(n, 0)` of the tail: the outer sum runs over the 64 hidden units `k`, each the ramp of the inner sum over the
    128 features `l` of node `n` plus `bd1 k`; no ramp after the last layer. -/
theorem tail_apply (h : FVec Ideal S50000x128 .f32) (Wd1 : FVec Ideal S128x64 .f32) (bd1 : FVec Ideal S64 .f32)
    (Wd2 : FVec Ideal S64x1 .f32) (bd2 : FVec Ideal S1 .f32) (n : Fin 50000) :
    tail (F := Ideal) h Wd1 bd1 Wd2 bd2 (ix2 n (0 : Fin 1)) = denseAt (fun l => h (ix2 n l)) Wd1 bd1 Wd2 bd2 := by
  unfold tail denseAt
  rw [addf_apply, dotD_apply, biasD_apply]
  refine congrArg (fun t => t + bd2 (ix1 (0 : Fin 1))) (Finset.sum_congr rfl fun k _ => ?_)
  rw [maximumf_apply, addf_apply, dotC_apply, biasC_apply, zeroSplat_apply]

end Cert.Spec

end
-- ==== Proof.KernelRows.lean ====
/-
  One row of each kernel body, entry by entry, over the extended reals.

  Each body is two dense layers on a block of rows. A product into the zero accumulator, read at `(p, c)`, is the plain
  sum `∑ₖ a (p, k) · b (k, c)` over the contracted axis: the left operand is read at (output row, k), the right at
  (k, output column). A bias `[n]` is written as the one row `[1, n]` and repeated down the block, so at `(p, c)` it is
  the bias at `c`. The ramp is `max · 0`, and rounding to the narrower format is the identity over the extended reals.

  The edge body, on a block of 8000 rows of 256 numbers: entry `(p, q)` is
  `max (∑ₖ max (∑ₗ z (p, l) · W1 (l, k) + b1 k) 0 · W2 (k, q) + b2 q) 0`, with `l` over 256, `k` over 64 and `q` over 128;
  both rounds run the same arithmetic. The node body, on a block of 5000 rows of 128 numbers: entry `(p, 0)` is
  `∑ₖ max (∑ₗ h (p, l) · Wd1 (l, k) + bd1 k) 0 · Wd2 (k, 0) + bd2 0`, with `l` over 128 and `k` over 64.
-/
import proofs.«424724_j43928925503631_1_alg».proof.Proof.Gen.KernelIdeal.Skeleton
import proofs.«424724_j43928925503631_1_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Rows

open Idealize.ShloMosaic Idealize.ShloMosaic.ValueIdx Cert.KernelIdeal Cert.KernelIdeal.Gen Cert.Spec

/-! ### The product `[8000, 256] · [256, 64]`: where its operands are read -/

/-- The left operand's row is the output's row. -/
theorem lhs_e1_0 (i : S8000x64.Idx) (c : Cert.KernelIdeal.dot_S8000x256_S256x64_S8000x64_1_0_0_1_n_n.contr.Idx) :
    (Cert.KernelIdeal.dot_S8000x256_S256x64_S8000x64_1_0_0_1_n_n.lhsIdx i c 0).val = (i 0).val := by
  unfold DotDims.lhsIdx
  rw [dif_neg (show ¬(0 : Fin S8000x256.rank) ∈ Cert.KernelIdeal.dot_S8000x256_S256x64_S8000x64_1_0_0_1_n_n.lhsBatch by decide), dif_pos (show (0 : Fin S8000x256.rank) ∈ Cert.KernelIdeal.dot_S8000x256_S256x64_S8000x64_1_0_0_1_n_n.lhsNonContracting by decide)]
  rfl
/-- The left operand's column is the summation index. -/
theorem lhs_e1_1 (i : S8000x64.Idx) (c : Cert.KernelIdeal.dot_S8000x256_S256x64_S8000x64_1_0_0_1_n_n.contr.Idx) :
    (Cert.KernelIdeal.dot_S8000x256_S256x64_S8000x64_1_0_0_1_n_n.lhsIdx i c 1).val = (c ⟨0, by decide⟩).val :=
  Cert.KernelIdeal.dot_S8000x256_S256x64_S8000x64_1_0_0_1_n_n.lhsIdx_val_of_single rfl i c
/-- The right operand's row is the summation index. -/
theorem rhs_e1_0 (i : S8000x64.Idx) (c : Cert.KernelIdeal.dot_S8000x256_S256x64_S8000x64_1_0_0_1_n_n.contr.Idx) :
    (Cert.KernelIdeal.dot_S8000x256_S256x64_S8000x64_1_0_0_1_n_n.rhsIdx i c 0).val = (c ⟨0, by decide⟩).val :=
  Cert.KernelIdeal.dot_S8000x256_S256x64_S8000x64_1_0_0_1_n_n.rhsIdx_val_of_single rfl i c
/-- The right operand's column is the output's column. -/
theorem rhs_e1_1 (i : S8000x64.Idx) (c : Cert.KernelIdeal.dot_S8000x256_S256x64_S8000x64_1_0_0_1_n_n.contr.Idx) :
    (Cert.KernelIdeal.dot_S8000x256_S256x64_S8000x64_1_0_0_1_n_n.rhsIdx i c 1).val = (i 1).val := by
  unfold DotDims.rhsIdx
  rw [dif_neg (show ¬(1 : Fin S256x64.rank) ∈ Cert.KernelIdeal.dot_S8000x256_S256x64_S8000x64_1_0_0_1_n_n.rhsBatch by decide), dif_pos (show (1 : Fin S256x64.rank) ∈ Cert.KernelIdeal.dot_S8000x256_S256x64_S8000x64_1_0_0_1_n_n.rhsNonContracting by decide)]
  rfl

/-- Into the zero accumulator the product at `(p, c)` is `∑ₖ a (p, k) · b (k, c)`. -/
theorem mm_e1_apply (a : FVec Ideal S8000x256 .bf16) (b : FVec Ideal S256x64 .bf16) (p : Fin 8000) (c : Fin 64) :
    matmul Cert.KernelIdeal.dot_S8000x256_S256x64_S8000x64_1_0_0_1_n_n none a b (constant (F := Ideal) S8000x64 .f32 0x00000000#32) (ix2 p c)
      = ∑ k : Fin 256, a (ix2 p k) * b (ix2 k c) := by
  refine (Ideal.matmul_constant_zero_apply Cert.KernelIdeal.dot_S8000x256_S256x64_S8000x64_1_0_0_1_n_n none a b (ix2 p c)).trans ?_
  rw [← Equiv.sum_comp (contrEquiv1 Cert.KernelIdeal.dot_S8000x256_S256x64_S8000x64_1_0_0_1_n_n 256 rfl rfl).symm]
  refine Finset.sum_congr rfl fun k _ => ?_
  have hk := contrEquiv1_symm_val Cert.KernelIdeal.dot_S8000x256_S256x64_S8000x64_1_0_0_1_n_n 256 rfl rfl k
  have el : Cert.KernelIdeal.dot_S8000x256_S256x64_S8000x64_1_0_0_1_n_n.lhsIdx (ix2 p c) ((contrEquiv1 Cert.KernelIdeal.dot_S8000x256_S256x64_S8000x64_1_0_0_1_n_n 256 rfl rfl).symm k) = ix2 p k := funext fun ax => Fin.ext (by
    match ax with
    | ⟨0, _⟩ => exact lhs_e1_0 _ _
    | ⟨1, _⟩ => exact (lhs_e1_1 _ _).trans hk)
  have er : Cert.KernelIdeal.dot_S8000x256_S256x64_S8000x64_1_0_0_1_n_n.rhsIdx (ix2 p c) ((contrEquiv1 Cert.KernelIdeal.dot_S8000x256_S256x64_S8000x64_1_0_0_1_n_n 256 rfl rfl).symm k) = ix2 k c := funext fun ax => Fin.ext (by
    match ax with
    | ⟨0, _⟩ => exact (rhs_e1_0 _ _).trans hk
    | ⟨1, _⟩ => exact rhs_e1_1 _ _)
  rw [el, er]

/-! ### The product `[8000, 64] · [64, 128]`: where its operands are read -/

/-- The left operand's row is the output's row. -/
theorem lhs_e2_0 (i : S8000x128.Idx) (c : Cert.KernelIdeal.dot_S8000x64_S64x128_S8000x128_1_0_0_1_n_n.contr.Idx) :
    (Cert.KernelIdeal.dot_S8000x64_S64x128_S8000x128_1_0_0_1_n_n.lhsIdx i c 0).val = (i 0).val := by
  unfold DotDims.lhsIdx
  rw [dif_neg (show ¬(0 : Fin S8000x64.rank) ∈ Cert.KernelIdeal.dot_S8000x64_S64x128_S8000x128_1_0_0_1_n_n.lhsBatch by decide), dif_pos (show (0 : Fin S8000x64.rank) ∈ Cert.KernelIdeal.dot_S8000x64_S64x128_S8000x128_1_0_0_1_n_n.lhsNonContracting by decide)]
  rfl
/-- The left operand's column is the summation index. -/
theorem lhs_e2_1 (i : S8000x128.Idx) (c : Cert.KernelIdeal.dot_S8000x64_S64x128_S8000x128_1_0_0_1_n_n.contr.Idx) :
    (Cert.KernelIdeal.dot_S8000x64_S64x128_S8000x128_1_0_0_1_n_n.lhsIdx i c 1).val = (c ⟨0, by decide⟩).val :=
  Cert.KernelIdeal.dot_S8000x64_S64x128_S8000x128_1_0_0_1_n_n.lhsIdx_val_of_single rfl i c
/-- The right operand's row is the summation index. -/
theorem rhs_e2_0 (i : S8000x128.Idx) (c : Cert.KernelIdeal.dot_S8000x64_S64x128_S8000x128_1_0_0_1_n_n.contr.Idx) :
    (Cert.KernelIdeal.dot_S8000x64_S64x128_S8000x128_1_0_0_1_n_n.rhsIdx i c 0).val = (c ⟨0, by decide⟩).val :=
  Cert.KernelIdeal.dot_S8000x64_S64x128_S8000x128_1_0_0_1_n_n.rhsIdx_val_of_single rfl i c
/-- The right operand's column is the output's column. -/
theorem rhs_e2_1 (i : S8000x128.Idx) (c : Cert.KernelIdeal.dot_S8000x64_S64x128_S8000x128_1_0_0_1_n_n.contr.Idx) :
    (Cert.KernelIdeal.dot_S8000x64_S64x128_S8000x128_1_0_0_1_n_n.rhsIdx i c 1).val = (i 1).val := by
  unfold DotDims.rhsIdx
  rw [dif_neg (show ¬(1 : Fin S64x128.rank) ∈ Cert.KernelIdeal.dot_S8000x64_S64x128_S8000x128_1_0_0_1_n_n.rhsBatch by decide), dif_pos (show (1 : Fin S64x128.rank) ∈ Cert.KernelIdeal.dot_S8000x64_S64x128_S8000x128_1_0_0_1_n_n.rhsNonContracting by decide)]
  rfl

/-- Into the zero accumulator the product at `(p, c)` is `∑ₖ a (p, k) · b (k, c)`. -/
theorem mm_e2_apply (a : FVec Ideal S8000x64 .bf16) (b : FVec Ideal S64x128 .bf16) (p : Fin 8000) (c : Fin 128) :
    matmul Cert.KernelIdeal.dot_S8000x64_S64x128_S8000x128_1_0_0_1_n_n none a b (constant (F := Ideal) S8000x128 .f32 0x00000000#32) (ix2 p c)
      = ∑ k : Fin 64, a (ix2 p k) * b (ix2 k c) := by
  refine (Ideal.matmul_constant_zero_apply Cert.KernelIdeal.dot_S8000x64_S64x128_S8000x128_1_0_0_1_n_n none a b (ix2 p c)).trans ?_
  rw [← Equiv.sum_comp (contrEquiv1 Cert.KernelIdeal.dot_S8000x64_S64x128_S8000x128_1_0_0_1_n_n 64 rfl rfl).symm]
  refine Finset.sum_congr rfl fun k _ => ?_
  have hk := contrEquiv1_symm_val Cert.KernelIdeal.dot_S8000x64_S64x128_S8000x128_1_0_0_1_n_n 64 rfl rfl k
  have el : Cert.KernelIdeal.dot_S8000x64_S64x128_S8000x128_1_0_0_1_n_n.lhsIdx (ix2 p c) ((contrEquiv1 Cert.KernelIdeal.dot_S8000x64_S64x128_S8000x128_1_0_0_1_n_n 64 rfl rfl).symm k) = ix2 p k := funext fun ax => Fin.ext (by
    match ax with
    | ⟨0, _⟩ => exact lhs_e2_0 _ _
    | ⟨1, _⟩ => exact (lhs_e2_1 _ _).trans hk)
  have er : Cert.KernelIdeal.dot_S8000x64_S64x128_S8000x128_1_0_0_1_n_n.rhsIdx (ix2 p c) ((contrEquiv1 Cert.KernelIdeal.dot_S8000x64_S64x128_S8000x128_1_0_0_1_n_n 64 rfl rfl).symm k) = ix2 k c := funext fun ax => Fin.ext (by
    match ax with
    | ⟨0, _⟩ => exact (rhs_e2_0 _ _).trans hk
    | ⟨1, _⟩ => exact rhs_e2_1 _ _)
  rw [el, er]

/-! ### The product `[5000, 128] · [128, 64]`: where its operands are read -/

/-- The left operand's row is the output's row. -/
theorem lhs_n1_0 (i : S5000x64.Idx) (c : Cert.KernelIdeal.dot_S5000x128_S128x64_S5000x64_1_0_0_1_n_n.contr.Idx) :
    (Cert.KernelIdeal.dot_S5000x128_S128x64_S5000x64_1_0_0_1_n_n.lhsIdx i c 0).val = (i 0).val := by
  unfold DotDims.lhsIdx
  rw [dif_neg (show ¬(0 : Fin S5000x128.rank) ∈ Cert.KernelIdeal.dot_S5000x128_S128x64_S5000x64_1_0_0_1_n_n.lhsBatch by decide), dif_pos (show (0 : Fin S5000x128.rank) ∈ Cert.KernelIdeal.dot_S5000x128_S128x64_S5000x64_1_0_0_1_n_n.lhsNonContracting by decide)]
  rfl
/-- The left operand's column is the summation index. -/
theorem lhs_n1_1 (i : S5000x64.Idx) (c : Cert.KernelIdeal.dot_S5000x128_S128x64_S5000x64_1_0_0_1_n_n.contr.Idx) :
    (Cert.KernelIdeal.dot_S5000x128_S128x64_S5000x64_1_0_0_1_n_n.lhsIdx i c 1).val = (c ⟨0, by decide⟩).val :=
  Cert.KernelIdeal.dot_S5000x128_S128x64_S5000x64_1_0_0_1_n_n.lhsIdx_val_of_single rfl i c
/-- The right operand's row is the summation index. -/
theorem rhs_n1_0 (i : S5000x64.Idx) (c : Cert.KernelIdeal.dot_S5000x128_S128x64_S5000x64_1_0_0_1_n_n.contr.Idx) :
    (Cert.KernelIdeal.dot_S5000x128_S128x64_S5000x64_1_0_0_1_n_n.rhsIdx i c 0).val = (c ⟨0, by decide⟩).val :=
  Cert.KernelIdeal.dot_S5000x128_S128x64_S5000x64_1_0_0_1_n_n.rhsIdx_val_of_single rfl i c
/-- The right operand's column is the output's column. -/
theorem rhs_n1_1 (i : S5000x64.Idx) (c : Cert.KernelIdeal.dot_S5000x128_S128x64_S5000x64_1_0_0_1_n_n.contr.Idx) :
    (Cert.KernelIdeal.dot_S5000x128_S128x64_S5000x64_1_0_0_1_n_n.rhsIdx i c 1).val = (i 1).val := by
  unfold DotDims.rhsIdx
  rw [dif_neg (show ¬(1 : Fin S128x64.rank) ∈ Cert.KernelIdeal.dot_S5000x128_S128x64_S5000x64_1_0_0_1_n_n.rhsBatch by decide), dif_pos (show (1 : Fin S128x64.rank) ∈ Cert.KernelIdeal.dot_S5000x128_S128x64_S5000x64_1_0_0_1_n_n.rhsNonContracting by decide)]
  rfl

/-- Into the zero accumulator the product at `(p, c)` is `∑ₖ a (p, k) · b (k, c)`. -/
theorem mm_n1_apply (a : FVec Ideal S5000x128 .bf16) (b : FVec Ideal S128x64 .bf16) (p : Fin 5000) (c : Fin 64) :
    matmul Cert.KernelIdeal.dot_S5000x128_S128x64_S5000x64_1_0_0_1_n_n none a b (constant (F := Ideal) S5000x64 .f32 0x00000000#32) (ix2 p c)
      = ∑ k : Fin 128, a (ix2 p k) * b (ix2 k c) := by
  refine (Ideal.matmul_constant_zero_apply Cert.KernelIdeal.dot_S5000x128_S128x64_S5000x64_1_0_0_1_n_n none a b (ix2 p c)).trans ?_
  rw [← Equiv.sum_comp (contrEquiv1 Cert.KernelIdeal.dot_S5000x128_S128x64_S5000x64_1_0_0_1_n_n 128 rfl rfl).symm]
  refine Finset.sum_congr rfl fun k _ => ?_
  have hk := contrEquiv1_symm_val Cert.KernelIdeal.dot_S5000x128_S128x64_S5000x64_1_0_0_1_n_n 128 rfl rfl k
  have el : Cert.KernelIdeal.dot_S5000x128_S128x64_S5000x64_1_0_0_1_n_n.lhsIdx (ix2 p c) ((contrEquiv1 Cert.KernelIdeal.dot_S5000x128_S128x64_S5000x64_1_0_0_1_n_n 128 rfl rfl).symm k) = ix2 p k := funext fun ax => Fin.ext (by
    match ax with
    | ⟨0, _⟩ => exact lhs_n1_0 _ _
    | ⟨1, _⟩ => exact (lhs_n1_1 _ _).trans hk)
  have er : Cert.KernelIdeal.dot_S5000x128_S128x64_S5000x64_1_0_0_1_n_n.rhsIdx (ix2 p c) ((contrEquiv1 Cert.KernelIdeal.dot_S5000x128_S128x64_S5000x64_1_0_0_1_n_n 128 rfl rfl).symm k) = ix2 k c := funext fun ax => Fin.ext (by
    match ax with
    | ⟨0, _⟩ => exact (rhs_n1_0 _ _).trans hk
    | ⟨1, _⟩ => exact rhs_n1_1 _ _)
  rw [el, er]

/-! ### The product `[5000, 64] · [64, 1]`: where its operands are read -/

/-- The left operand's row is the output's row. -/
theorem lhs_n2_0 (i : S5000x1.Idx) (c : Cert.KernelIdeal.dot_S5000x64_S64x1_S5000x1_1_0_0_1_n_n.contr.Idx) :
    (Cert.KernelIdeal.dot_S5000x64_S64x1_S5000x1_1_0_0_1_n_n.lhsIdx i c 0).val = (i 0).val := by
  unfold DotDims.lhsIdx
  rw [dif_neg (show ¬(0 : Fin S5000x64.rank) ∈ Cert.KernelIdeal.dot_S5000x64_S64x1_S5000x1_1_0_0_1_n_n.lhsBatch by decide), dif_pos (show (0 : Fin S5000x64.rank) ∈ Cert.KernelIdeal.dot_S5000x64_S64x1_S5000x1_1_0_0_1_n_n.lhsNonContracting by decide)]
  rfl
/-- The left operand's column is the summation index. -/
theorem lhs_n2_1 (i : S5000x1.Idx) (c : Cert.KernelIdeal.dot_S5000x64_S64x1_S5000x1_1_0_0_1_n_n.contr.Idx) :
    (Cert.KernelIdeal.dot_S5000x64_S64x1_S5000x1_1_0_0_1_n_n.lhsIdx i c 1).val = (c ⟨0, by decide⟩).val :=
  Cert.KernelIdeal.dot_S5000x64_S64x1_S5000x1_1_0_0_1_n_n.lhsIdx_val_of_single rfl i c
/-- The right operand's row is the summation index. -/
theorem rhs_n2_0 (i : S5000x1.Idx) (c : Cert.KernelIdeal.dot_S5000x64_S64x1_S5000x1_1_0_0_1_n_n.contr.Idx) :
    (Cert.KernelIdeal.dot_S5000x64_S64x1_S5000x1_1_0_0_1_n_n.rhsIdx i c 0).val = (c ⟨0, by decide⟩).val :=
  Cert.KernelIdeal.dot_S5000x64_S64x1_S5000x1_1_0_0_1_n_n.rhsIdx_val_of_single rfl i c
/-- The right operand's column is the output's column. -/
theorem rhs_n2_1 (i : S5000x1.Idx) (c : Cert.KernelIdeal.dot_S5000x64_S64x1_S5000x1_1_0_0_1_n_n.contr.Idx) :
    (Cert.KernelIdeal.dot_S5000x64_S64x1_S5000x1_1_0_0_1_n_n.rhsIdx i c 1).val = (i 1).val := by
  unfold DotDims.rhsIdx
  rw [dif_neg (show ¬(1 : Fin S64x1.rank) ∈ Cert.KernelIdeal.dot_S5000x64_S64x1_S5000x1_1_0_0_1_n_n.rhsBatch by decide), dif_pos (show (1 : Fin S64x1.rank) ∈ Cert.KernelIdeal.dot_S5000x64_S64x1_S5000x1_1_0_0_1_n_n.rhsNonContracting by decide)]
  rfl

/-- Into the zero accumulator the product at `(p, c)` is `∑ₖ a (p, k) · b (k, c)`. -/
theorem mm_n2_apply (a : FVec Ideal S5000x64 .bf16) (b : FVec Ideal S64x1 .bf16) (p : Fin 5000) (c : Fin 1) :
    matmul Cert.KernelIdeal.dot_S5000x64_S64x1_S5000x1_1_0_0_1_n_n none a b (constant (F := Ideal) S5000x1 .f32 0x00000000#32) (ix2 p c)
      = ∑ k : Fin 64, a (ix2 p k) * b (ix2 k c) := by
  refine (Ideal.matmul_constant_zero_apply Cert.KernelIdeal.dot_S5000x64_S64x1_S5000x1_1_0_0_1_n_n none a b (ix2 p c)).trans ?_
  rw [← Equiv.sum_comp (contrEquiv1 Cert.KernelIdeal.dot_S5000x64_S64x1_S5000x1_1_0_0_1_n_n 64 rfl rfl).symm]
  refine Finset.sum_congr rfl fun k _ => ?_
  have hk := contrEquiv1_symm_val Cert.KernelIdeal.dot_S5000x64_S64x1_S5000x1_1_0_0_1_n_n 64 rfl rfl k
  have el : Cert.KernelIdeal.dot_S5000x64_S64x1_S5000x1_1_0_0_1_n_n.lhsIdx (ix2 p c) ((contrEquiv1 Cert.KernelIdeal.dot_S5000x64_S64x1_S5000x1_1_0_0_1_n_n 64 rfl rfl).symm k) = ix2 p k := funext fun ax => Fin.ext (by
    match ax with
    | ⟨0, _⟩ => exact lhs_n2_0 _ _
    | ⟨1, _⟩ => exact (lhs_n2_1 _ _).trans hk)
  have er : Cert.KernelIdeal.dot_S5000x64_S64x1_S5000x1_1_0_0_1_n_n.rhsIdx (ix2 p c) ((contrEquiv1 Cert.KernelIdeal.dot_S5000x64_S64x1_S5000x1_1_0_0_1_n_n 64 rfl rfl).symm k) = ix2 k c := funext fun ax => Fin.ext (by
    match ax with
    | ⟨0, _⟩ => exact (rhs_n2_0 _ _).trans hk
    | ⟨1, _⟩ => exact rhs_n2_1 _ _)
  rw [el, er]

/-! ### A bias laid out as one row and repeated down the rows -/

/-- A bias `[n]` written as the one row `[1, n]` and repeated down `m` rows reads, at `(p, c)`, the bias at `c`. -/
theorem bias_apply {m n : ℕ} (b : (⟨1, ![n]⟩ : Shape).Idx → EReal) (h1 : (⟨1, ![n]⟩ : Shape).ShapeCasts ⟨2, ![1, n]⟩)
    (h2 : (⟨2, ![1, n]⟩ : Shape).Broadcasts ⟨2, ![m, n]⟩) (p : Fin m) (c : Fin n) :
    broadcastTo ⟨2, ![m, n]⟩ (shapeCast ⟨2, ![1, n]⟩ b h1) h2 (ix2 p c) = b (ix1 c) :=
  (broadcastTo_1b_ab_apply _ h2 p c).trans (shapeCast_a_1a_apply b h1 0 c)

/-! ### The edge kernel's row -/

/-- The hidden layer at `(p, k)`: `max (∑ₗ z (p, l) · W1 (l, k) + b1 k) 0`; rounding to the narrower format is the
    identity over the extended reals. -/
theorem hidden_e_apply (z : FVec Ideal S8000x256 .bf16) (W1 : FVec Ideal S256x64 .bf16) (b1 : FVec Ideal S64 .f32)
    (p : Fin 8000) (k : Fin 64) :
    (truncf .bf16 (maximumf (addf (matmul Cert.KernelIdeal.dot_S8000x256_S256x64_S8000x64_1_0_0_1_n_n none z W1
        (constant (F := Ideal) S8000x64 .f32 0x00000000#32))
        (broadcastTo S8000x64 (shapeCast S1x64 b1 shapeCasts_S64_S1x64) broadcasts_S1x64_S8000x64))
        (broadcast S8000x64 (Scalar.ofBits (F := Ideal) .f32 0x00000000#32))) bitsLt_bf16_f32 : FVec Ideal S8000x64 .bf16) (ix2 p k)
      = max ((∑ l : Fin 256, z (ix2 p l) * W1 (ix2 l k)) + b1 (ix1 k)) 0 := by
  show max (matmul Cert.KernelIdeal.dot_S8000x256_S256x64_S8000x64_1_0_0_1_n_n none z W1
        (constant (F := Ideal) S8000x64 .f32 0x00000000#32) (ix2 p k)
      + broadcastTo S8000x64 (shapeCast S1x64 b1 shapeCasts_S64_S1x64) broadcasts_S1x64_S8000x64 (ix2 p k))
      (Ideal.ofBits .f32 0x00000000#32) = _
  rw [mm_e1_apply, bias_apply, Ideal.ofBits_zero_f32]

/-- Entry `(p, q)` of the edge kernel's block is entry `q` of the message of row `p`. -/
theorem k0_pay1_apply (x0 : Vec Ideal S8000x256 .bf16) (x1 : Vec Ideal S256x64 .bf16) (x2 : Vec Ideal S64 .f32)
    (x3 : Vec Ideal S64x128 .bf16) (x4 : Vec Ideal S128 .f32) (p : Fin 8000) (q : Fin 128) :
    k0_pay1 (F := Ideal) x0 x1 x2 x3 x4 (ix2 p q) = mlpAt (fun l => x0 (ix2 p l)) x1 x2 x3 x4 q := by
  unfold k0_pay1 mlpAt
  rw [shapeCast_self x0, shapeCast_self x1, shapeCast_self x3]
  rw [maximumf_apply, broadcast_apply, addf_apply, mm_e2_apply, bias_apply]
  refine congrArg₂ max (congrArg (· + x4 (ix1 q)) (Finset.sum_congr rfl fun k _ => ?_)) Ideal.ofBits_zero_f32
  exact congrArg (· * x3 (ix2 k q)) (hidden_e_apply x0 x1 x2 p k)

/-- The second round's edge kernel is the same arithmetic. -/
theorem k1_pay1_apply (x0 : Vec Ideal S8000x256 .bf16) (x1 : Vec Ideal S256x64 .bf16) (x2 : Vec Ideal S64 .f32)
    (x3 : Vec Ideal S64x128 .bf16) (x4 : Vec Ideal S128 .f32) (p : Fin 8000) (q : Fin 128) :
    k1_pay1 (F := Ideal) x0 x1 x2 x3 x4 (ix2 p q) = mlpAt (fun l => x0 (ix2 p l)) x1 x2 x3 x4 q := by
  exact k0_pay1_apply x0 x1 x2 x3 x4 p q

/-! ### The node kernel's row -/

/-- The hidden layer at `(p, k)`: `max (∑ₗ h (p, l) · Wd1 (l, k) + bd1 k) 0`; the input is rounded to the narrower
    format first and the layer after, both the identity over the extended reals. -/
theorem hidden_n_apply (h : FVec Ideal S5000x128 .f32) (Wd1 : FVec Ideal S128x64 .bf16) (bd1 : FVec Ideal S64 .f32)
    (p : Fin 5000) (k : Fin 64) :
    (truncf .bf16 (maximumf (addf (matmul Cert.KernelIdeal.dot_S5000x128_S128x64_S5000x64_1_0_0_1_n_n none
        (truncf .bf16 h bitsLt_bf16_f32 : FVec Ideal S5000x128 .bf16) Wd1
        (constant (F := Ideal) S5000x64 .f32 0x00000000#32))
        (broadcastTo S5000x64 (shapeCast S1x64 bd1 shapeCasts_S64_S1x64) broadcasts_S1x64_S5000x64))
        (broadcast S5000x64 (Scalar.ofBits (F := Ideal) .f32 0x00000000#32))) bitsLt_bf16_f32 : FVec Ideal S5000x64 .bf16) (ix2 p k)
      = max ((∑ l : Fin 128, h (ix2 p l) * Wd1 (ix2 l k)) + bd1 (ix1 k)) 0 := by
  show max (matmul Cert.KernelIdeal.dot_S5000x128_S128x64_S5000x64_1_0_0_1_n_n none
        (truncf .bf16 h bitsLt_bf16_f32 : FVec Ideal S5000x128 .bf16) Wd1
        (constant (F := Ideal) S5000x64 .f32 0x00000000#32) (ix2 p k)
      + broadcastTo S5000x64 (shapeCast S1x64 bd1 shapeCasts_S64_S1x64) broadcasts_S1x64_S5000x64 (ix2 p k))
      (Ideal.ofBits .f32 0x00000000#32) = _
  rw [mm_n1_apply, bias_apply, Ideal.ofBits_zero_f32]
  rfl

/-- Entry `(p, 0)` of the node kernel's block is the output of row `p`. -/
theorem k2_pay1_apply (x0 : Vec Ideal S5000x128 .f32) (x1 : Vec Ideal S128x64 .bf16) (x2 : Vec Ideal S64 .f32)
    (x3 : Vec Ideal S64x1 .bf16) (x4 : Vec Ideal S1 .f32) (p : Fin 5000) :
    k2_pay1 (F := Ideal) x0 x1 x2 x3 x4 (ix2 p (0 : Fin 1)) = denseAt (fun l => x0 (ix2 p l)) x1 x2 x3 x4 := by
  unfold k2_pay1 denseAt
  rw [shapeCast_self x0, shapeCast_self x1, shapeCast_self x3]
  rw [addf_apply, mm_n2_apply, bias_apply]
  refine congrArg (· + x4 (ix1 (0 : Fin 1))) (Finset.sum_congr rfl fun k _ => ?_)
  exact congrArg (· * x3 (ix2 k (0 : Fin 1))) (hidden_n_apply x0 x1 x2 p k)

end Cert.KernelIdeal.Rows

end
-- ==== Proof.Blocks.lean ====
/-
  What each of the three pipelined regions leaves in its output array, entry by entry.

  A region walks a grid of points. At point `t` it reads one block of rows of its first input (rows
  `t · 8000 … t · 8000 + 7999` of the edges' input rows in the two edge regions, rows `t · 5000 … t · 5000 + 4999` of the
  node features in the node region) together with the WHOLE of its four parameter arrays (two weight matrices, two
  bias vectors: their block index is zero at every point, and the block is as large as the array), computes from
  them a block of as many output rows, and writes that block back to the same rows of the output array.

  Entry `(p, q)` of the block computed at point `t` is a function of row `p` of the input block alone (the two
  dense layers of `mlpAt`, or of `denseAt` in the node region). Row `p` of the input block is row `t · B + p` of the
  input array (`B` the block's height), and row `p` of the output block lands on row `t · B + p` of the output array, so
  every point writes its block of ONE function `G` of the arrays: `G (e, q)` is the dense stack of row `e` of the
  input. Row `e` lies in the block of point `e / B`, every point writes back, hence the output array holds `G` at
  `(e, q)` after the last point.
-/
import proofs.«424724_j43928925503631_1_alg».proof.Proof.Gen.KernelIdeal.Frame
import proofs.«424724_j43928925503631_1_alg».proof.Proof.Spec
import proofs.«424724_j43928925503631_1_alg».proof.Proof.KernelRows
import Idealize.ShloMosaic.Lib.Pipeline.Value
import Idealize.ShloMosaic.Lib.ValueIdx

set_option maxRecDepth 16384

noncomputable section

namespace Cert.KernelIdeal.Blocks

open Idealize.ShloMosaic Idealize.ShloMosaic.TcCoe Idealize.ShloMosaic.ValueIdx Idealize.SL.Sem
open Cert.KernelIdeal Cert.KernelIdeal.Gen Cert.Spec Cert.KernelIdeal.Rows
open Idealize.ShloMosaic.Pipeline (Dat Cfg Window)

variable (V : (c : Dev nD) → (b : Ref sig .tc) → Buf (Elt Ideal) ((c : Thread nD τ).loc b))

/-! ## Zero offsets, however they are spelt -/

theorem hz2 : (![0, 0] : Fin 2 → Nat) = fun _ => 0 := funext fun a => by fin_cases a <;> rfl
theorem hz1 : (![0] : Fin 1 → Nat) = fun _ => 0 := funext fun a => by fin_cases a <;> rfl

/-! ## The first edge region: 100 points, blocks of 8000 edges -/

/-- The block indices at point `t`: the input rows' and the output's first index is `t`, every other index is zero. -/
theorem idx0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 1) = 0
    ∧ win0_3.index t (0 : Fin 2) = 0 ∧ win0_3.index t (1 : Fin 2) = 0
    ∧ win0_4.index t (0 : Fin 1) = 0
    ∧ win0_5.index t (0 : Fin 2) = t.val ∧ win0_5.index t (1 : Fin 2) = 0 :=
  (by decide +kernel : ∀ t : Fin grid0.N, _)

/-- What the output array ends holding: at `(e, q)` entry `q` of the message of edge `e`'s input row. -/
def G0 (c : Dev nD) : S800000x128.Idx → EReal := fun i =>
  mlpAt (fun l => V c main_v27 (ix2 (⟨(i 0).val, (i 0).isLt⟩ : Fin 800000) l)) (V c main_v28) (V c main_arg4) (V c main_v29) (V c main_arg6)
    (⟨(i 1).val, (i 1).isLt⟩ : Fin 128)

/-- Row `p` of the block of input rows that point `t` reads is row `t · 8000 + p` of the array. -/
theorem rows0 (c : Dev nD) (t : Fin cfg0.N) (p : Fin 8000) (l : Fin 256) (e : Fin 800000) (he : e.val = t.val * 8000 + p.val) :
    (iblk0 (F := Ideal) V c 0 t : Vec Ideal S8000x256 .bf16) (ix2 p l) = V c main_v27 (ix2 e l) := by
  obtain ⟨h0, h1, -⟩ := idx0 t
  unfold iblk0
  rw [View.read_apply]
  show V c main_v27 _ = V c main_v27 _
  congr 1
  funext a; apply Fin.ext
  match a with
  | ⟨0, _⟩ => show win0_0.index t 0 * 8000 + 1 * p.val = e.val; omega
  | ⟨1, _⟩ => show win0_0.index t 1 * 256 + 1 * l.val = l.val; omega

/-- The first weight matrix is read whole at every point. -/
theorem whole0_1 (c : Dev nD) (t : Fin cfg0.N) : (iblk0 (F := Ideal) V c 1 t : Vec Ideal S256x64 .bf16) = V c main_v28 := by
  obtain ⟨-, -, h0, h1, -⟩ := idx0 t
  unfold iblk0
  funext x
  rw [View.read_apply]
  show V c main_v28 _ = V c main_v28 x
  congr 1
  funext a; apply Fin.ext
  match a with
  | ⟨0, _⟩ => show win0_1.index t 0 * 256 + 1 * (x 0).val = (x 0).val; omega
  | ⟨1, _⟩ => show win0_1.index t 1 * 64 + 1 * (x 1).val = (x 1).val; omega

/-- The first bias is read whole at every point. -/
theorem whole0_2 (c : Dev nD) (t : Fin cfg0.N) : (iblk0 (F := Ideal) V c 2 t : Vec Ideal S64 .f32) = V c main_arg4 := by
  obtain ⟨-, -, -, -, h0, -⟩ := idx0 t
  unfold iblk0
  funext x
  rw [View.read_apply]
  show V c main_arg4 _ = V c main_arg4 x
  congr 1
  funext a; apply Fin.ext
  match a with
  | ⟨0, _⟩ => show win0_2.index t 0 * 64 + 1 * (x 0).val = (x 0).val; omega

/-- The second weight matrix is read whole at every point. -/
theorem whole0_3 (c : Dev nD) (t : Fin cfg0.N) : (iblk0 (F := Ideal) V c 3 t : Vec Ideal S64x128 .bf16) = V c main_v29 := by
  obtain ⟨-, -, -, -, -, h0, h1, -⟩ := idx0 t
  unfold iblk0
  funext x
  rw [View.read_apply]
  show V c main_v29 _ = V c main_v29 x
  congr 1
  funext a; apply Fin.ext
  match a with
  | ⟨0, _⟩ => show win0_3.index t 0 * 64 + 1 * (x 0).val = (x 0).val; omega
  | ⟨1, _⟩ => show win0_3.index t 1 * 128 + 1 * (x 1).val = (x 1).val; omega

/-- The second bias is read whole at every point. -/
theorem whole0_4 (c : Dev nD) (t : Fin cfg0.N) : (iblk0 (F := Ideal) V c 4 t : Vec Ideal S128 .f32) = V c main_arg6 := by
  obtain ⟨-, -, -, -, -, -, -, h0, -⟩ := idx0 t
  unfold iblk0
  funext x
  rw [View.read_apply]
  show V c main_arg6 _ = V c main_arg6 x
  congr 1
  funext a; apply Fin.ext
  match a with
  | ⟨0, _⟩ => show win0_4.index t 0 * 128 + 1 * (x 0).val = (x 0).val; omega

/-- What point `t` writes back is its block of `G0`: entry `(p, q)` of the computed block is the message of row `p`
    of the input block, which is row `t · 8000 + p` of the input, and it lands on row `t · 8000 + p`, column `q`. -/
theorem flushed0_eq (c : Dev nD) (t : Fin cfg0.N) :
    (dat0 (F := Ideal) V c).flushed 5 t = ((cfg0.win 5).blk t).view.read (Elt Ideal) (G0 V c) := by
  show (cfg0.win 5).cut (grid0.coords t) ((dat0 V c).after 5 t) = _
  rw [after0_5]
  unfold out0_5
  rw [View.canon_unit_zero hz2]
  simp only [View.ld_unit_zero (S := S8000x256) hz2, View.ld_unit_zero (S := S256x64) hz2, View.ld_unit_zero (S := S64) hz1,
    View.ld_unit_zero (S := S64x128) hz2, View.ld_unit_zero (S := S128) hz1]
  funext (j : S8000x128.Idx)
  obtain ⟨p, q, rfl⟩ : ∃ (p : Fin 8000) (q : Fin 128), j = ix2 p q := ⟨j 0, j 1, eq_ix2 j⟩
  show k0_pay1 (F := Ideal) (iblk0 V c 0 t) (iblk0 V c 1 t) (iblk0 V c 2 t) (iblk0 V c 3 t) (iblk0 V c 4 t) (ix2 p q)
    = G0 V c (((cfg0.win 5).blk t).view.emb (ix2 p q))
  refine (k0_pay1_apply _ _ _ _ _ p q).trans ?_
  rw [whole0_1, whole0_2, whole0_3, whole0_4]
  obtain ⟨-, -, -, -, -, -, -, -, h50, h51⟩ := idx0 t
  unfold G0
  have hq : (⟨(((cfg0.win 5).blk t).view.emb (ix2 p q) 1).val, (((cfg0.win 5).blk t).view.emb (ix2 p q) 1).isLt⟩ : Fin 128) = q :=
    Fin.ext (by show win0_5.index t 1 * 128 + 1 * q.val = q.val; omega)
  show mlpAt _ _ _ _ _ q = mlpAt _ _ _ _ _ _
  rw [hq]
  refine congrArg (fun z => mlpAt z _ _ _ _ q) (funext fun l => ?_)
  exact rows0 V c t p l _ (by show win0_5.index t 0 * 8000 + 1 * p.val = t.val * 8000 + p.val; omega)

/-- An index of the output array is in point `t`'s block iff each coordinate is in the block's range on its axis. -/
theorem mem_blk0 (t : Fin cfg0.N) (i : S800000x128.Idx) :
    i ∈ ((cfg0.win 5).blk t).view.set ↔ ∀ a : Fin 2, win0_5.index t a * S8000x128.size a ≤ (i a).val ∧ (i a).val < win0_5.index t a * S8000x128.size a + S8000x128.size a := by
  show i ∈ ((View.whole main_v30).slice (win0_5.rect t)).set ↔ _
  rw [View.set_slice_whole, Rect.mem_set_unit]
  exact Iff.rfl

/-- After the last point, entry `(e, q)` of the output array is entry `q` of the message of edge `e`'s input row: row `e`
    is in the block of point `e / 8000`. -/
theorem region0_out (c : Dev nD) (e : Fin 800000) (q : Fin 128) :
    (dat0 (F := Ideal) V c).arrAt 5 cfg0.N (ix2 e q)
      = mlpAt (fun l => V c main_v27 (ix2 e l)) (V c main_v28) (V c main_arg4) (V c main_v29) (V c main_arg6) q := by
  have ht : e.val / 8000 < cfg0.N := by rw [show cfg0.N = 100 from N_0]; omega
  refine (dat0 (F := Ideal) V c).arrAt_apply_of_mem 5 (G0 V c) (fun t _ => flushed0_eq V c t) cfg0.N ⟨e.val / 8000, ht⟩ (ix2 e q) ht (flush0_5 _) ?_
  rw [mem_blk0]
  obtain ⟨-, -, -, -, -, -, -, -, h50, h51⟩ := idx0 ⟨e.val / 8000, ht⟩
  intro a
  match a with
  | ⟨0, _⟩ =>
    show win0_5.index ⟨e.val / 8000, ht⟩ 0 * 8000 ≤ e.val ∧ e.val < win0_5.index ⟨e.val / 8000, ht⟩ 0 * 8000 + 8000
    rw [h50]; show e.val / 8000 * 8000 ≤ e.val ∧ e.val < e.val / 8000 * 8000 + 8000; omega
  | ⟨1, _⟩ =>
    show win0_5.index ⟨e.val / 8000, ht⟩ 1 * 128 ≤ q.val ∧ q.val < win0_5.index ⟨e.val / 8000, ht⟩ 1 * 128 + 128
    rw [h51]; omega

/-! ## The second edge region: 100 points, blocks of 8000 edges -/

/-- The block indices at point `t`: the input rows' and the output's first index is `t`, every other index is zero. -/
theorem idx1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 1) = 0
    ∧ win1_3.index t (0 : Fin 2) = 0 ∧ win1_3.index t (1 : Fin 2) = 0
    ∧ win1_4.index t (0 : Fin 1) = 0
    ∧ win1_5.index t (0 : Fin 2) = t.val ∧ win1_5.index t (1 : Fin 2) = 0 :=
  (by decide +kernel : ∀ t : Fin grid1.N, _)

/-- What the output array ends holding: at `(e, q)` entry `q` of the message of edge `e`'s input row. -/
def G1 (c : Dev nD) : S800000x128.Idx → EReal := fun i =>
  mlpAt (fun l => V c main_v56 (ix2 (⟨(i 0).val, (i 0).isLt⟩ : Fin 800000) l)) (V c main_v57) (V c main_arg8) (V c main_v58) (V c main_arg10)
    (⟨(i 1).val, (i 1).isLt⟩ : Fin 128)

/-- Row `p` of the block of input rows that point `t` reads is row `t · 8000 + p` of the array. -/
theorem rows1 (c : Dev nD) (t : Fin cfg1.N) (p : Fin 8000) (l : Fin 256) (e : Fin 800000) (he : e.val = t.val * 8000 + p.val) :
    (iblk1 (F := Ideal) V c 0 t : Vec Ideal S8000x256 .bf16) (ix2 p l) = V c main_v56 (ix2 e l) := by
  obtain ⟨h0, h1, -⟩ := idx1 t
  unfold iblk1
  rw [View.read_apply]
  show V c main_v56 _ = V c main_v56 _
  congr 1
  funext a; apply Fin.ext
  match a with
  | ⟨0, _⟩ => show win1_0.index t 0 * 8000 + 1 * p.val = e.val; omega
  | ⟨1, _⟩ => show win1_0.index t 1 * 256 + 1 * l.val = l.val; omega

/-- The first weight matrix is read whole at every point. -/
theorem whole1_1 (c : Dev nD) (t : Fin cfg1.N) : (iblk1 (F := Ideal) V c 1 t : Vec Ideal S256x64 .bf16) = V c main_v57 := by
  obtain ⟨-, -, h0, h1, -⟩ := idx1 t
  unfold iblk1
  funext x
  rw [View.read_apply]
  show V c main_v57 _ = V c main_v57 x
  congr 1
  funext a; apply Fin.ext
  match a with
  | ⟨0, _⟩ => show win1_1.index t 0 * 256 + 1 * (x 0).val = (x 0).val; omega
  | ⟨1, _⟩ => show win1_1.index t 1 * 64 + 1 * (x 1).val = (x 1).val; omega

/-- The first bias is read whole at every point. -/
theorem whole1_2 (c : Dev nD) (t : Fin cfg1.N) : (iblk1 (F := Ideal) V c 2 t : Vec Ideal S64 .f32) = V c main_arg8 := by
  obtain ⟨-, -, -, -, h0, -⟩ := idx1 t
  unfold iblk1
  funext x
  rw [View.read_apply]
  show V c main_arg8 _ = V c main_arg8 x
  congr 1
  funext a; apply Fin.ext
  match a with
  | ⟨0, _⟩ => show win1_2.index t 0 * 64 + 1 * (x 0).val = (x 0).val; omega

/-- The second weight matrix is read whole at every point. -/
theorem whole1_3 (c : Dev nD) (t : Fin cfg1.N) : (iblk1 (F := Ideal) V c 3 t : Vec Ideal S64x128 .bf16) = V c main_v58 := by
  obtain ⟨-, -, -, -, -, h0, h1, -⟩ := idx1 t
  unfold iblk1
  funext x
  rw [View.read_apply]
  show V c main_v58 _ = V c main_v58 x
  congr 1
  funext a; apply Fin.ext
  match a with
  | ⟨0, _⟩ => show win1_3.index t 0 * 64 + 1 * (x 0).val = (x 0).val; omega
  | ⟨1, _⟩ => show win1_3.index t 1 * 128 + 1 * (x 1).val = (x 1).val; omega

/-- The second bias is read whole at every point. -/
theorem whole1_4 (c : Dev nD) (t : Fin cfg1.N) : (iblk1 (F := Ideal) V c 4 t : Vec Ideal S128 .f32) = V c main_arg10 := by
  obtain ⟨-, -, -, -, -, -, -, h0, -⟩ := idx1 t
  unfold iblk1
  funext x
  rw [View.read_apply]
  show V c main_arg10 _ = V c main_arg10 x
  congr 1
  funext a; apply Fin.ext
  match a with
  | ⟨0, _⟩ => show win1_4.index t 0 * 128 + 1 * (x 0).val = (x 0).val; omega

/-- What point `t` writes back is its block of `G1`: entry `(p, q)` of the computed block is the message of row `p`
    of the input block, which is row `t · 8000 + p` of the input, and it lands on row `t · 8000 + p`, column `q`. -/
theorem flushed1_eq (c : Dev nD) (t : Fin cfg1.N) :
    (dat1 (F := Ideal) V c).flushed 5 t = ((cfg1.win 5).blk t).view.read (Elt Ideal) (G1 V c) := by
  show (cfg1.win 5).cut (grid1.coords t) ((dat1 V c).after 5 t) = _
  rw [after1_5]
  unfold out1_5
  rw [View.canon_unit_zero hz2]
  simp only [View.ld_unit_zero (S := S8000x256) hz2, View.ld_unit_zero (S := S256x64) hz2, View.ld_unit_zero (S := S64) hz1,
    View.ld_unit_zero (S := S64x128) hz2, View.ld_unit_zero (S := S128) hz1]
  funext (j : S8000x128.Idx)
  obtain ⟨p, q, rfl⟩ : ∃ (p : Fin 8000) (q : Fin 128), j = ix2 p q := ⟨j 0, j 1, eq_ix2 j⟩
  show k1_pay1 (F := Ideal) (iblk1 V c 0 t) (iblk1 V c 1 t) (iblk1 V c 2 t) (iblk1 V c 3 t) (iblk1 V c 4 t) (ix2 p q)
    = G1 V c (((cfg1.win 5).blk t).view.emb (ix2 p q))
  refine (k1_pay1_apply _ _ _ _ _ p q).trans ?_
  rw [whole1_1, whole1_2, whole1_3, whole1_4]
  obtain ⟨-, -, -, -, -, -, -, -, h50, h51⟩ := idx1 t
  unfold G1
  have hq : (⟨(((cfg1.win 5).blk t).view.emb (ix2 p q) 1).val, (((cfg1.win 5).blk t).view.emb (ix2 p q) 1).isLt⟩ : Fin 128) = q :=
    Fin.ext (by show win1_5.index t 1 * 128 + 1 * q.val = q.val; omega)
  show mlpAt _ _ _ _ _ q = mlpAt _ _ _ _ _ _
  rw [hq]
  refine congrArg (fun z => mlpAt z _ _ _ _ q) (funext fun l => ?_)
  exact rows1 V c t p l _ (by show win1_5.index t 0 * 8000 + 1 * p.val = t.val * 8000 + p.val; omega)

/-- An index of the output array is in point `t`'s block iff each coordinate is in the block's range on its axis. -/
theorem mem_blk1 (t : Fin cfg1.N) (i : S800000x128.Idx) :
    i ∈ ((cfg1.win 5).blk t).view.set ↔ ∀ a : Fin 2, win1_5.index t a * S8000x128.size a ≤ (i a).val ∧ (i a).val < win1_5.index t a * S8000x128.size a + S8000x128.size a := by
  show i ∈ ((View.whole main_v59).slice (win1_5.rect t)).set ↔ _
  rw [View.set_slice_whole, Rect.mem_set_unit]
  exact Iff.rfl

/-- After the last point, entry `(e, q)` of the output array is entry `q` of the message of edge `e`'s input row: row `e`
    is in the block of point `e / 8000`. -/
theorem region1_out (c : Dev nD) (e : Fin 800000) (q : Fin 128) :
    (dat1 (F := Ideal) V c).arrAt 5 cfg1.N (ix2 e q)
      = mlpAt (fun l => V c main_v56 (ix2 e l)) (V c main_v57) (V c main_arg8) (V c main_v58) (V c main_arg10) q := by
  have ht : e.val / 8000 < cfg1.N := by rw [show cfg1.N = 100 from N_1]; omega
  refine (dat1 (F := Ideal) V c).arrAt_apply_of_mem 5 (G1 V c) (fun t _ => flushed1_eq V c t) cfg1.N ⟨e.val / 8000, ht⟩ (ix2 e q) ht (flush1_5 _) ?_
  rw [mem_blk1]
  obtain ⟨-, -, -, -, -, -, -, -, h50, h51⟩ := idx1 ⟨e.val / 8000, ht⟩
  intro a
  match a with
  | ⟨0, _⟩ =>
    show win1_5.index ⟨e.val / 8000, ht⟩ 0 * 8000 ≤ e.val ∧ e.val < win1_5.index ⟨e.val / 8000, ht⟩ 0 * 8000 + 8000
    rw [h50]; show e.val / 8000 * 8000 ≤ e.val ∧ e.val < e.val / 8000 * 8000 + 8000; omega
  | ⟨1, _⟩ =>
    show win1_5.index ⟨e.val / 8000, ht⟩ 1 * 128 ≤ q.val ∧ q.val < win1_5.index ⟨e.val / 8000, ht⟩ 1 * 128 + 128
    rw [h51]; omega

/-! ## The node region: 10 points, blocks of 5000 nodes -/

/-- The block indices at point `t`: the feature rows' and the output's first index is `t`, every other index is zero. -/
theorem idx2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 1) = 0
    ∧ win2_3.index t (0 : Fin 2) = 0 ∧ win2_3.index t (1 : Fin 2) = 0
    ∧ win2_4.index t (0 : Fin 1) = 0
    ∧ win2_5.index t (0 : Fin 2) = t.val ∧ win2_5.index t (1 : Fin 2) = 0 :=
  (by decide +kernel : ∀ t : Fin grid2.N, _)

/-- What the output column ends holding: at row `n` the dense stack's one output for node `n`'s feature row. -/
def G2 (c : Dev nD) : S50000x1.Idx → EReal := fun i =>
  denseAt (fun l => V c main_v69 (ix2 (⟨(i 0).val, (i 0).isLt⟩ : Fin 50000) l)) (V c main_v70) (V c main_arg12) (V c main_v71) (V c main_arg14)

/-- Row `p` of the block of feature rows that point `t` reads is row `t · 5000 + p` of the array. -/
theorem rows2 (c : Dev nD) (t : Fin cfg2.N) (p : Fin 5000) (l : Fin 128) (n : Fin 50000) (hn : n.val = t.val * 5000 + p.val) :
    (iblk2 (F := Ideal) V c 0 t : Vec Ideal S5000x128 .f32) (ix2 p l) = V c main_v69 (ix2 n l) := by
  obtain ⟨h0, h1, -⟩ := idx2 t
  unfold iblk2
  rw [View.read_apply]
  show V c main_v69 _ = V c main_v69 _
  congr 1
  funext a; apply Fin.ext
  match a with
  | ⟨0, _⟩ => show win2_0.index t 0 * 5000 + 1 * p.val = n.val; omega
  | ⟨1, _⟩ => show win2_0.index t 1 * 128 + 1 * l.val = l.val; omega

/-- The first weight matrix is read whole at every point. -/
theorem whole2_1 (c : Dev nD) (t : Fin cfg2.N) : (iblk2 (F := Ideal) V c 1 t : Vec Ideal S128x64 .bf16) = V c main_v70 := by
  obtain ⟨-, -, h0, h1, -⟩ := idx2 t
  unfold iblk2
  funext x
  rw [View.read_apply]
  show V c main_v70 _ = V c main_v70 x
  congr 1
  funext a; apply Fin.ext
  match a with
  | ⟨0, _⟩ => show win2_1.index t 0 * 128 + 1 * (x 0).val = (x 0).val; omega
  | ⟨1, _⟩ => show win2_1.index t 1 * 64 + 1 * (x 1).val = (x 1).val; omega

/-- The first bias is read whole at every point. -/
theorem whole2_2 (c : Dev nD) (t : Fin cfg2.N) : (iblk2 (F := Ideal) V c 2 t : Vec Ideal S64 .f32) = V c main_arg12 := by
  obtain ⟨-, -, -, -, h0, -⟩ := idx2 t
  unfold iblk2
  funext x
  rw [View.read_apply]
  show V c main_arg12 _ = V c main_arg12 x
  congr 1
  funext a; apply Fin.ext
  match a with
  | ⟨0, _⟩ => show win2_2.index t 0 * 64 + 1 * (x 0).val = (x 0).val; omega

/-- The second weight matrix (one column) is read whole at every point. -/
theorem whole2_3 (c : Dev nD) (t : Fin cfg2.N) : (iblk2 (F := Ideal) V c 3 t : Vec Ideal S64x1 .bf16) = V c main_v71 := by
  obtain ⟨-, -, -, -, -, h0, h1, -⟩ := idx2 t
  unfold iblk2
  funext x
  rw [View.read_apply]
  show V c main_v71 _ = V c main_v71 x
  congr 1
  funext a; apply Fin.ext
  match a with
  | ⟨0, _⟩ => show win2_3.index t 0 * 64 + 1 * (x 0).val = (x 0).val; omega
  | ⟨1, _⟩ => show win2_3.index t 1 * 1 + 1 * (x 1).val = (x 1).val; omega

/-- The second bias (one number) is read whole at every point. -/
theorem whole2_4 (c : Dev nD) (t : Fin cfg2.N) : (iblk2 (F := Ideal) V c 4 t : Vec Ideal S1 .f32) = V c main_arg14 := by
  obtain ⟨-, -, -, -, -, -, -, h0, -⟩ := idx2 t
  unfold iblk2
  funext x
  rw [View.read_apply]
  show V c main_arg14 _ = V c main_arg14 x
  congr 1
  funext a; apply Fin.ext
  match a with
  | ⟨0, _⟩ => show win2_4.index t 0 * 1 + 1 * (x 0).val = (x 0).val; omega

/-- What point `t` writes back is its block of `G2`: row `p` of the computed column is the dense stack of row `p` of
    the feature block, which is row `t · 5000 + p` of the features, and it lands on row `t · 5000 + p`. -/
theorem flushed2_eq (c : Dev nD) (t : Fin cfg2.N) :
    (dat2 (F := Ideal) V c).flushed 5 t = ((cfg2.win 5).blk t).view.read (Elt Ideal) (G2 V c) := by
  show (cfg2.win 5).cut (grid2.coords t) ((dat2 V c).after 5 t) = _
  rw [after2_5]
  unfold out2_5
  rw [View.canon_unit_zero hz2]
  simp only [View.ld_unit_zero (S := S5000x128) hz2, View.ld_unit_zero (S := S128x64) hz2, View.ld_unit_zero (S := S64) hz1,
    View.ld_unit_zero (S := S64x1) hz2, View.ld_unit_zero (S := S1) hz1]
  funext (j : S5000x1.Idx)
  obtain ⟨p, q, rfl⟩ : ∃ (p : Fin 5000) (q : Fin 1), j = ix2 p q := ⟨j 0, j 1, eq_ix2 j⟩
  obtain rfl : q = 0 := Subsingleton.elim _ _
  show k2_pay1 (F := Ideal) (iblk2 V c 0 t) (iblk2 V c 1 t) (iblk2 V c 2 t) (iblk2 V c 3 t) (iblk2 V c 4 t) (ix2 p (0 : Fin 1))
    = G2 V c (((cfg2.win 5).blk t).view.emb (ix2 p (0 : Fin 1)))
  refine (k2_pay1_apply _ _ _ _ _ p).trans ?_
  rw [whole2_1, whole2_2, whole2_3, whole2_4]
  obtain ⟨-, -, -, -, -, -, -, -, h50, h51⟩ := idx2 t
  unfold G2
  refine congrArg (fun z => denseAt z _ _ _ _) (funext fun l => ?_)
  exact rows2 V c t p l _ (by show win2_5.index t 0 * 5000 + 1 * p.val = t.val * 5000 + p.val; omega)

/-- An index of the output column is in point `t`'s block iff each coordinate is in the block's range on its axis. -/
theorem mem_blk2 (t : Fin cfg2.N) (i : S50000x1.Idx) :
    i ∈ ((cfg2.win 5).blk t).view.set ↔ ∀ a : Fin 2, win2_5.index t a * S5000x1.size a ≤ (i a).val ∧ (i a).val < win2_5.index t a * S5000x1.size a + S5000x1.size a := by
  show i ∈ ((View.whole main_v72).slice (win2_5.rect t)).set ↔ _
  rw [View.set_slice_whole, Rect.mem_set_unit]
  exact Iff.rfl

/-- After the last point, row `n` of the output column is the dense stack's output for node `n`'s feature row: row `n` is in
    the block of point `n / 5000`. -/
theorem region2_out (c : Dev nD) (n : Fin 50000) :
    (dat2 (F := Ideal) V c).arrAt 5 cfg2.N (ix2 n (0 : Fin 1))
      = denseAt (fun l => V c main_v69 (ix2 n l)) (V c main_v70) (V c main_arg12) (V c main_v71) (V c main_arg14) := by
  have ht : n.val / 5000 < cfg2.N := by rw [show cfg2.N = 10 from N_2]; omega
  refine (dat2 (F := Ideal) V c).arrAt_apply_of_mem 5 (G2 V c) (fun t _ => flushed2_eq V c t) cfg2.N ⟨n.val / 5000, ht⟩ (ix2 n (0 : Fin 1)) ht (flush2_5 _) ?_
  rw [mem_blk2]
  obtain ⟨-, -, -, -, -, -, -, -, h50, h51⟩ := idx2 ⟨n.val / 5000, ht⟩
  intro a
  match a with
  | ⟨0, _⟩ =>
    show win2_5.index ⟨n.val / 5000, ht⟩ 0 * 5000 ≤ n.val ∧ n.val < win2_5.index ⟨n.val / 5000, ht⟩ 0 * 5000 + 5000
    rw [h50]; show n.val / 5000 * 5000 ≤ n.val ∧ n.val < n.val / 5000 * 5000 + 5000; omega
  | ⟨1, _⟩ =>
    show win2_5.index ⟨n.val / 5000, ht⟩ 1 * 1 ≤ 0 ∧ 0 < win2_5.index ⟨n.val / 5000, ht⟩ 1 * 1 + 1
    rw [h51]; omega

end Cert.KernelIdeal.Blocks

end
-- ==== Proof.KV1.lean ====
/-
  The first region's output array, and what passes it by. Block by block the region's body leaves the two dense layers
  of the block's rows; row by row that is the host's own stack of operations on the whole array of input rows, so
  the array is the first round's messages. The counts' column and the argument arrays are not the region's.
-/
import proofs.«424724_j43928925503631_1_alg».proof.Proof.KV0
import proofs.«424724_j43928925503631_1_alg».proof.Proof.HostRows
import proofs.«424724_j43928925503631_1_alg».proof.Proof.Blocks

set_option maxRecDepth 16384

noncomputable section

namespace Cert.KernelIdeal.KV

open Idealize.ShloMosaic Idealize.ShloMosaic.TcCoe Idealize.ShloMosaic.ValueIdx Idealize.SL.Sem Idealize.ShloMosaic.StableHlo
open Cert.KernelIdeal Cert.KernelIdeal.Gen Cert.Spec

section Ideal

variable (m : (ℓ : Loc nD τ sig) → Buf (Elt Ideal) ℓ) (ρ : Dev nD → PrngReg)

/-- Narrowing a float format is the identity over the extended reals. -/
theorem truncf_id {s : Shape} (z : FVec Ideal s .f32) (h : FTy.bf16.bits < FTy.f32.bits) : (truncf .bf16 z h : FVec Ideal s .f32) = z := rfl

/-- After the first region its output array holds every edge's message of the first round: block by block the
    body's two dense layers on the block's rows, which row by row is the host's own stack of operations. -/
theorem W4_v30 (c : Dev nD) :
    (W4 m ρ c (Proc.devRef .tc main_v30) : FVec Ideal S800000x128 .f32)
      = edgeMLP (F := Ideal) (msgIn (F := Ideal) (m ((c : Thread nD τ).loc main_arg0)) (m ((c : Thread nD τ).loc main_arg1)) (m ((c : Thread nD τ).loc main_arg2))) (m ((c : Thread nD τ).loc main_arg3)) (m ((c : Thread nD τ).loc main_arg4)) (m ((c : Thread nD τ).loc main_arg5)) (m ((c : Thread nD τ).loc main_arg6)) := by
  funext i
  obtain ⟨e, q, rfl⟩ : ∃ (e : Fin 800000) (q : Fin 128), i = ix2 e q := ⟨i 0, i 1, eq_ix2 i⟩
  have h5 : W4 m ρ c (Proc.devRef .tc main_v30) = (dat0 (V3 m ρ) c).arrAt 5 cfg0.N := W4_arr m ρ c 5
  have e27 : (V3 m ρ c main_v27 : FVec Ideal S800000x256 .f32) = msgIn (F := Ideal) (m ((c : Thread nD τ).loc main_arg0)) (m ((c : Thread nD τ).loc main_arg1)) (m ((c : Thread nD τ).loc main_arg2)) :=
    (W3_v27 m ρ c).trans (truncf_id _ _)
  have e28 : (V3 m ρ c main_v28 : FVec Ideal S256x64 .f32) = (m ((c : Thread nD τ).loc main_arg3)) := (W3_v28 m ρ c).trans (truncf_id _ _)
  have e29 : (V3 m ρ c main_v29 : FVec Ideal S64x128 .f32) = (m ((c : Thread nD τ).loc main_arg5)) := (W3_v29 m ρ c).trans (truncf_id _ _)
  have e4 : V3 m ρ c main_arg4 = (m ((c : Thread nD τ).loc main_arg4)) := (W3_arg m ρ c).2.2.1
  have e6 : V3 m ρ c main_arg6 = (m ((c : Thread nD τ).loc main_arg6)) := (W3_arg m ρ c).2.2.2.1
  refine (congrFun h5 (ix2 e q)).trans ?_
  refine (Cert.KernelIdeal.Blocks.region0_out (V3 m ρ) c e q).trans ?_
  rw [e27, e28, e29, e4, e6]
  exact (edgeMLP_apply _ _ _ _ _ e q).symm

end Ideal

section AnyF
variable {F : FTy → Type} [FloatOps F]
variable (m : (ℓ : Loc nD τ sig) → Buf (Elt F) ℓ) (ρ : Dev nD → PrngReg)

/-- The first region writes only its own output array: the counts and the arguments pass. -/
theorem W4_keep (c : Dev nD) :
    W4 m ρ c (Proc.devRef .tc main_v11) = Cert.KSpec.cntK (m ((c : Thread nD τ).loc main_arg2))
    ∧ W4 m ρ c (Proc.devRef .tc main_arg1) = m ((c : Thread nD τ).loc main_arg1)
    ∧ W4 m ρ c (Proc.devRef .tc main_arg2) = m ((c : Thread nD τ).loc main_arg2)
    ∧ W4 m ρ c (Proc.devRef .tc main_arg7) = m ((c : Thread nD τ).loc main_arg7)
    ∧ W4 m ρ c (Proc.devRef .tc main_arg8) = m ((c : Thread nD τ).loc main_arg8)
    ∧ W4 m ρ c (Proc.devRef .tc main_arg9) = m ((c : Thread nD τ).loc main_arg9)
    ∧ W4 m ρ c (Proc.devRef .tc main_arg10) = m ((c : Thread nD τ).loc main_arg10)
    ∧ W4 m ρ c (Proc.devRef .tc main_arg11) = m ((c : Thread nD τ).loc main_arg11)
    ∧ W4 m ρ c (Proc.devRef .tc main_arg12) = m ((c : Thread nD τ).loc main_arg12)
    ∧ W4 m ρ c (Proc.devRef .tc main_arg13) = m ((c : Thread nD τ).loc main_arg13)
    ∧ W4 m ρ c (Proc.devRef .tc main_arg14) = m ((c : Thread nD τ).loc main_arg14) :=
  ⟨(W4_of_ne m ρ c main_v11 (by decide)).trans (W3_v11 m ρ c),
   (W4_of_ne m ρ c main_arg1 (by decide)).trans (W3_arg m ρ c).1,
   (W4_of_ne m ρ c main_arg2 (by decide)).trans (W3_arg m ρ c).2.1,
   (W4_of_ne m ρ c main_arg7 (by decide)).trans (W3_arg m ρ c).2.2.2.2.1,
   (W4_of_ne m ρ c main_arg8 (by decide)).trans (W3_arg m ρ c).2.2.2.2.2.1,
   (W4_of_ne m ρ c main_arg9 (by decide)).trans (W3_arg m ρ c).2.2.2.2.2.2.1,
   (W4_of_ne m ρ c main_arg10 (by decide)).trans (W3_arg m ρ c).2.2.2.2.2.2.2.1,
   (W4_of_ne m ρ c main_arg11 (by decide)).trans (W3_arg m ρ c).2.2.2.2.2.2.2.2.1,
   (W4_of_ne m ρ c main_arg12 (by decide)).trans (W3_arg m ρ c).2.2.2.2.2.2.2.2.2.1,
   (W4_of_ne m ρ c main_arg13 (by decide)).trans (W3_arg m ρ c).2.2.2.2.2.2.2.2.2.2.1,
   (W4_of_ne m ρ c main_arg14 (by decide)).trans (W3_arg m ρ c).2.2.2.2.2.2.2.2.2.2.2⟩

end AnyF

end Cert.KernelIdeal.KV

end
-- ==== Proof.KV2.lean ====
/-
  From the first region's exit to the second region's entry: the host operations in between, read as functions of
  the buffers they start from (any contents `X`). The first round's messages are added up per receiver and divided
  by the counts; the means are gathered at every edge's receiver and sender and joined into the second round's input
  rows; the second round's weights are narrowed; everything else passes.
-/
import proofs.«424724_j43928925503631_1_alg».proof.Proof.KV0

set_option maxRecDepth 16384

noncomputable section

namespace Cert.KernelIdeal.KV

open Idealize.ShloMosaic Idealize.ShloMosaic.TcCoe Idealize.ShloMosaic.ValueIdx Idealize.SL.Sem Idealize.ShloMosaic.StableHlo
open Cert.KernelIdeal Cert.KernelIdeal.Gen Cert.Spec

variable {F : FTy → Type} [FloatOps F]

/-- The buffers at the second region's entry, from the contents `X` at the first region's exit. -/
abbrev entry1 (X : Valuation τ sig (Elt F)) : Valuation τ sig (Elt F) :=
  StableHlo.after hostOps1_2 (StableHlo.after hostOps1_1 (StableHlo.after hostOps1 X))

variable (X : Valuation τ sig (Elt F))

set_option maxHeartbeats 2000000 in
/-- The second round's input rows: the first round's means gathered at receiver and sender, narrowed. -/
theorem entry1_v56 :
    (entry1 X (Proc.devRef .tc main_v56) : FVec F S800000x256 .bf16)
      = truncf .bf16 (msgIn (segMean (X (Proc.devRef .tc main_v30)) (X (Proc.devRef .tc main_arg2)) (X (Proc.devRef .tc main_v11)))
          (X (Proc.devRef .tc main_arg1)) (X (Proc.devRef .tc main_arg2))) bitsLt_bf16_f32 := by
  simp only [entry1, hostOps1, hostOps1_1, hostOps1_2]
  after_results_simp
  rfl

set_option maxHeartbeats 2000000 in
theorem entry1_v57 :
    (entry1 X (Proc.devRef .tc main_v57) : FVec F S256x64 .bf16) = truncf .bf16 (X (Proc.devRef .tc main_arg7)) bitsLt_bf16_f32 := by
  simp only [entry1, hostOps1, hostOps1_1, hostOps1_2]
  after_results_simp

set_option maxHeartbeats 2000000 in
theorem entry1_v58 :
    (entry1 X (Proc.devRef .tc main_v58) : FVec F S64x128 .bf16) = truncf .bf16 (X (Proc.devRef .tc main_arg9)) bitsLt_bf16_f32 := by
  simp only [entry1, hostOps1, hostOps1_1, hostOps1_2]
  after_results_simp

set_option maxHeartbeats 2000000 in
/-- No host operation between the two regions writes these buffers. -/
theorem entry1_keep :
    entry1 X (Proc.devRef .tc main_arg8) = X (Proc.devRef .tc main_arg8)
    ∧ entry1 X (Proc.devRef .tc main_arg10) = X (Proc.devRef .tc main_arg10)
    ∧ entry1 X (Proc.devRef .tc main_v11) = X (Proc.devRef .tc main_v11)
    ∧ entry1 X (Proc.devRef .tc main_arg2) = X (Proc.devRef .tc main_arg2)
    ∧ entry1 X (Proc.devRef .tc main_arg11) = X (Proc.devRef .tc main_arg11)
    ∧ entry1 X (Proc.devRef .tc main_arg12) = X (Proc.devRef .tc main_arg12)
    ∧ entry1 X (Proc.devRef .tc main_arg13) = X (Proc.devRef .tc main_arg13)
    ∧ entry1 X (Proc.devRef .tc main_arg14) = X (Proc.devRef .tc main_arg14) := by
  refine ⟨?_, ?_, ?_, ?_, ?_, ?_, ?_, ?_⟩ <;> (simp only [entry1, hostOps1, hostOps1_1, hostOps1_2]; after_results_simp)

end Cert.KernelIdeal.KV

end
-- ==== Proof.KV3.lean ====
/-
  The second region's output array. Its input rows are the first round's means gathered at every edge's receiver and
  sender; block by block the body leaves the two dense layers of those rows with the second round's weights: the
  second round's messages. The counts' column and the remaining arguments pass both the host operations and the region.
-/
import proofs.«424724_j43928925503631_1_alg».proof.Proof.KV1
import proofs.«424724_j43928925503631_1_alg».proof.Proof.KV2

set_option maxRecDepth 16384

noncomputable section

namespace Cert.KernelIdeal.KV

open Idealize.ShloMosaic Idealize.ShloMosaic.TcCoe Idealize.ShloMosaic.ValueIdx Idealize.SL.Sem Idealize.ShloMosaic.StableHlo
open Cert.KernelIdeal Cert.KernelIdeal.Gen Cert.Spec

variable (m : (ℓ : Loc nD τ sig) → Buf (Elt Ideal) ℓ) (ρ : Dev nD → PrngReg)

/-- At the second region's entry its windows hold the second round's input rows, weights and biases. -/
theorem V7_facts (c : Dev nD) :
    (V7 m ρ c main_v56 : FVec Ideal S800000x256 .f32) = msgIn (F := Ideal) (layer (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (Cert.KSpec.cntK (F := Ideal) (m ((c : Thread nD τ).loc main_arg2)))) (m ((c : Thread nD τ).loc main_arg1)) (m ((c : Thread nD τ).loc main_arg2))
    ∧ (V7 m ρ c main_v57 : FVec Ideal S256x64 .f32) = (m ((c : Thread nD τ).loc main_arg7))
    ∧ (V7 m ρ c main_v58 : FVec Ideal S64x128 .f32) = (m ((c : Thread nD τ).loc main_arg9))
    ∧ V7 m ρ c main_arg8 = (m ((c : Thread nD τ).loc main_arg8))
    ∧ V7 m ρ c main_arg10 = (m ((c : Thread nD τ).loc main_arg10)) := by
  have k := W4_keep m ρ c
  refine ⟨?_, ?_, ?_, ?_, ?_⟩
  · refine ((entry1_v56 (W4 m ρ c)).trans (truncf_id _ _)).trans ?_
    rw [W4_v30 m ρ c, k.1, k.2.1, k.2.2.1]
    rfl
  · refine ((entry1_v57 (W4 m ρ c)).trans (truncf_id _ _)).trans ?_
    exact k.2.2.2.1
  · refine ((entry1_v58 (W4 m ρ c)).trans (truncf_id _ _)).trans ?_
    exact k.2.2.2.2.2.1
  · exact (entry1_keep (W4 m ρ c)).1.trans k.2.2.2.2.1
  · exact (entry1_keep (W4 m ρ c)).2.1.trans k.2.2.2.2.2.2.1

/-- After the second region its output array holds every edge's message of the second round. -/
theorem W8_v59 (c : Dev nD) :
    (W8 m ρ c (Proc.devRef .tc main_v59) : FVec Ideal S800000x128 .f32)
      = edgeMLP (F := Ideal) (msgIn (F := Ideal) (layer (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (Cert.KSpec.cntK (F := Ideal) (m ((c : Thread nD τ).loc main_arg2)))) (m ((c : Thread nD τ).loc main_arg1)) (m ((c : Thread nD τ).loc main_arg2))) (m ((c : Thread nD τ).loc main_arg7)) (m ((c : Thread nD τ).loc main_arg8)) (m ((c : Thread nD τ).loc main_arg9)) (m ((c : Thread nD τ).loc main_arg10)) := by
  funext i
  obtain ⟨e, q, rfl⟩ : ∃ (e : Fin 800000) (q : Fin 128), i = ix2 e q := ⟨i 0, i 1, eq_ix2 i⟩
  have h5 : W8 m ρ c (Proc.devRef .tc main_v59) = (dat1 (V7 m ρ) c).arrAt 5 cfg1.N := W8_arr m ρ c 5
  obtain ⟨e56, e57, e58, e8, e10⟩ := V7_facts m ρ c
  refine (congrFun h5 (ix2 e q)).trans ?_
  refine (Cert.KernelIdeal.Blocks.region1_out (V7 m ρ) c e q).trans ?_
  rw [e56, e57, e58, e8, e10]
  exact (edgeMLP_apply _ _ _ _ _ e q).symm

/-- The second region writes only its own output array, and the host operations before it none of these. -/
theorem W8_keep (c : Dev nD) :
    W8 m ρ c (Proc.devRef .tc main_v11) = Cert.KSpec.cntK (F := Ideal) (m ((c : Thread nD τ).loc main_arg2))
    ∧ W8 m ρ c (Proc.devRef .tc main_arg2) = (m ((c : Thread nD τ).loc main_arg2))
    ∧ W8 m ρ c (Proc.devRef .tc main_arg11) = (m ((c : Thread nD τ).loc main_arg11))
    ∧ W8 m ρ c (Proc.devRef .tc main_arg12) = (m ((c : Thread nD τ).loc main_arg12))
    ∧ W8 m ρ c (Proc.devRef .tc main_arg13) = (m ((c : Thread nD τ).loc main_arg13))
    ∧ W8 m ρ c (Proc.devRef .tc main_arg14) = (m ((c : Thread nD τ).loc main_arg14)) := by
  have k := W4_keep m ρ c
  have j := entry1_keep (W4 m ρ c)
  exact ⟨((W8_of_ne m ρ c main_v11 (by decide)).trans j.2.2.1).trans k.1,
    ((W8_of_ne m ρ c main_arg2 (by decide)).trans j.2.2.2.1).trans k.2.2.1,
    ((W8_of_ne m ρ c main_arg11 (by decide)).trans j.2.2.2.2.1).trans k.2.2.2.2.2.2.2.1,
    ((W8_of_ne m ρ c main_arg12 (by decide)).trans j.2.2.2.2.2.1).trans k.2.2.2.2.2.2.2.2.1,
    ((W8_of_ne m ρ c main_arg13 (by decide)).trans j.2.2.2.2.2.2.1).trans k.2.2.2.2.2.2.2.2.2.1,
    ((W8_of_ne m ρ c main_arg14 (by decide)).trans j.2.2.2.2.2.2.2).trans k.2.2.2.2.2.2.2.2.2.2⟩

end Cert.KernelIdeal.KV

end
-- ==== Proof.KV4.lean ====
/-
  From the second region's exit to the third region's entry: the second round's messages are added up per receiver
  and divided by the counts (the same counts as in the first round), the tail's weights are narrowed, the biases pass.
-/
import proofs.«424724_j43928925503631_1_alg».proof.Proof.KV0

set_option maxRecDepth 16384

noncomputable section

namespace Cert.KernelIdeal.KV

open Idealize.ShloMosaic Idealize.ShloMosaic.TcCoe Idealize.ShloMosaic.ValueIdx Idealize.SL.Sem Idealize.ShloMosaic.StableHlo
open Cert.KernelIdeal Cert.KernelIdeal.Gen Cert.Spec

variable {F : FTy → Type} [FloatOps F]

/-- The buffers at the third region's entry, from the contents `X` at the second region's exit. -/
abbrev entry2 (X : Valuation τ sig (Elt F)) : Valuation τ sig (Elt F) :=
  StableHlo.after hostOps2_2 (StableHlo.after hostOps2_1 (StableHlo.after hostOps2 X))

variable (X : Valuation τ sig (Elt F))

set_option maxHeartbeats 2000000 in
/-- The node features the tail reads: the second round's means. -/
theorem entry2_v69 :
    (entry2 X (Proc.devRef .tc main_v69) : FVec F S50000x128 .f32)
      = segMean (X (Proc.devRef .tc main_v59)) (X (Proc.devRef .tc main_arg2)) (X (Proc.devRef .tc main_v11)) := by
  simp only [entry2, hostOps2, hostOps2_1, hostOps2_2]
  after_results_simp
  rfl

set_option maxHeartbeats 2000000 in
theorem entry2_v70 :
    (entry2 X (Proc.devRef .tc main_v70) : FVec F S128x64 .bf16) = truncf .bf16 (X (Proc.devRef .tc main_arg11)) bitsLt_bf16_f32 := by
  simp only [entry2, hostOps2, hostOps2_1, hostOps2_2]
  after_results_simp

set_option maxHeartbeats 2000000 in
theorem entry2_v71 :
    (entry2 X (Proc.devRef .tc main_v71) : FVec F S64x1 .bf16) = truncf .bf16 (X (Proc.devRef .tc main_arg13)) bitsLt_bf16_f32 := by
  simp only [entry2, hostOps2, hostOps2_1, hostOps2_2]
  after_results_simp

set_option maxHeartbeats 2000000 in
/-- The tail's biases are written by no host operation. -/
theorem entry2_keep :
    entry2 X (Proc.devRef .tc main_arg12) = X (Proc.devRef .tc main_arg12)
    ∧ entry2 X (Proc.devRef .tc main_arg14) = X (Proc.devRef .tc main_arg14) := by
  refine ⟨?_, ?_⟩ <;> (simp only [entry2, hostOps2, hostOps2_1, hostOps2_2]; after_results_simp)

end Cert.KernelIdeal.KV

end
-- ==== Proof.KV5.lean ====
/-
  The kernel's result array. The third region reads the second round's means, node by node in blocks of rows, and
  leaves the dense tail of each row; row by row that is the host's own tail on the whole array. So the result is the
  model of the specification at the counts the kernel's program makes.
-/
import proofs.«424724_j43928925503631_1_alg».proof.Proof.KV3
import proofs.«424724_j43928925503631_1_alg».proof.Proof.KV4

set_option maxRecDepth 16384

noncomputable section

namespace Cert.KernelIdeal.KV

open Idealize.ShloMosaic Idealize.ShloMosaic.TcCoe Idealize.ShloMosaic.ValueIdx Idealize.SL.Sem Idealize.ShloMosaic.StableHlo
open Cert.KernelIdeal Cert.KernelIdeal.Gen Cert.Spec

variable (m : (ℓ : Loc nD τ sig) → Buf (Elt Ideal) ℓ) (ρ : Dev nD → PrngReg)

/-- At the third region's entry its windows hold the second round's means, the tail's weights and biases. -/
theorem V11_facts (c : Dev nD) :
    (V11 m ρ c main_v69 : FVec Ideal S50000x128 .f32) = (layer (F := Ideal) (layer (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (Cert.KSpec.cntK (F := Ideal) (m ((c : Thread nD τ).loc main_arg2)))) (m ((c : Thread nD τ).loc main_arg1)) (m ((c : Thread nD τ).loc main_arg2)) (m ((c : Thread nD τ).loc main_arg7)) (m ((c : Thread nD τ).loc main_arg8)) (m ((c : Thread nD τ).loc main_arg9)) (m ((c : Thread nD τ).loc main_arg10)) (Cert.KSpec.cntK (F := Ideal) (m ((c : Thread nD τ).loc main_arg2))))
    ∧ (V11 m ρ c main_v70 : FVec Ideal S128x64 .f32) = (m ((c : Thread nD τ).loc main_arg11))
    ∧ (V11 m ρ c main_v71 : FVec Ideal S64x1 .f32) = (m ((c : Thread nD τ).loc main_arg13))
    ∧ V11 m ρ c main_arg12 = (m ((c : Thread nD τ).loc main_arg12))
    ∧ V11 m ρ c main_arg14 = (m ((c : Thread nD τ).loc main_arg14)) := by
  have k := W8_keep m ρ c
  refine ⟨?_, ?_, ?_, ?_, ?_⟩
  · refine (entry2_v69 (W8 m ρ c)).trans ?_
    rw [W8_v59 m ρ c, k.1, k.2.1]
    rfl
  · refine ((entry2_v70 (W8 m ρ c)).trans (truncf_id _ _)).trans ?_
    exact k.2.2.1
  · refine ((entry2_v71 (W8 m ρ c)).trans (truncf_id _ _)).trans ?_
    exact k.2.2.2.2.1
  · exact (entry2_keep (W8 m ρ c)).1.trans k.2.2.2.1
  · exact (entry2_keep (W8 m ρ c)).2.trans k.2.2.2.2.2

/-- THE KERNEL'S RESULT: the model at the kernel's counts, as a function of the fifteen argument arrays. -/
theorem W12_v72 (c : Dev nD) :
    (W12 m ρ c (Proc.devRef .tc main_v72) : FVec Ideal S50000x1 .f32)
      = model (F := Ideal) (Cert.KSpec.cntK (F := Ideal) (m ((c : Thread nD τ).loc main_arg2)))
          (m ((c : Thread nD τ).loc main_arg0))
          (m ((c : Thread nD τ).loc main_arg1))
          (m ((c : Thread nD τ).loc main_arg2))
          (m ((c : Thread nD τ).loc main_arg3))
          (m ((c : Thread nD τ).loc main_arg4))
          (m ((c : Thread nD τ).loc main_arg5))
          (m ((c : Thread nD τ).loc main_arg6))
          (m ((c : Thread nD τ).loc main_arg7))
          (m ((c : Thread nD τ).loc main_arg8))
          (m ((c : Thread nD τ).loc main_arg9))
          (m ((c : Thread nD τ).loc main_arg10))
          (m ((c : Thread nD τ).loc main_arg11))
          (m ((c : Thread nD τ).loc main_arg12))
          (m ((c : Thread nD τ).loc main_arg13))
          (m ((c : Thread nD τ).loc main_arg14)) := by
  funext i
  obtain ⟨n, z, rfl⟩ : ∃ (n : Fin 50000) (z : Fin 1), i = ix2 n z := ⟨i 0, i 1, eq_ix2 i⟩
  obtain rfl : z = 0 := Subsingleton.elim _ _
  have h5 : W12 m ρ c (Proc.devRef .tc main_v72) = (dat2 (V11 m ρ) c).arrAt 5 cfg2.N := W12_arr m ρ c 5
  obtain ⟨e69, e70, e71, e12, e14⟩ := V11_facts m ρ c
  refine (congrFun h5 (ix2 n (0 : Fin 1))).trans ?_
  refine (Cert.KernelIdeal.Blocks.region2_out (V11 m ρ) c n).trans ?_
  rw [e69, e70, e71, e12, e14]
  exact (tail_apply _ _ _ _ _ n).symm

end Cert.KernelIdeal.KV

end
-- ==== Proof.LibRowScatter.lean ====
/-
  A row scatter-add read at an index, over the extended reals.

  jax's `segment_sum(upd, ids, N)` of updates `upd : [n, C]` lowers to a `stablehlo.scatter` with an `add` body whose scatter
  indices are the column `[n, 1]` of row numbers: operand axis 0 is the one inserted window axis and the one scattered axis,
  update axis 1 is the one window axis and carries the whole row. Update element `(e, p)` lands on operand element `(r, p)`
  exactly when the `e`-th row number, read as a signed integer and NOT clamped, is `r`; a row number outside `[0, N)` drops
  its row. Result element `(r, q)` is then the operand's plus the sum of `upd (e, q)` over the rows `e` numbered `r`.
-/
import Mathlib.Algebra.BigOperators.Group.Finset.Defs
import Idealize.ShloMosaic.Lib.ValueIdx
import Idealize.ShloMosaic.PureOps.Ideal

noncomputable section

namespace Idealize.ShloMosaic.RowScatter

open Idealize.ShloMosaic Idealize.ShloMosaic.ValueIdx

/-- The dimension numbers of a row scatter into a table `[N, C]` of updates `[n, C]` by a column `[n, 1]` of row numbers;
    their conditions `wf` are decided on a program's literal shapes. -/
abbrev rowDims (N C n : Nat)
    (wf : ScatterDims.WF ⟨2, ![N, C]⟩ ⟨2, ![n, 1]⟩ ⟨2, ![n, C]⟩ [1] [0] [0] 1) :
    ScatterDims ⟨2, ![N, C]⟩ ⟨2, ![n, 1]⟩ ⟨2, ![n, C]⟩ where
  updateWindowDims := [1]
  insertedWindowDims := [0]
  scatterDimsToOperandDims := [0]
  indexVectorDim := 1
  wf := wf

/-- On the row axis the window starts at the update row's number, read signed off the column of row numbers: the axis is the
    one the map names, and the scatter-indices index read is the update's row with `0` on the index vector's axis. -/
theorem start_row {N C n w : Nat}
    (wf : ScatterDims.WF ⟨2, ![N, C]⟩ ⟨2, ![n, 1]⟩ ⟨2, ![n, C]⟩ [1] [0] [0] 1)
    (idx : IVec ⟨2, ![n, 1]⟩ w) (e : Fin n) (p : Fin C) :
    (rowDims N C n wf).start (ix2 e p) idx 0 = (idx (ix2 e (0 : Fin 1))).toInt := by
  unfold ScatterDims.start
  rw [dif_pos (show (0 : Fin 2) ∈ (rowDims N C n wf).scatterDimsToOperandDims from List.mem_singleton.mpr rfl)]
  have hsi : (rowDims N C n wf).siIdx (ix2 e p) ⟨List.idxOf (0 : Fin 2) (rowDims N C n wf).scatterDimsToOperandDims,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]

/-- On the column axis the window starts at zero: the map does not name that axis. -/
theorem start_col {N C n w : Nat}
    (wf : ScatterDims.WF ⟨2, ![N, C]⟩ ⟨2, ![n, 1]⟩ ⟨2, ![n, C]⟩ [1] [0] [0] 1)
    (idx : IVec ⟨2, ![n, 1]⟩ w) (e : Fin n) (p : Fin C) :
    (rowDims N C n wf).start (ix2 e p) idx 1 = 0 := by
  unfold ScatterDims.start
  have h1 : ¬ (1 : Fin 2) ∈ ([0] : List (Fin 2)) := by decide
  rw [dif_neg (show ¬ (1 : Fin 2) ∈ (rowDims N C n wf).scatterDimsToOperandDims from h1)]

/-- The row axis is the inserted window axis: its window coordinate is zero. -/
theorem window_row {N C n : Nat}
    (wf : ScatterDims.WF ⟨2, ![N, C]⟩ ⟨2, ![n, 1]⟩ ⟨2, ![n, C]⟩ [1] [0] [0] 1) (e : Fin n) (p : Fin C) :
    (rowDims N C n wf).window (ix2 e p) 0 = 0 := by
  unfold ScatterDims.window
  have h0 : ¬ (0 : Fin 2) ∈ ([1] : List (Fin 2)) := by decide
  rw [dif_neg (show ¬ (0 : Fin 2) ∈ (rowDims N C n wf).sKept from h0)]

/-- The column axis is the one kept operand axis: its window coordinate is the update's own column. -/
theorem window_col {N C n : Nat}
    (wf : ScatterDims.WF ⟨2, ![N, C]⟩ ⟨2, ![n, 1]⟩ ⟨2, ![n, C]⟩ [1] [0] [0] 1) (e : Fin n) (p : Fin C) :
    (rowDims N C n wf).window (ix2 e p) 1 = p.val := by
  unfold ScatterDims.window
  rw [dif_pos (show (1 : Fin 2) ∈ (rowDims N C n wf).sKept from List.mem_singleton.mpr rfl)]
  rfl

/-- Where an update element lands: `(e, p)` lands on `(r, q)` exactly when row `e`'s number, read signed, is `r`, and the
    columns agree. -/
theorem resultIdx?_eq_some_iff {N C n w : Nat}
    (wf : ScatterDims.WF ⟨2, ![N, C]⟩ ⟨2, ![n, 1]⟩ ⟨2, ![n, C]⟩ [1] [0] [0] 1)
    (idx : IVec ⟨2, ![n, 1]⟩ w) (e : Fin n) (p : Fin C) (r : Fin N) (q : Fin C) :
    (rowDims N C n wf).resultIdx? (ix2 e p) idx = some (ix2 r q)
      ↔ (idx (ix2 e (0 : Fin 1))).toInt = (r.val : Int) ∧ p = q := by
  have hs0 := start_row wf idx e p
  have hs1 := start_col wf idx e p
  have hw0 := window_row wf e p
  have hw1 := window_col wf e p
  unfold ScatterDims.resultIdx?
  constructor
  · intro h
    split at h
    · rename_i hb
      have hf := Option.some.inj h
      have h0 := congrArg Fin.val (congrFun hf 0)
      have h1 := congrArg Fin.val (congrFun hf 1)
      have hb0 := (hb 0).1
      simp only [hs0, hw0] at h0 hb0
      simp only [hs1, hw1] at h1
      change ((idx (ix2 e (0 : Fin 1))).toInt + ((0 : Nat) : Int)).toNat = r.val at h0
      change ((0 : Int) + (p.val : Int)).toNat = q.val at h1
      refine ⟨by omega, Fin.ext (by omega)⟩
    · exact absurd h (by simp)
  · rintro ⟨hr, rfl⟩
    have hb : ∀ a, 0 ≤ (rowDims N C n wf).start (ix2 e p) idx a + (rowDims N C n wf).window (ix2 e p) a
        ∧ (rowDims N C n wf).start (ix2 e p) idx a + (rowDims N C n wf).window (ix2 e p) a
          < (⟨2, ![N, C]⟩ : Shape).size a := by
      intro a
      match a with
      | ⟨0, _⟩ =>
        have hN : r.val < N := r.isLt
        show 0 ≤ (rowDims N C n wf).start (ix2 e p) idx 0 + (rowDims N C n wf).window (ix2 e p) 0
          ∧ (rowDims N C n wf).start (ix2 e p) idx 0 + (rowDims N C n wf).window (ix2 e p) 0 < (N : Int)
        rw [hs0, hw0, hr]; omega
      | ⟨1, _⟩ =>
        have hC : p.val < C := p.isLt
        show 0 ≤ (rowDims N C n wf).start (ix2 e p) idx 1 + (rowDims N C n wf).window (ix2 e p) 1
          ∧ (rowDims N C n wf).start (ix2 e p) idx 1 + (rowDims N C n wf).window (ix2 e p) 1 < (C : Int)
        rw [hs1, hw1]; omega
    rw [dif_pos hb]
    congr 1
    funext a
    refine Fin.ext ?_
    match a with
    | ⟨0, _⟩ =>
      show ((rowDims N C n wf).start (ix2 e p) idx 0 + (rowDims N C n wf).window (ix2 e p) 0).toNat = r.val
      rw [hs0, hw0, hr]; omega
    | ⟨1, _⟩ =>
      show ((rowDims N C n wf).start (ix2 e p) idx 1 + (rowDims N C n wf).window (ix2 e p) 1).toNat = p.val
      rw [hs1, hw1]; omega

/-- THE ROW SCATTER-ADD READ AT `(r, q)`: the operand's element plus the sum, over the update rows `e` whose row number read
    signed is `r`, of the update's element `(e, q)`. The update elements landing on `(r, q)` are exactly the `(e, q)` with
    row `e` numbered `r`, one for each such row: the sum over them is re-indexed by the row. -/
theorem scatterAdd_rows_apply {N C n w : Nat}
    (wf : ScatterDims.WF ⟨2, ![N, C]⟩ ⟨2, ![n, 1]⟩ ⟨2, ![n, C]⟩ [1] [0] [0] 1)
    (x : (⟨2, ![N, C]⟩ : Shape).Idx → EReal) (idx : IVec ⟨2, ![n, 1]⟩ w)
    (upd : (⟨2, ![n, C]⟩ : Shape).Idx → EReal) (r : Fin N) (q : Fin C) :
    Ideal.hostScatterAdd (rowDims N C n wf) x idx upd (ix2 r q)
      = x (ix2 r q) + ∑ e ∈ Finset.univ.filter (fun e : Fin n => (idx (ix2 e (0 : Fin 1))).toInt = (r.val : Int)),
          upd (ix2 e q) := by
  unfold Ideal.hostScatterAdd
  congr 1
  symm
  refine Finset.sum_nbij' (fun e : Fin n => ix2 e q) (fun j => (j 0 : Fin n)) ?_ ?_ ?_ ?_ ?_
  · intro e he
    rw [Finset.mem_filter] at he ⊢
    exact ⟨Finset.mem_univ _, (resultIdx?_eq_some_iff wf idx e q r q).mpr ⟨he.2, rfl⟩⟩
  · intro j hj
    obtain ⟨e, p, rfl⟩ : ∃ (e : Fin n) (p : Fin C), j = ix2 e p := ⟨j 0, j 1, eq_ix2 j⟩
    rw [Finset.mem_filter] at hj
    exact Finset.mem_filter.mpr ⟨Finset.mem_univ e, ((resultIdx?_eq_some_iff wf idx e p r q).mp hj.2).1⟩
  · intro e _
    rfl
  · intro j hj
    obtain ⟨e, p, rfl⟩ : ∃ (e : Fin n) (p : Fin C), j = ix2 e p := ⟨j 0, j 1, eq_ix2 j⟩
    rw [Finset.mem_filter] at hj
    have hpq := ((resultIdx?_eq_some_iff wf idx e p r q).mp hj.2).2
    subst hpq
    rfl
  · intro e _
    rfl

end Idealize.ShloMosaic.RowScatter

end
-- ==== Proof.LibIntScatterCount.lean ====
/-
  An integer scatter-add of ones into zeros, read at an index, is a count.

  jax's `bincount(ids, length = N)` lowers to a `stablehlo.scatter` with an integer `add` body: the operand is the vector
  `[N]` of zeros, the updates are the vector `[n]` of ones, and the scatter indices are the column `[n, 1]` of row numbers.
  Operand axis 0 is the one inserted window axis and the one scattered axis; the updates have no window axis. Update element
  `e` lands on operand element `r` exactly when the `e`-th row number, read as a signed integer and NOT clamped, is `r`; a row
  number outside `[0, N)` drops its update. The scatter is the left fold, over the update positions in row-major order, of
  "add the update where it lands"; with every update equal to one, the fold's value at `r` is the operand's plus the NUMBER of
  update positions landing on `r`, the sum taken in the 32-bit words. For the vector scatter that number is the number of
  `e : Fin n` whose row number is `r`.
-/
import Mathlib.Data.Fintype.Card
import Mathlib.Data.Fintype.EquivFin
import Idealize.ShloMosaic.Lib.ValueIdx
import Idealize.ShloMosaic.PureOps.ShapeOps

noncomputable section

namespace Idealize.ShloMosaic.IntScatterCount

open Idealize.ShloMosaic Idealize.ShloMosaic.ValueIdx

/-- The dimension numbers of a scatter into a vector `[N]` of scalar updates `[n]` by a column `[n, 1]` of row numbers;
    their conditions `wf` are decided on a program's literal shapes. -/
abbrev vecDims (N n : Nat)
    (wf : ScatterDims.WF ⟨1, ![N]⟩ ⟨2, ![n, 1]⟩ ⟨1, ![n]⟩ [] [0] [0] 1) :
    ScatterDims ⟨1, ![N]⟩ ⟨2, ![n, 1]⟩ ⟨1, ![n]⟩ where
  updateWindowDims := []
  insertedWindowDims := [0]
  scatterDimsToOperandDims := [0]
  indexVectorDim := 1
  wf := wf

/-- On the one operand axis the window starts at the update's row number, read signed off the column of row numbers: the axis
    is the one the map names, and the scatter-indices index read is the update's position with `0` on the index vector's
    axis. -/
theorem start_row {N n w : Nat}
    (wf : ScatterDims.WF ⟨1, ![N]⟩ ⟨2, ![n, 1]⟩ ⟨1, ![n]⟩ [] [0] [0] 1)
    (idx : IVec ⟨2, ![n, 1]⟩ w) (e : Fin n) :
    (vecDims N n wf).start (ix1 e) idx 0 = (idx (ix2 e (0 : Fin 1))).toInt := by
  unfold ScatterDims.start
  rw [dif_pos (show (0 : Fin 1) ∈ (vecDims N n wf).scatterDimsToOperandDims from List.mem_singleton.mpr rfl)]
  have hsi : (vecDims N n wf).siIdx (ix1 e) ⟨List.idxOf (0 : Fin 1) (vecDims N n wf).scatterDimsToOperandDims,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]

/-- The one operand axis is the inserted window axis: its window coordinate is zero. -/
theorem window_row {N n : Nat}
    (wf : ScatterDims.WF ⟨1, ![N]⟩ ⟨2, ![n, 1]⟩ ⟨1, ![n]⟩ [] [0] [0] 1) (e : Fin n) :
    (vecDims N n wf).window (ix1 e) 0 = 0 := by
  unfold ScatterDims.window
  have h0 : ¬ (0 : Fin 1) ∈ ([] : List (Fin 1)) := by decide
  rw [dif_neg (show ¬ (0 : Fin 1) ∈ (vecDims N n wf).sKept from h0)]

/-- Where an update element lands: `e` lands on `r` exactly when the `e`-th row number, read signed, is `r`. -/
theorem resultIdx?_eq_some_iff {N n w : Nat}
    (wf : ScatterDims.WF ⟨1, ![N]⟩ ⟨2, ![n, 1]⟩ ⟨1, ![n]⟩ [] [0] [0] 1)
    (idx : IVec ⟨2, ![n, 1]⟩ w) (e : Fin n) (r : Fin N) :
    (vecDims N n wf).resultIdx? (ix1 e) idx = some (ix1 r)
      ↔ (idx (ix2 e (0 : Fin 1))).toInt = (r.val : Int) := by
  have hs0 := start_row wf idx e
  have hw0 := window_row wf e
  unfold ScatterDims.resultIdx?
  constructor
  · intro h
    split at h
    · rename_i hb
      have hf := Option.some.inj h
      have h0 := congrArg Fin.val (congrFun hf 0)
      have hb0 := (hb 0).1
      simp only [hs0, hw0] at h0 hb0
      change ((idx (ix2 e (0 : Fin 1))).toInt + ((0 : Nat) : Int)).toNat = r.val at h0
      omega
    · exact absurd h (by simp)
  · intro hr
    have hb : ∀ a, 0 ≤ (vecDims N n wf).start (ix1 e) idx a + (vecDims N n wf).window (ix1 e) a
        ∧ (vecDims N n wf).start (ix1 e) idx a + (vecDims N n wf).window (ix1 e) a
          < (⟨1, ![N]⟩ : Shape).size a := by
      intro a
      match a with
      | ⟨0, _⟩ =>
        have hN : r.val < N := r.isLt
        show 0 ≤ (vecDims N n wf).start (ix1 e) idx 0 + (vecDims N n wf).window (ix1 e) 0
          ∧ (vecDims N n wf).start (ix1 e) idx 0 + (vecDims N n wf).window (ix1 e) 0 < (N : Int)
        rw [hs0, hw0, hr]; omega
    rw [dif_pos hb]
    congr 1
    funext a
    refine Fin.ext ?_
    match a with
    | ⟨0, _⟩ =>
      show ((vecDims N n wf).start (ix1 e) idx 0 + (vecDims N n wf).window (ix1 e) 0).toNat = r.val
      rw [hs0, hw0, hr]; omega

/-- The scatter's fold with every update one: for any dimension numbers and any list `l` of update positions, the fold's value
    at `i` is the start value at `i` plus, in the 32-bit words, the number of positions of `l` that land on `i`. Each step
    either lands on `i` and adds one there, or leaves the value at `i` alone. -/
theorem foldl_addi_ones_apply {s si u : Shape} {w : Nat} (d : ScatterDims s si u) (idx : IVec si w)
    (l : List (Fin u.numel)) (x : s.Idx → BitVec 32) (i : s.Idx) :
    (l.foldl (fun r n =>
        match d.resultIdx? (u.rowMajor.symm n) idx with
        | some i => fun i' => if i' = i then IntOp.addi (r i) ((fun _ : u.Idx => 1#32) (u.rowMajor.symm n)) else r i'
        | none => r) x) i
      = x i + BitVec.ofNat 32 (l.countP (fun n => decide (d.resultIdx? (u.rowMajor.symm n) idx = some i))) := by
  induction l generalizing x with
  | nil => simp
  | cons n l ih =>
    rw [List.foldl_cons, ih, List.countP_cons]
    cases hres : d.resultIdx? (u.rowMajor.symm n) idx with
    | none =>
      simp
    | some i0 =>
      by_cases hi : i = i0
      · subst hi
        simp only [if_true, decide_true, IntOp.addi]
        rw [BitVec.ofNat_add, BitVec.add_assoc, BitVec.add_comm (BitVec.ofNat 32 _) (BitVec.ofNat 32 1)]
      · have hne : ¬ (some i0 = some i) := fun h => hi (Option.some.inj h).symm
        simp [hi, hne]

/-- The positions of the row-major list of all update positions that land on `i` are as many as the update indices that land
    on `i`: the row-major numbering is a bijection from the update indices to the positions. -/
theorem countP_finRange_eq_card {s si u : Shape} {w : Nat} (d : ScatterDims s si u) (idx : IVec si w) (i : s.Idx) :
    (List.finRange u.numel).countP (fun n => decide (d.resultIdx? (u.rowMajor.symm n) idx = some i))
      = (Finset.univ.filter (fun j : u.Idx => d.resultIdx? j idx = some i)).card := by
  have h1 : (List.finRange u.numel).countP (fun n => decide (d.resultIdx? (u.rowMajor.symm n) idx = some i))
      = (Finset.univ.filter (fun n : Fin u.numel => d.resultIdx? (u.rowMajor.symm n) idx = some i)).card := by
    rw [List.countP_eq_length_filter]
    rfl
  rw [h1]
  refine Finset.card_equiv u.rowMajor.symm ?_
  intro n
  simp only [Finset.mem_filter, Finset.mem_univ, true_and]

/-- For the vector scatter, the update indices landing on `r` are as many as the `e : Fin n` whose row number, read signed, is
    `r`: an update index is its one coordinate. -/
theorem card_landing_eq {N n w : Nat}
    (wf : ScatterDims.WF ⟨1, ![N]⟩ ⟨2, ![n, 1]⟩ ⟨1, ![n]⟩ [] [0] [0] 1)
    (idx : IVec ⟨2, ![n, 1]⟩ w) (r : Fin N) :
    (Finset.univ.filter (fun j : (⟨1, ![n]⟩ : Shape).Idx => (vecDims N n wf).resultIdx? j idx = some (ix1 r))).card
      = (Finset.univ.filter (fun e : Fin n => (idx (ix2 e (0 : Fin 1))).toInt = (r.val : Int))).card := by
  symm
  refine Finset.card_nbij' (fun e : Fin n => ix1 e) (fun j => (j 0 : Fin n)) ?_ ?_ ?_ ?_
  · intro e he
    have he' := (Finset.mem_filter.mp (Finset.mem_coe.mp he)).2
    exact Finset.mem_coe.mpr (Finset.mem_filter.mpr ⟨Finset.mem_univ _, (resultIdx?_eq_some_iff wf idx e r).mpr he'⟩)
  · intro j hj
    obtain ⟨e, rfl⟩ : ∃ e : Fin n, j = ix1 e := ⟨j 0, eq_ix1 j⟩
    have hj' := (Finset.mem_filter.mp (Finset.mem_coe.mp hj)).2
    exact Finset.mem_coe.mpr (Finset.mem_filter.mpr ⟨Finset.mem_univ e, (resultIdx?_eq_some_iff wf idx e r).mp hj'⟩)
  · intro e _
    rfl
  · intro j _
    exact (eq_ix1 j).symm

/-- The integer scatter-add of updates that are all one, into any operand, read at `r`: the operand's element plus, in the
    32-bit words, the number of update positions `e` whose row number read signed is `r`. -/
theorem scatter_addi_all_ones_apply {N n w : Nat}
    (wf : ScatterDims.WF ⟨1, ![N]⟩ ⟨2, ![n, 1]⟩ ⟨1, ![n]⟩ [] [0] [0] 1)
    (x : IVec ⟨1, ![N]⟩ 32) (idx : IVec ⟨2, ![n, 1]⟩ w) (upd : IVec ⟨1, ![n]⟩ 32) (hu : ∀ j, upd j = 1#32) (r : Fin N) :
    Host.scatter (vecDims N n wf) IntOp.addi x idx upd (ix1 r)
      = x (ix1 r)
        + BitVec.ofNat 32 (Finset.univ.filter (fun e : Fin n => (idx (ix2 e (0 : Fin 1))).toInt = (r.val : Int))).card := by
  have hupd : upd = fun _ => 1#32 := funext hu
  subst hupd
  unfold Host.scatter
  refine (foldl_addi_ones_apply (vecDims N n wf) idx (List.finRange (⟨1, ![n]⟩ : Shape).numel) x (ix1 r)).trans ?_
  rw [countP_finRange_eq_card, card_landing_eq]

/-- THE INTEGER SCATTER-ADD OF ONES INTO ZEROS READ AT `r`: the number, as a 32-bit word, of update positions `e` whose row
    number read signed is `r`. The fold adds one at `r` for each such position and nothing else, starting from zero. -/
theorem scatter_addi_ones_apply {N n w : Nat}
    (wf : ScatterDims.WF ⟨1, ![N]⟩ ⟨2, ![n, 1]⟩ ⟨1, ![n]⟩ [] [0] [0] 1)
    (idx : IVec ⟨2, ![n, 1]⟩ w) (r : Fin N) :
    Host.scatter (vecDims N n wf) IntOp.addi (fun _ => 0#32) idx (fun _ => 1#32) (ix1 r)
      = BitVec.ofNat 32 (Finset.univ.filter (fun e : Fin n => (idx (ix2 e (0 : Fin 1))).toInt = (r.val : Int))).card := by
  rw [scatter_addi_all_ones_apply wf (fun _ => 0#32) idx (fun _ => 1#32) (fun _ => rfl) r, BitVec.zero_add]

end Idealize.ShloMosaic.IntScatterCount

end
-- ==== Proof.Cnt.lean ====
/-
  The two counts of incoming edges agree when no receiver number is negative.

  The kernel's program counts in the integers: a receiver's number is first raised to zero where it is negative, then wrapped
  as a row number would be (fifty thousand added where it is negative), and a one is added, as a 32-bit word, into a vector of
  zeros at that number; the words are then read as signed integers, converted to floats, and stood up as a column. The
  reference adds float ones into a column of zeros at the receivers' numbers themselves.

  When every receiver's number `r e`, read signed, is at least zero, raising to zero leaves it as it is (the signed maximum
  of `0` and `r e` is `r e`), the wrap's comparison `r e < 0` fails and the wrap leaves it as it is too. Both counts at node
  `n` are then the NUMBER of edges `e` with `r e = n`: the kernel's is that number as a 32-bit word, and since the number is at
  most 800000, below `2 ^ 31`, the word read signed is the number; the reference's is `0` plus a sum of that many ones.
-/
import proofs.«424724_j43928925503631_1_alg».proof.Proof.KSpec
import proofs.«424724_j43928925503631_1_alg».proof.Proof.Spec
import proofs.«424724_j43928925503631_1_alg».proof.Proof.LibRowScatter
import proofs.«424724_j43928925503631_1_alg».proof.Proof.LibIntScatterCount
import Idealize.ShloMosaic.PureOps.Ideal
import Idealize.ShloMosaic.PureOps.Ideal.Laws
import Idealize.ShloMosaic.Lib.IdealHost
import Idealize.ShloMosaic.Lib.Pipeline.Value
import Mathlib.Data.EReal.Basic
import Mathlib.Algebra.BigOperators.Group.Finset.Basic

noncomputable section

namespace Cert.Cnt

open Idealize.ShloMosaic Idealize.ShloMosaic.ValueIdx

/-- The edges whose receiver's number, read signed, is `n`. -/
abbrev into (r : IVec Cert.KernelIdeal.S800000 32) (n : Fin 50000) : Finset (Fin 800000) :=
  Finset.univ.filter (fun e : Fin 800000 => (r (ix1 e)).toInt = (n.val : Int))

/-- A number that is at least zero is not below zero in the signed order. -/
theorem slt_zero_eq_false (b : BitVec 32) (hb : 0 ≤ b.toInt) : b.slt 0#32 = false := by
  rw [BitVec.slt]
  simp only [BitVec.toInt_zero, decide_eq_false_iff_not, not_lt]
  exact hb

/-- Raising to zero leaves a receiver's number that is at least zero as it is: the signed maximum of `0` and `r e`. -/
theorem clip0_apply (r : IVec Cert.KernelIdeal.S800000 32)
    (hr : ∀ e : Fin 800000, 0 ≤ (r (ix1 e)).toInt) (e : Fin 800000) :
    Cert.KSpec.clip0 r (ix1 e) = r (ix1 e) := by
  show IntOp.maxsi 0#32 (r (ix1 e)) = r (ix1 e)
  unfold IntOp.maxsi
  rw [slt_zero_eq_false _ (hr e)]
  rfl

/-- A vector stood up as a column, read at `(e, 0)`, is the vector at `e`. -/
theorem column_apply {α : Type} (h : Cert.KernelIdeal.S800000.BroadcastsInDim Cert.KernelIdeal.S800000x1 ![0])
    (v : Cert.KernelIdeal.S800000.Idx → α) (e : Fin 800000) :
    broadcastInDim Cert.KernelIdeal.S800000x1 ![0] h v (ix2 e (0 : Fin 1)) = v (ix1 e) := by
  refine Idealize.ShloMosaic.broadcastInDim_apply _ h v _ (ix1 e) ?_
  intro a
  match a with
  | ⟨0, _⟩ => rfl

/-- The wrapped column of the raised numbers, read at `(e, 0)`, is `r e` when `r e` is at least zero: the comparison
    `r e < 0` fails, so the wrap keeps the number. -/
theorem clipIdx_apply (r : IVec Cert.KernelIdeal.S800000 32)
    (hr : ∀ e : Fin 800000, 0 ≤ (r (ix1 e)).toInt) (e : Fin 800000) :
    Cert.KSpec.clipIdx r (ix2 e (0 : Fin 1)) = r (ix1 e) := by
  unfold Cert.KSpec.clipIdx
  rw [column_apply, select_apply]
  have hc : cmpi .slt (Cert.KSpec.clip0 r)
      (broadcastInDim Cert.KernelIdeal.S800000 ![] Cert.KernelIdeal.Gen.bcast_S_S800000 (constantI Cert.KernelIdeal.S_ 32 0#32))
      (ix1 e) = 0#1 := by
    show IntOp.cmpi .slt (Cert.KSpec.clip0 r (ix1 e)) 0#32 = 0#1
    rw [clip0_apply r hr e]
    unfold IntOp.cmpi
    show BitVec.ofBool ((r (ix1 e)).slt 0#32) = 0#1
    rw [slt_zero_eq_false _ (hr e)]
    rfl
  rw [hc, select_zero, clip0_apply r hr e]

/-- The kernel's integer count at node `n`: the number of edges into `n`, as a 32-bit word. -/
theorem cntInt_apply (r : IVec Cert.KernelIdeal.S800000 32)
    (hr : ∀ e : Fin 800000, 0 ≤ (r (ix1 e)).toInt) (n : Fin 50000) :
    Cert.KSpec.cntInt r (ix1 n) = BitVec.ofNat 32 (into r n).card := by
  unfold Cert.KSpec.cntInt
  have h := IntScatterCount.scatter_addi_all_ones_apply
    Cert.KernelIdeal.Gen.scatter_S50000_S800000x1_S800000_n_0_0_1_wf
    (broadcastInDim Cert.KernelIdeal.S50000 ![] Cert.KernelIdeal.Gen.bcast_S_S50000 (constantI Cert.KernelIdeal.S_ 32 0#32))
    (Cert.KSpec.clipIdx r)
    (broadcastInDim Cert.KernelIdeal.S800000 ![] Cert.KernelIdeal.Gen.bcast_S_S800000 (constantI Cert.KernelIdeal.S_ 32 1#32))
    (fun _ => rfl) n
  refine h.trans ?_
  have hz : broadcastInDim Cert.KernelIdeal.S50000 ![] Cert.KernelIdeal.Gen.bcast_S_S50000
      (constantI Cert.KernelIdeal.S_ 32 0#32) (ix1 n) = 0#32 := rfl
  have hf : Finset.univ.filter (fun e : Fin 800000 =>
      (Cert.KSpec.clipIdx r (ix2 e (0 : Fin 1))).toInt = (n.val : Int)) = into r n :=
    Finset.filter_congr (fun e _ => by rw [clipIdx_apply r hr e])
  rw [hz, BitVec.zero_add, hf]

/-- A number of edges, as a 32-bit word read signed, is the number: it is at most 800000, below `2 ^ 31`. -/
theorem toInt_ofNat_card (s : Finset (Fin 800000)) : (BitVec.ofNat 32 s.card).toInt = (s.card : Int) := by
  have hle : s.card ≤ 800000 := by
    have := Finset.card_le_univ s
    rwa [Fintype.card_fin] at this
  rw [BitVec.toInt_eq_toNat_cond, BitVec.toNat_ofNat]
  have hm : s.card % 2 ^ 32 = s.card := Nat.mod_eq_of_lt (by omega)
  rw [hm, if_pos (by omega)]

/-- The kernel's count at `(n, 0)`: the number of edges into `n`. -/
theorem cntK_apply (r : IVec Cert.KernelIdeal.S800000 32)
    (hr : ∀ e : Fin 800000, 0 ≤ (r (ix1 e)).toInt) (n : Fin 50000) :
    Cert.KSpec.cntK (F := Ideal) r (ix2 n (0 : Fin 1)) = (((into r n).card : ℕ) : EReal) := by
  unfold Cert.KSpec.cntK
  have hb : broadcastInDim Cert.KernelIdeal.S50000x1 ![0] Cert.KernelIdeal.Gen.bcast_S50000_S50000x1_0
      (sitofp (F := Ideal) .f32 (Cert.KSpec.cntInt r)) (ix2 n (0 : Fin 1))
      = sitofp (F := Ideal) .f32 (Cert.KSpec.cntInt r) (ix1 n) := by
    refine Idealize.ShloMosaic.broadcastInDim_apply _ _ _ _ (ix1 n) ?_
    intro a
    match a with
    | ⟨0, _⟩ => rfl
  rw [hb]
  show (((Cert.KSpec.cntInt r (ix1 n)).toInt : ℝ) : EReal) = _
  rw [cntInt_apply r hr n, toInt_ofNat_card, Int.cast_natCast]
  rfl

/-- The reference's dimension numbers are the row scatter's into a table `[50000, 1]` of updates `[800000, 1]`. -/
theorem refDims_eq : Cert.ReferenceIdeal.scatter_S50000x1_S800000x1_S800000x1_1_0_0_1
    = RowScatter.rowDims 50000 1 800000 Cert.ReferenceIdeal.Gen.scatter_S50000x1_S800000x1_S800000x1_1_0_0_1_wf := rfl

/-- Over the extended reals the host's accumulating float scatter is the exact one: each element plus the sum of the updates
    landing on it. -/
theorem scatterAdd_eq {s si u : Shape} {w : Nat} (d : ScatterDims s si u) (x : FVec Ideal s .f32) (idx : IVec si w)
    (upd : FVec Ideal u .f32) : Host.scatterAdd d x idx upd = Ideal.hostScatterAdd d x idx upd := rfl

/-- The reference's count at `(n, 0)`: zero plus a one for every edge into `n`. -/
theorem cntRef_apply (r : IVec Cert.KernelIdeal.S800000 32) (n : Fin 50000) :
    Cert.Spec.cntRef (F := Ideal) r (ix2 n (0 : Fin 1)) = (((into r n).card : ℕ) : EReal) := by
  unfold Cert.Spec.cntRef
  rw [scatterAdd_eq, refDims_eq]
  refine (RowScatter.scatterAdd_rows_apply _ _ _ _ n (0 : Fin 1)).trans ?_
  have hz : broadcastInDim Cert.ReferenceIdeal.S50000x1 ![] Cert.ReferenceIdeal.Gen.bcast_S_S50000x1
      (constant (F := Ideal) Cert.ReferenceIdeal.S_ .f32 0x00000000#32) (ix2 n (0 : Fin 1)) = 0 :=
    Ideal.ofBits_zero_f32
  have ho : ∀ e : Fin 800000, broadcastInDim Cert.ReferenceIdeal.S800000x1 ![] Cert.ReferenceIdeal.Gen.bcast_S_S800000x1
      (constant (F := Ideal) Cert.ReferenceIdeal.S_ .f32 0x3F800000#32) (ix2 e (0 : Fin 1)) = 1 :=
    fun _ => Ideal.ofBits_one_f32
  have hf : Finset.univ.filter (fun e : Fin 800000 =>
      (broadcastInDim Cert.ReferenceIdeal.S800000x1 ![0] Cert.ReferenceIdeal.Gen.bcast_S800000_S800000x1_0 r
        (ix2 e (0 : Fin 1))).toInt = (n.val : Int)) = into r n :=
    Finset.filter_congr (fun e _ => by rw [column_apply])
  rw [hz, zero_add, hf, Finset.sum_congr rfl (fun e _ => ho e), Finset.sum_const, nsmul_one]

/-- THE TWO COUNTS AGREE when no receiver number is negative: at every node both are the number of edges into it. -/
theorem cntK_eq_cntRef (r : IVec Cert.KernelIdeal.S800000 32) (hr : ∀ e : Fin 800000, 0 ≤ (r (Idealize.ShloMosaic.ValueIdx.ix1 e)).toInt) :
    Cert.KSpec.cntK (F := Ideal) r = Cert.Spec.cntRef (F := Ideal) r := by
  funext j
  obtain ⟨n, z, rfl⟩ : ∃ (n : Fin 50000) (z : Fin 1), j = ix2 n z := ⟨j 0, j 1, eq_ix2 j⟩
  obtain rfl : z = 0 := Subsingleton.elim _ _
  rw [cntK_apply r hr n, cntRef_apply r n]

end Cert.Cnt

end
-- ==== Proof.PreNonneg.lean ====
/-
  Every receiver number is nonnegative.

  The precondition is one bit: the conjunction, over the inputs, of an "all" test per input. Its last conjunct tests
  the receiver array r : for every edge e, the 32-bit word r e, read signed, is at least 0. A conjunction of bits that
  is 1 has each conjunct 1 (only the last is kept); a conjunction over all 800000 positions that is 1 has a 1 at every
  position e ; and the signed comparison "r e ≥ 0" being 1 says 0 ≤ (r e).toInt, since the zero word reads 0.
-/
import proofs.«424724_j43928925503631_1_alg».proof.Proof.Gen.Pre_finite_inputs
import Idealize.ShloMosaic.Lib.ReduceAll
import Idealize.ShloMosaic.Lib.ValueIdx

namespace Cert.PreNonneg

/-- The shape with no axes has one index. -/
instance : Subsingleton Cert.Pre_finite_inputs.S_.Idx := ⟨fun a b => funext fun d => d.elim0⟩

open Idealize.ShloMosaic Cert.Pre_finite_inputs in
/-- Under the precondition, every receiver word read signed is at least 0. -/
theorem receivers_nonneg {F : FTy → Type} [FloatOps F] (a0 : FVec F S50000x128 .f32) (a1 a2 : IVec S800000 32) (a3 : FVec F S256x64 .f32) (a4 : FVec F S64 .f32) (a5 : FVec F S64x128 .f32) (a6 : FVec F S128 .f32) (a7 : FVec F S256x64 .f32) (a8 : FVec F S64 .f32) (a9 : FVec F S64x128 .f32) (a10 : FVec F S128 .f32) (a11 : FVec F S128x64 .f32) (a12 : FVec F S64 .f32) (a13 : FVec F S64x1 .f32) (a14 : FVec F S1 .f32)
    (h : Cert.Pre_finite_inputs.fn (F := F) a0 a1 a2 a3 a4 a5 a6 a7 a8 a9 a10 a11 a12 a13 a14 = fun _ => 1#1) (e : Fin 800000) :
    0 ≤ (a2 (Idealize.ShloMosaic.ValueIdx.ix1 e)).toInt := by
  -- the one bit of the precondition, with the chain of conjunctions in view
  have h0 := congrFun h ValueIdx.ix0
  dsimp only [Cert.Pre_finite_inputs.fn, fn_part1, fn_part2, fn_part3] at h0
  -- the last conjunct: the conjunction over all positions of "r e ≥ 0"
  obtain ⟨-, hall⟩ := IntOp.andi_eq_one.1 h0
  -- at position e
  have he := Host.reduce_andi_all _ _ _ _ _ hall (ValueIdx.ix1 e)
  -- the compared words at e are r e and the zero word
  have hc : IntOp.cmpi .sge (a2 (ValueIdx.ix1 e)) 0#32 = 1#1 := he
  have hz := IntOp.cmpi_sge.1 hc
  rwa [show (0#32 : BitVec 32).toInt = 0 from by decide] at hz

end Cert.PreNonneg
-- ==== Proof.Claims.lean ====
/-
  The five claims. The three frames are the generated runs. The kernel's program, read at the extended reals, ends
  with the model of the specification at the counts it makes by adding integer ones at the receivers; the reference
  ends with the same model at the counts it makes by adding float ones. Where every receiver number is at least zero
  the two counts are the same numbers, so the two results are one array.
-/
import proofs.«424724_j43928925503631_1_alg».proof.Defs
import proofs.«424724_j43928925503631_1_alg».proof.Proof.Gen.Kernel.Frame
import proofs.«424724_j43928925503631_1_alg».proof.Proof.Gen.KernelIdeal.Frame
import proofs.«424724_j43928925503631_1_alg».proof.Proof.Gen.Pre_finite_inputs
import proofs.«424724_j43928925503631_1_alg».proof.Proof.RefRunP
import proofs.«424724_j43928925503631_1_alg».proof.Proof.RefSpec
import proofs.«424724_j43928925503631_1_alg».proof.Proof.KernelRunP
import proofs.«424724_j43928925503631_1_alg».proof.Proof.KV5
import proofs.«424724_j43928925503631_1_alg».proof.Proof.Cnt
import proofs.«424724_j43928925503631_1_alg».proof.Proof.PreNonneg

set_option maxRecDepth 16384

noncomputable section

namespace Cert.Proof.Claims

open Idealize.ShloMosaic Idealize.ShloMosaic.TcCoe Idealize.SL.Sem

theorem frame_p : Cert.frame_Kernel := fun m ρ _ => Cert.Kernel.Gen.frame m ρ
theorem frame_pi : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.ValueP.run (F := Ideal) m ρ)

/-- The ideal pass rewrote nothing. -/
theorem preserves : Cert.preserves_Kernel_KernelIdeal := trivial

/-- Under the precondition every receiver number is at least zero. -/
theorem receivers_nonneg (m : (ℓ : Loc Cert.KernelIdeal.nD Cert.KernelIdeal.τ Cert.KernelIdeal.sig) → Buf (Elt Ideal) ℓ)
    (hpre : Cert.Pre_KernelIdeal m) (c : Dev Cert.KernelIdeal.nD) (e : Fin 800000) :
    0 ≤ ((m ((c.tc : Thread Cert.KernelIdeal.nD Cert.KernelIdeal.τ).loc Cert.KernelIdeal.main_arg2) : IVec Cert.KernelIdeal.S800000 32) (ValueIdx.ix1 e)).toInt :=
  Cert.PreNonneg.receivers_nonneg (F := Ideal) _ _ _ _ _ _ _ _ _ _ _ _ _ _ _ (hpre c) e

/-- The kernel's result array is the model at the reference's counts. -/
theorem kernel_value (m : (ℓ : Loc Cert.KernelIdeal.nD Cert.KernelIdeal.τ Cert.KernelIdeal.sig) → Buf (Elt Ideal) ℓ)
    (ρ : Dev Cert.KernelIdeal.nD → PrngReg) (hpre : Cert.Pre_KernelIdeal m) (c : Dev Cert.KernelIdeal.nD) :
    (Cert.KernelIdeal.Gen.W12 m ρ c (Proc.devRef .tc Cert.KernelIdeal.main_v72) : FVec Ideal Cert.KernelIdeal.S50000x1 .f32)
      = Cert.Spec.model (F := Ideal) (Cert.Spec.cntRef (F := Ideal) (m ((c.tc : Thread Cert.KernelIdeal.nD Cert.KernelIdeal.τ).loc Cert.KernelIdeal.main_arg2)))
          (m ((c.tc : Thread Cert.KernelIdeal.nD Cert.KernelIdeal.τ).loc Cert.KernelIdeal.main_arg0))
          (m ((c.tc : Thread Cert.KernelIdeal.nD Cert.KernelIdeal.τ).loc Cert.KernelIdeal.main_arg1))
          (m ((c.tc : Thread Cert.KernelIdeal.nD Cert.KernelIdeal.τ).loc Cert.KernelIdeal.main_arg2))
          (m ((c.tc : Thread Cert.KernelIdeal.nD Cert.KernelIdeal.τ).loc Cert.KernelIdeal.main_arg3))
          (m ((c.tc : Thread Cert.KernelIdeal.nD Cert.KernelIdeal.τ).loc Cert.KernelIdeal.main_arg4))
          (m ((c.tc : Thread Cert.KernelIdeal.nD Cert.KernelIdeal.τ).loc Cert.KernelIdeal.main_arg5))
          (m ((c.tc : Thread Cert.KernelIdeal.nD Cert.KernelIdeal.τ).loc Cert.KernelIdeal.main_arg6))
          (m ((c.tc : Thread Cert.KernelIdeal.nD Cert.KernelIdeal.τ).loc Cert.KernelIdeal.main_arg7))
          (m ((c.tc : Thread Cert.KernelIdeal.nD Cert.KernelIdeal.τ).loc Cert.KernelIdeal.main_arg8))
          (m ((c.tc : Thread Cert.KernelIdeal.nD Cert.KernelIdeal.τ).loc Cert.KernelIdeal.main_arg9))
          (m ((c.tc : Thread Cert.KernelIdeal.nD Cert.KernelIdeal.τ).loc Cert.KernelIdeal.main_arg10))
          (m ((c.tc : Thread Cert.KernelIdeal.nD Cert.KernelIdeal.τ).loc Cert.KernelIdeal.main_arg11))
          (m ((c.tc : Thread Cert.KernelIdeal.nD Cert.KernelIdeal.τ).loc Cert.KernelIdeal.main_arg12))
          (m ((c.tc : Thread Cert.KernelIdeal.nD Cert.KernelIdeal.τ).loc Cert.KernelIdeal.main_arg13))
          (m ((c.tc : Thread Cert.KernelIdeal.nD Cert.KernelIdeal.τ).loc Cert.KernelIdeal.main_arg14)) := by
  refine (Cert.KernelIdeal.KV.W12_v72 m ρ c).trans ?_
  rw [Cert.Cnt.cntK_eq_cntRef _ (receivers_nonneg m hpre c)]

theorem algebraic : Cert.algebraic_KernelIdeal_ReferenceIdeal := by
  intro m ρ m' ρ' hpre hagree
  refine ⟨fun c => Cert.KernelIdeal.Gen.W12 m ρ c (Proc.devRef .tc Cert.KernelIdeal.main_v72),
    Cert.KernelIdeal.GenP.run_result (F := Ideal) m ρ, ?_⟩
  refine (θ_run Cert.ReferenceIdeal.defs _ _).mono (fun _ h c => ⟨(h c).1.trans ?_, (h c).2⟩)
    (Cert.ReferenceIdeal.ValueP.run (F := Ideal) m' ρ')
  refine (Cert.RefSpec.res_eq_model m' c).trans ?_
  obtain ⟨a0, a1, a2, a3, a4, a5, a6, a7, a8, a9, a10, a11, a12, a13, a14⟩ := hagree c
  rw [a0, a1, a2, a3, a4, a5, a6, a7, a8, a9, a10, a11, a12, a13, a14]
  exact (kernel_value m ρ hpre c).symm

end Cert.Proof.Claims

end
-- ==== Proof.lean ====
/-
  The certificate's claim from its five parts (Proof/Claims.lean): three frames, the ideal pass's empty ledger, and the
  equality of the two programs' results over the extended reals.
-/
import proofs.«424724_j43928925503631_1_alg».proof.Defs
import proofs.«424724_j43928925503631_1_alg».proof.Proof.Gen.Kernel
import proofs.«424724_j43928925503631_1_alg».proof.Proof.Gen.KernelIdeal
import proofs.«424724_j43928925503631_1_alg».proof.Proof.Gen.ReferenceIdeal
import proofs.«424724_j43928925503631_1_alg».proof.Proof.Gen.Pre_finite_inputs
import proofs.«424724_j43928925503631_1_alg».proof.Proof.Claims

noncomputable section

namespace Cert.Proof

open Idealize.ShloMosaic Idealize.SL.Sem

theorem claim : Cert.Claim :=
  ⟨Cert.Kernel.Gen.facts, Cert.KernelIdeal.Gen.facts, Cert.ReferenceIdeal.Gen.facts, Cert.Pre_finite_inputs.Gen.facts,
    Claims.frame_p, Claims.frame_pi, Claims.frame_ri, Claims.preserves, Claims.algebraic⟩

end Cert.Proof

end
